-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S2000 : Shape := ⟨1, ![2000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S64x8 : Shape := ⟨2, ![64, 8]⟩
abbrev S8 : Shape := ⟨1, ![8]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg14 : FVec F S64x8 .f32) (main_arg15 : FVec F S8 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x8 .f32 := Host.absf main_arg14
  let main_cst_20 : FVec F S_ .f32 := constant S_ .f32 0x7F800000#32
  let main_v55 : FVec F S64x8 .f32 := broadcastInDim S64x8 ![] bcast_S_S64x8 main_cst_20
  let main_v56 : IVec S64x8 1 := cmpf .olt main_v54 main_v55
  let main_c_21 : IVec S_ 1 := constantI S_ 1 1#1
  let main_v57 : IVec S_ 1 := (fun x v => Host.reduce IntOp.andi x v reducesTo_S64x8_S_d0_1 h_S_) main_v56 main_c_21
  let main_v58 : IVec S_ 1 := andi main_v53 main_v57
  let main_v59 : FVec F S8 .f32 := Host.absf main_arg15
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg10 : FVec F S3x64x64 .f32) (main_arg11 : FVec F S3x64 .f32) (main_arg12 : FVec F S64x64 .f32) (main_arg13 : FVec F S64 .f32) (main_arg14 : FVec F S64x8 .f32) (main_arg15 : FVec F S8 .f32) (main_v33 : IVec S_ 1) : IVec S_ 1 :=
  let main_v34 : FVec F S3x64x64 .f32 := Host.absf main_arg10
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg11
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_v48 main_v49 main_v50

def fn_part1 {F : FTy → Type} [FloatOps F] (main_arg7 : FVec F S64 .f32) (main_arg8 : FVec F S3x64x64 .f32) (main_arg9 : FVec F S3x64 .f32) (main_arg10 : FVec F S3x64x64 .f32) (main_arg11 : FVec F S3x64 .f32) (main_arg12 : FVec F S64x64 .f32) (main_arg13 : FVec F S64 .f32) (main_arg14 : FVec F S64x8 .f32) (main_arg15 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg8
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg9
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x1 .f32) (main_arg1 : IVec S2x1600000 32) (main_arg2 : IVec S100000 32) (main_arg3 : IVec S2000 32) (main_arg4 : FVec F S1x64 .f32) (main_arg5 : FVec F S64 .f32) (main_arg6 : FVec F S64x64 .f32) (main_arg7 : FVec F S64 .f32) (main_arg8 : FVec F S3x64x64 .f32) (main_arg9 : FVec F S3x64 .f32) (main_arg10 : FVec F S3x64x64 .f32) (main_arg11 : FVec F S3x64 .f32) (main_arg12 : FVec F S64x64 .f32) (main_arg13 : FVec F S64 .f32) (main_arg14 : FVec F S64x8 .f32) (main_arg15 : FVec F S8 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg4
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_arg12 main_arg13 main_arg14 main_arg15 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S2000 : Shape := ⟨1, ![2000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S10000x1 : Shape := ⟨2, ![10000, 1]⟩
abbrev S10000x64 : Shape := ⟨2, ![10000, 64]⟩
abbrev S1x64x64 : Shape := ⟨3, ![1, 64, 64]⟩
abbrev S1600000x64 : Shape := ⟨2, ![1600000, 64]⟩
abbrev S100352x64 : Shape := ⟨2, ![100352, 64]⟩
abbrev S100352 : Shape := ⟨1, ![100352]⟩
abbrev S2000x64 : Shape := ⟨2, ![2000, 64]⟩
abbrev S1024 : Shape := ⟨1, ![1024]⟩
abbrev S1024x64 : Shape := ⟨2, ![1024, 64]⟩
abbrev S1x1024 : Shape := ⟨2, ![1, 1024]⟩
abbrev S2000x1 : Shape := ⟨2, ![2000, 1]⟩
abbrev S2000x1024 : Shape := ⟨2, ![2000, 1024]⟩
abbrev S1x2000 : Shape := ⟨2, ![1, 2000]⟩
abbrev S64x1 : Shape := ⟨2, ![64, 1]⟩
abbrev S64x2000 : Shape := ⟨2, ![64, 2000]⟩
abbrev S1x8 : Shape := ⟨2, ![1, 8]⟩

abbrev nBuf : Space → Nat
  | .hbm => 108
  | .vmem => 52
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S100000, .i32⟩
  | .hbm, ⟨3, _⟩ => ⟨S2000, .i32⟩
  | .hbm, ⟨4, _⟩ => ⟨S1x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3x64x64, .f32⟩
  | .hbm, ⟨9, _⟩ => ⟨S3x64, .f32⟩
  | .hbm, ⟨10, _⟩ => ⟨S3x64x64, .f32⟩
  | .hbm, ⟨11, _⟩ => ⟨S3x64, .f32⟩
  | .hbm, ⟨12, _⟩ => ⟨S64x64, .f32⟩
  | .hbm, ⟨13, _⟩ => ⟨S64, .f32⟩
  | .hbm, ⟨14, _⟩ => ⟨S64x8, .f32⟩
  | .hbm, ⟨15, _⟩ => ⟨S8, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S100000x64, .f32⟩
  | .hbm, ⟨34, _⟩ => ⟨S1x64x64, .f32⟩
  | .hbm, ⟨35, _⟩ => ⟨S64x64, .f32⟩
  | .hbm, ⟨36, _⟩ => ⟨S1x64, .f32⟩
  | .hbm, ⟨37, _⟩ => ⟨S64, .f32⟩
  | .hbm, ⟨38, _⟩ => ⟨S1x64x64, .f32⟩
  | .hbm, ⟨39, _⟩ => ⟨S64x64, .f32⟩
  | .hbm, ⟨40, _⟩ => ⟨S1x64, .f32⟩
  | .hbm, ⟨41, _⟩ => ⟨S64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S1x64x64, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S1x64x64, .f32⟩
  | .hbm, ⟨61, _⟩ => ⟨S64x64, .f32⟩
  | .hbm, ⟨62, _⟩ => ⟨S1x64, .f32⟩
  | .hbm, ⟨63, _⟩ => ⟨S64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64x64, .f32⟩
  | .hbm, ⟨83, _⟩ => ⟨S64x64, .f32⟩
  | .hbm, ⟨84, _⟩ => ⟨S1x64, .f32⟩
  | .hbm, ⟨85, _⟩ => ⟨S64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S100000x64, .f32⟩
  | .hbm, ⟨100, _⟩ => ⟨S_, .i32⟩
  | .hbm, ⟨101, _⟩ => ⟨S_, .f32⟩
  | .hbm, ⟨102, _⟩ => ⟨S100352x64, .f32⟩
  | .hbm, ⟨103, _⟩ => ⟨S_, .i32⟩
  | .hbm, ⟨104, _⟩ => ⟨S_, .i32⟩
  | .hbm, ⟨105, _⟩ => ⟨S100352, .i32⟩
  | .hbm, ⟨106, _⟩ => ⟨S2000x64, .f32⟩
  | .hbm, ⟨107, _⟩ => ⟨S64x8, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S64, .f32⟩
  | .local _ .vmem, ⟨26, _⟩ => ⟨S64x64, .f32⟩
  | .local _ .vmem, ⟨27, _⟩ => ⟨S64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S64, .f32⟩
  | .local _ .vmem, ⟨36, _⟩ => ⟨S64x64, .f32⟩
  | .local _ .vmem, ⟨37, _⟩ => ⟨S64, .f32⟩
  | .local _ .vmem, ⟨38, _⟩ => ⟨S10000x64, .f32⟩
  | .local _ .vmem, ⟨39, _⟩ => ⟨S10000x64, .f32⟩
  | .local _ .vmem, ⟨40, _⟩ => ⟨S1024, .i32⟩
  | .local _ .vmem, ⟨41, _⟩ => ⟨S1024, .i32⟩
  | .local _ .vmem, ⟨42, _⟩ => ⟨S1024x64, .f32⟩
  | .local _ .vmem, ⟨43, _⟩ => ⟨S1024x64, .f32⟩
  | .local _ .vmem, ⟨44, _⟩ => ⟨S2000x64, .f32⟩
  | .local _ .vmem, ⟨45, _⟩ => ⟨S2000, .i32⟩
  | .local _ .vmem, ⟨46, _⟩ => ⟨S2000x64, .f32⟩
  | .local _ .vmem, ⟨47, _⟩ => ⟨S64x64, .f32⟩
  | .local _ .vmem, ⟨48, _⟩ => ⟨S64, .f32⟩
  | .local _ .vmem, ⟨49, _⟩ => ⟨S64x8, .f32⟩
  | .local _ .vmem, ⟨50, _⟩ => ⟨S8, .f32⟩
  | .local _ .vmem, ⟨51, _⟩ => ⟨S64x8, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_4 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_7 : Ref sig .tc := ⟨.hbm, 86, rfl⟩
abbrev main_v61 : Ref sig .tc := ⟨.hbm, 87, rfl⟩
abbrev main_v62 : Ref sig .tc := ⟨.hbm, 88, rfl⟩
abbrev main_c_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_10 : Ref sig .tc := ⟨.hbm, 100, rfl⟩
abbrev main_call0_v0 : Ref sig .tc := ⟨.hbm, 101, rfl⟩
abbrev main_v72 : Ref sig .tc := ⟨.hbm, 102, rfl⟩
abbrev main_c_11 : Ref sig .tc := ⟨.hbm, 103, rfl⟩
abbrev main_call1_v0 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc5_stg0_0 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc5_sem0_0 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![98], ![false]⟩

def cc4_transform_0 (i : grid4.Coords) : Fin 1 → Nat :=
  let arg0 : BitVec 32 := BitVec.ofNat 32 (i 0).val
  let c0_i32 : BitVec 32 := 0#32
  ![arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2000x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2000 .i32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S2000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x8 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S8 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x8 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S100000x64 : S_.BroadcastsInDim S100000x64 (![] : Fin 0 → Fin S100000x64.rank)
  shapeCasts_S10000x64_S10000x64 : S10000x64.ShapeCasts S10000x64
  shapeCasts_S64x64_S64x64 : S64x64.ShapeCasts S64x64
  shapeCasts_S64_S64 : S64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  pads_S100000x64_S100352x64_03520_000 : S100000x64.Pads (![0, 0] : Fin 2 → Nat) ![352, 0] ![0, 0] S100352x64
  h_S_ : 0 < S_.numel
  pads_S100000_S100352_03520 : S100000.Pads (![0] : Fin 1 → Nat) ![352] ![0] S100352
  inb_S2000x64_S2000x64_0_0 : ∀ a, (![0, 0] : Fin 2 → Nat) a + S2000x64.size a ≤ S2000x64.size a
  h_S2000x64 : 0 < S2000x64.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  iota_S2000x1_d0_w32 : S2000x1.Iotas .tc 32 [0]
  broadcasts_S2000x1_S2000x1024 : S2000x1.Broadcasts S2000x1024
  broadcasts_S1x1024_S2000x1024 : S1x1024.Broadcasts S2000x1024
  natLt_1_32 : 1 < 32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S2000x64_S2000x64 : S2000x64.ShapeCasts S2000x64
  inb_S2000_S2000_0 : ∀ a, (![0] : Fin 1 → Nat) a + S2000.size a ≤ S2000.size a
  h_S2000 : 0 < S2000.numel
  shapeCasts_S2000_S1x2000 : S2000.ShapeCasts S1x2000
  iota_S64x1_d0_w32 : S64x1.Iotas .tc 32 [0]
  broadcasts_S64x1_S64x2000 : S64x1.Broadcasts S64x2000
  broadcasts_S1x2000_S64x2000 : S1x2000.Broadcasts S64x2000
  broadcasts_S1x64_S64x64 : S1x64.Broadcasts S64x64
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S64x8 : S1x8.Broadcasts S64x8
  reduces_S64x8_S64 : S64x8.Reduces [1] S64
  shapeCasts_S64_S64x1 : S64.ShapeCasts S64x1
  broadcasts_S64x1_S64x8 : S64x1.Broadcasts S64x8
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S10000x1_S1x64_S10000x64_1_0_0_1_n_n_wf : DotDims.WF S10000x1 S1x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x1024_S1024x64_S2000x64_1_0_0_1_n_n_wf : DotDims.WF S2000x1024 S1024x64 S2000x64 [1] [0] [0] [1] [] []
  dot_S64x2000_S2000x64_S64x64_1_0_0_1_n_n_wf : DotDims.WF S64x2000 S2000x64 S64x64 [1] [0] [0] [1] [] []
  dot_S64x64_S64x64_S64x64_1_0_0_1_n_n_wf : DotDims.WF S64x64 S64x64 S64x64 [1] [0] [0] [1] [] []
  dot_S64x64_S64x8_S64x8_1_0_0_1_n_n_wf : DotDims.WF S64x64 S64x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024.size a ≤ S100352.size a
  hwx4_0 : ∀ i : grid4.Coords, EltTy.bits .i32 = 32 ∨ (Rect.block (s := S100352) S1024.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S100352x64.size a
  hwx4_1 : ∀ i : grid4.Coords, EltTy.bits .f32 = 32 ∨ (Rect.block (s := S100352x64) S1024x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S2000x64.size a
  hwx4_2 : ∀ i : grid4.Coords, EltTy.bits .f32 = 32 ∨ (Rect.block (s := S2000x64) S2000x64.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2000.size a ≤ S2000.size a
  hwx5_0 : ∀ i : grid5.Coords, EltTy.bits .i32 = 32 ∨ (Rect.block (s := S2000) S2000.size (cc5_transform_0 i) (hinb5_0 i)).WholeWords (EltTy.packing .i32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S2000x64.size a
  hwx5_1 : ∀ i : grid5.Coords, EltTy.bits .f32 = 32 ∨ (Rect.block (s := S2000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x8.size a ≤ S64x8.size a
  hwx5_4 : ∀ i : grid5.Coords, EltTy.bits .f32 = 32 ∨ (Rect.block (s := S64x8) S64x8.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S8.size a ≤ S8.size a
  hwx5_5 : ∀ i : grid5.Coords, EltTy.bits .f32 = 32 ∨ (Rect.block (s := S8) S8.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x8.size a ≤ S64x8.size a
  hwx5_6 : ∀ i : grid5.Coords, EltTy.bits .f32 = 32 ∨ (Rect.block (s := S64x8) S64x8.size (cc5_transform_6 i) (hinb5_6 i)).WholeWords (EltTy.packing .f32)

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S64x2000_S2000x64_S64x64_1_0_0_1_n_n : DotDims S64x2000 S2000x64 S64x64 where
  lhsContracting := [1]
  rhsContracting := [0]
  lhsNonContracting := [0]
  rhsNonContracting := [1]
  lhsBatch := []
  rhsBatch := []
  wf := dot_S64x2000_S2000x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v73) S1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S2000x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg3) S2000.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v74) S2000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg14) S64x8.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg15) S8.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v75) S64x8.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S2000 : Shape := ⟨1, ![2000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1x64x64 : Shape := ⟨3, ![1, 64, 64]⟩
abbrev S1600000x64 : Shape := ⟨2, ![1600000, 64]⟩
abbrev S2000x64 : Shape := ⟨2, ![2000, 64]⟩
abbrev S2000x1 : Shape := ⟨2, ![2000, 1]⟩
abbrev S1x8 : Shape := ⟨2, ![1, 8]⟩
abbrev S64x1 : Shape := ⟨2, ![64, 1]⟩

abbrev nBuf : Space → Nat
  | .hbm => 190
  | .vmem => 0
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S2000, .i32⟩
  | 4 => ⟨S1x64, .f32⟩
  | 5 => ⟨S64, .f32⟩
  | 6 => ⟨S64x64, .f32⟩
  | 7 => ⟨S64, .f32⟩
  | 8 => ⟨S3x64x64, .f32⟩
  | 9 => ⟨S3x64, .f32⟩
  | 10 => ⟨S3x64x64, .f32⟩
  | 11 => ⟨S3x64, .f32⟩
  | 12 => ⟨S64x64, .f32⟩
  | 13 => ⟨S64, .f32⟩
  | 14 => ⟨S64x8, .f32⟩
  | 15 => ⟨S8, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x1, .f32⟩
  | 29 => ⟨S_, .f32⟩
  | 30 => ⟨S100000x1, .f32⟩
  | 31 => ⟨S1600000x1, .i32⟩
  | 32 => ⟨S100000x1, .f32⟩
  | 33 => ⟨S100000x1, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S1x64x64, .f32⟩
  | 49 => ⟨S64x64, .f32⟩
  | 50 => ⟨S1x64, .f32⟩
  | 51 => ⟨S64, .f32⟩
  | 52 => ⟨S1x64x64, .f32⟩
  | 53 => ⟨S64x64, .f32⟩
  | 54 => ⟨S1x64, .f32⟩
  | 55 => ⟨S64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1x64x64, .f32⟩
  | 85 => ⟨S64x64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S1x64x64, .f32⟩
  | 121 => ⟨S64x64, .f32⟩
  | 122 => ⟨S1x64, .f32⟩
  | 123 => ⟨S64, .f32⟩
  | 124 => ⟨S1x64x64, .f32⟩
  | 125 => ⟨S64x64, .f32⟩
  | 126 => ⟨S1x64, .f32⟩
  | 127 => ⟨S64, .f32⟩
  | _ => ⟨S100000x1, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S_, .f32⟩
  | 29 => ⟨S2000x64, .f32⟩
  | 30 => ⟨S100000x1, .i32⟩
  | 31 => ⟨S2000x64, .f32⟩
  | 32 => ⟨S_, .f32⟩
  | 33 => ⟨S64x64, .f32⟩
  | 34 => ⟨S2000x1, .i32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x8, .f32⟩
  | 44 => ⟨S1x8, .f32⟩
  | 45 => ⟨S64x8, .f32⟩
  | 46 => ⟨S64x8, .f32⟩
  | 47 => ⟨S_, .f32⟩
  | 48 => ⟨S64, .f32⟩
  | 49 => ⟨S_, .f32⟩
  | 50 => ⟨S64, .f32⟩
  | 51 => ⟨S64, .f32⟩
  | 52 => ⟨S64x1, .f32⟩
  | 53 => ⟨S64x8, .f32⟩
  | 54 => ⟨S64x8, .f32⟩
  | 55 => ⟨S64x8, .f32⟩
  | 56 => ⟨S_, .f32⟩
  | 57 => ⟨S64, .f32⟩
  | 58 => ⟨S64x1, .f32⟩
  | 59 => ⟨S64x1, .f32⟩
  | 60 => ⟨S64x8, .f32⟩
  | 61 => ⟨S64x8, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_1 : Ref sig .tc := ⟨.hbm, 56, rfl⟩
abbrev main_v33 : Ref sig .tc := ⟨.hbm, 57, rfl⟩
abbrev main_v34 : Ref sig .tc := ⟨.hbm, 58, rfl⟩
abbrev main_c_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_cst : Ref sig .tc := ⟨.hbm, 74, rfl⟩
abbrev main_call2_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call3_cst : Ref sig .tc := ⟨.hbm, 81, rfl⟩
abbrev main_call3_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_4 : Ref sig .tc := ⟨.hbm, 92, rfl⟩
abbrev main_v62 : Ref sig .tc := ⟨.hbm, 93, rfl⟩
abbrev main_v63 : Ref sig .tc := ⟨.hbm, 94, rfl⟩
abbrev main_c_5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_6 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call4_cst : Ref sig .tc := ⟨.hbm, 110, rfl⟩
abbrev main_call4_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call5_cst : Ref sig .tc := ⟨.hbm, 117, rfl⟩
abbrev main_call5_v0 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_7 : Ref sig .tc := ⟨.hbm, 128, rfl⟩
abbrev main_v91 : Ref sig .tc := ⟨.hbm, 129, rfl⟩
abbrev main_v92 : Ref sig .tc := ⟨.hbm, 130, rfl⟩
abbrev main_c_8 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_9 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call6_cst : Ref sig .tc := ⟨.hbm, 146, rfl⟩
abbrev main_call6_v0 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_call7_cst : Ref sig .tc := ⟨.hbm, 153, rfl⟩
abbrev main_call7_v0 : Ref sig .tc := ⟨.hbm, 154, rfl⟩
abbrev main_v111 : Ref sig .tc := ⟨.hbm, 155, rfl⟩
abbrev main_cst_10 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_11 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_call8_cst : Ref sig .tc := ⟨.hbm, 168, rfl⟩
abbrev main_call8_v0 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_call9_cst : Ref sig .tc := ⟨.hbm, 175, rfl⟩
abbrev main_call9_v0 : Ref sig .tc := ⟨.hbm, 176, rfl⟩
abbrev main_call9_cst_0 : Ref sig .tc := ⟨.hbm, 177, rfl⟩
abbrev main_call9_v1 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_v6 : Ref sig .tc := ⟨.hbm, 183, rfl⟩
abbrev main_call9_cst_1 : Ref sig .tc := ⟨.hbm, 184, rfl⟩
abbrev main_call9_v7 : Ref sig .tc := ⟨.hbm, 185, rfl⟩
abbrev main_call9_v8 : Ref sig .tc := ⟨.hbm, 186, rfl⟩
abbrev main_call9_v9 : Ref sig .tc := ⟨.hbm, 187, rfl⟩
abbrev main_call9_v10 : Ref sig .tc := ⟨.hbm, 188, rfl⟩
abbrev main_v127 : Ref sig .tc := ⟨.hbm, 189, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S64x64 : S_.BroadcastsInDim S64x64 (![] : Fin 0 → Fin S64x64.rank)
  bcast_S2000_S2000x1_0 : S2000.BroadcastsInDim S2000x1 (![0] : Fin 1 → Fin S2000x1.rank)
  bcast_S1x64_S64x64_0_1 : S1x64.BroadcastsInDim S64x64 (![0, 1] : Fin 2 → Fin S64x64.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  reducesTo_S64x8_S64_d1 : S64x8.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x64_S100000x64_1_0_0_1_n_n_wf : DotDims.WF S100000x1 S1x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S2000x64_S100000x1_S100000x64_1_0_0_1_wf : ScatterDims.WF S2000x64 S100000x1 S100000x64 [1] [0] [0] 1
  scatter_S64x64_S2000x1_S2000x64_1_0_0_1_wf : ScatterDims.WF S64x64 S2000x1 S2000x64 [1] [0] [0] 1
  dot_S64x64_S64x64_S64x64_1_0_0_1_n_n_wf : DotDims.WF S64x64 S64x64 S64x64 [1] [0] [0] [1] [] []
  dot_S64x64_S64x8_S64x8_1_0_0_1_n_n_wf : DotDims.WF S64x64 S64x8 S64x8 [1] [0] [0] [1] [] []

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S64x64_S2000x1_S2000x64_1_0_0_1 : ScatterDims S64x64 S2000x1 S2000x64 where
  updateWindowDims := [1]
  insertedWindowDims := [0]
  scatterDimsToOperandDims := [0]
  indexVectorDim := 1
  wf := scatter_S64x64_S2000x1_S2000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf

class Facts : Prop extends Facts₀ where

variable [Facts]
-- ==== Proof.RefGen.lean ====
/-
  The reference program's run and its stages read at an index, as generated; imported here so that the
  modules that read the reference stage by stage have one place to take them from.
-/
import proofs.«423676_j55946243998145_1_alg».proof.Proof.Gen.ReferenceIdeal.Run
import proofs.«423676_j55946243998145_1_alg».proof.Proof.Gen.ReferenceIdeal.Read
-- ==== Proof.Spec.lean ====
/-
  The network both programs compute, entry by entry over the extended reals.

  A GIN layer sends node features `h` and their neighbourhood sums `a` to `relu (relu ((h + a)·W₁ + b₁)·W₂ + b₂)`,
  row by row. Four layers are followed by two add-poolings (rows of equal segment id are summed: nodes into
  subgraphs, subgraphs into graphs), a two-layer classifier and a log-softmax over the eight classes.
  Sums are finite sums in the commutative monoid of the extended reals, so their order is immaterial.
-/
import Idealize.ShloMosaic.PureOps.Ideal
import Idealize.ShloMosaic.Lib.ValueIdx

noncomputable section

namespace Cert.Gin

open Idealize.ShloMosaic Idealize.ShloMosaic.ValueIdx

/-- One row of a layer's perceptron at output column `q`: `relu (Σₖ relu (Σⱼ (hⱼ + aⱼ)·W₁ⱼₖ + b₁ₖ)·W₂ₖq + b₂q)`. -/
def mlpRow {C : Nat} (h a : Fin C → EReal) (w1 : Fin C → Fin 64 → EReal) (b1 : Fin 64 → EReal)
    (w2 : Fin 64 → Fin 64 → EReal) (b2 : Fin 64 → EReal) (q : Fin 64) : EReal :=
  max ((∑ k : Fin 64, max ((∑ j : Fin C, (h j + a j) * w1 j k) + b1 k) 0 * w2 k q) + b2 q) 0

/-- A layer on an array of `N` rows of `C` features: row `n` of the result is `mlpRow` of row `n` of `h` and of `a`. -/
def layer {N C : Nat} (h a : (⟨2, ![N, C]⟩ : Shape).Idx → EReal) (w1 : (⟨2, ![C, 64]⟩ : Shape).Idx → EReal)
    (b1 : (⟨1, ![64]⟩ : Shape).Idx → EReal) (w2 : (⟨2, ![64, 64]⟩ : Shape).Idx → EReal)
    (b2 : (⟨1, ![64]⟩ : Shape).Idx → EReal) : (⟨2, ![N, 64]⟩ : Shape).Idx → EReal :=
  fun i => mlpRow (fun j => h (ix2 (i 0) j)) (fun j => a (ix2 (i 0) j)) (fun j k => w1 (ix2 j k)) (fun k => b1 (ix1 k))
    (fun k q => w2 (ix2 k q)) (fun q => b2 (ix1 q)) (i 1)

/-- Add-pooling of `M` rows into `R` segments: entry `(s, q)` is the sum of `h (n, q)` over the rows `n` whose
    segment id, read as a signed integer, is `s`; a row whose id names no segment is dropped. -/
def segSum {M : Nat} (R : Nat) (id : (⟨1, ![M]⟩ : Shape).Idx → BitVec 32) (h : (⟨2, ![M, 64]⟩ : Shape).Idx → EReal) :
    (⟨2, ![R, 64]⟩ : Shape).Idx → EReal :=
  fun i => ∑ n : Fin M, if (id (ix1 n)).toInt = ((i 0).val : Int) then h (ix2 n (i 1)) else 0

/-- The classifier's logits of one pooled row `g`: `Σₖ relu (Σⱼ gⱼ·W₁ⱼₖ + b₁ₖ)·W₂ₖₒ + b₂ₒ`. -/
def logit (g : Fin 64 → EReal) (w1 : Fin 64 → Fin 64 → EReal) (b1 : Fin 64 → EReal) (w2 : Fin 64 → Fin 8 → EReal)
    (b2 : Fin 8 → EReal) (o : Fin 8) : EReal :=
  (∑ k : Fin 64, max ((∑ j : Fin 64, g j * w1 j k) + b1 k) 0 * w2 k o) + b2 o

/-- The greatest of a row's eight entries, folded from the float pattern of minus infinity. -/
def rowMax (l : Fin 8 → EReal) : EReal :=
  (Finset.univ : Finset (Fin 8)).fold max (Ideal.ofBits .f32 0xFF800000#32) l

/-- The log-softmax of a row: `(lₒ − max l) − log Σₒ' exp (lₒ' − max l)`. -/
def logSoftmax (l : Fin 8 → EReal) (o : Fin 8) : EReal :=
  (l o - rowMax l) - Ideal.log (∑ o' : Fin 8, Ideal.exp (l o' - rowMax l))

/-- The classifier with its log-softmax on the 64 pooled rows. -/
def head (g : (⟨2, ![64, 64]⟩ : Shape).Idx → EReal) (w1 : (⟨2, ![64, 64]⟩ : Shape).Idx → EReal)
    (b1 : (⟨1, ![64]⟩ : Shape).Idx → EReal) (w2 : (⟨2, ![64, 8]⟩ : Shape).Idx → EReal)
    (b2 : (⟨1, ![8]⟩ : Shape).Idx → EReal) : (⟨2, ![64, 8]⟩ : Shape).Idx → EReal :=
  fun i => logSoftmax (logit (fun j => g (ix2 (i 0) j)) (fun j k => w1 (ix2 j k)) (fun k => b1 (ix1 k))
    (fun k o => w2 (ix2 k o)) (fun o => b2 (ix1 o))) (i 1)

end Cert.Gin

end
-- ==== Proof.PayLayer.lean ====
/-
  The perceptron kernels' arithmetic, read entry by entry: what each of the four layer kernels stores is, at the
  extended reals, the layer function of its six loaded blocks (a change of float format is the identity there, a
  matrix product into a zero accumulator is the plain sum of products, the bias is added along rows).
-/
import proofs.«423676_j55946243998145_1_alg».proof.Proof.Gen.KernelIdeal.Skeleton
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

/-! ### The 64-wide product's operand indices, axis by axis -/

private theorem lhsB_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
private theorem lhsB_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
private theorem rhsB_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
private theorem rhsB_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A 64-wide product into the zero accumulator, read at `(p, q)`: the sum over `k` of row `p` times column `q`. -/
private theorem mmB_apply (A : FVec Ideal S10000x64 .bf16) (B : FVec Ideal S64x64 .bf16) (p : Fin 10000) (q : Fin 64) :
    matmul (F := Ideal) dot_S10000x64_S64x64_S10000x64_1_0_0_1_n_n none A B (constant (F := Ideal) S10000x64 .f32 0x00000000#32) (ix2 p q)
      = ∑ k : Fin 64, A (ix2 p k) * B (ix2 k q) := by
  refine (Ideal.matmul_constant_zero_apply dot_S10000x64_S64x64_S10000x64_1_0_0_1_n_n none A B (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-- One dense stage with its rectifier, read at `(p, q)`: `max (Σₖ A (p,k)·W (k,q) + b q) 0`. -/
private theorem denseB_apply (A : FVec Ideal S10000x64 .f32) (W : FVec Ideal S64x64 .f32) (b : FVec Ideal S64 .f32)
    (p : Fin 10000) (q : Fin 64) :
    maximumf (addf (matmul (F := Ideal) dot_S10000x64_S64x64_S10000x64_1_0_0_1_n_n none (truncf .bf16 A bitsLt_bf16_f32) (truncf .bf16 W bitsLt_bf16_f32)
        (constant (F := Ideal) S10000x64 .f32 0x00000000#32))
      (broadcastTo S10000x64 (shapeCast S1x64 b shapeCasts_S64_S1x64) broadcasts_S1x64_S10000x64))
      (broadcast S10000x64 (Scalar.ofBits (F := Ideal) .f32 0x00000000#32)) (ix2 p q)
      = max ((∑ k : Fin 64, A (ix2 p k) * W (ix2 k q)) + b (ix1 q)) 0 := by
  rw [maximumf_apply, addf_apply, broadcast_apply, mmB_apply]
  rw [show broadcastTo S10000x64 (shapeCast S1x64 b shapeCasts_S64_S1x64) broadcasts_S1x64_S10000x64 (ix2 p q) = b (ix1 q) from
    (broadcastTo_1b_ab_apply _ broadcasts_S1x64_S10000x64 p q).trans (shapeCast_a_1a_apply b shapeCasts_S64_S1x64 0 q)]
  rw [show (Scalar.ofBits (F := Ideal) .f32 0x00000000#32 : Ideal .f32) = 0 from Ideal.ofBits_zero_f32]
  rfl

/-! ### The 1-wide product's operand indices, axis by axis -/

private theorem lhsA_0 (i : S10000x64.Idx) (q : dot_S10000x1_S1x64_S10000x64_1_0_0_1_n_n.contr.Idx) :
    (dot_S10000x1_S1x64_S10000x64_1_0_0_1_n_n.lhsIdx i q 0).val = (i 0).val := by
  unfold DotDims.lhsIdx
  rw [dif_neg (show ¬(0 : Fin S10000x1.rank) ∈ dot_S10000x1_S1x64_S10000x64_1_0_0_1_n_n.lhsBatch by decide), dif_pos (show (0 : Fin S10000x1.rank) ∈ dot_S10000x1_S1x64_S10000x64_1_0_0_1_n_n.lhsNonContracting by decide)]
  rfl
private theorem lhsA_1 (i : S10000x64.Idx) (q : dot_S10000x1_S1x64_S10000x64_1_0_0_1_n_n.contr.Idx) :
    (dot_S10000x1_S1x64_S10000x64_1_0_0_1_n_n.lhsIdx i q 1).val = (q ⟨0, by decide⟩).val :=
  dot_S10000x1_S1x64_S10000x64_1_0_0_1_n_n.lhsIdx_val_of_single rfl i q
private theorem rhsA_0 (i : S10000x64.Idx) (q : dot_S10000x1_S1x64_S10000x64_1_0_0_1_n_n.contr.Idx) :
    (dot_S10000x1_S1x64_S10000x64_1_0_0_1_n_n.rhsIdx i q 0).val = (q ⟨0, by decide⟩).val :=
  dot_S10000x1_S1x64_S10000x64_1_0_0_1_n_n.rhsIdx_val_of_single rfl i q
private theorem rhsA_1 (i : S10000x64.Idx) (q : dot_S10000x1_S1x64_S10000x64_1_0_0_1_n_n.contr.Idx) :
    (dot_S10000x1_S1x64_S10000x64_1_0_0_1_n_n.rhsIdx i q 1).val = (i 1).val := by
  unfold DotDims.rhsIdx
  rw [dif_neg (show ¬(1 : Fin S1x64.rank) ∈ dot_S10000x1_S1x64_S10000x64_1_0_0_1_n_n.rhsBatch by decide), dif_pos (show (1 : Fin S1x64.rank) ∈ dot_S10000x1_S1x64_S10000x64_1_0_0_1_n_n.rhsNonContracting by decide)]
  rfl

/-- A 1-wide product into the zero accumulator, read at `(p, q)`: the sum over the one `j` of row `p` times column `q`. -/
private theorem mmA_apply (A : FVec Ideal S10000x1 .bf16) (B : FVec Ideal S1x64 .bf16) (p : Fin 10000) (q : Fin 64) :
    matmul (F := Ideal) dot_S10000x1_S1x64_S10000x64_1_0_0_1_n_n none A B (constant (F := Ideal) S10000x64 .f32 0x00000000#32) (ix2 p q)
      = ∑ j : Fin 1, A (ix2 p j) * B (ix2 j q) := by
  refine (Ideal.matmul_constant_zero_apply dot_S10000x1_S1x64_S10000x64_1_0_0_1_n_n none A B (ix2 p q)).trans ?_
  rw [← Equiv.sum_comp (contrEquiv1 dot_S10000x1_S1x64_S10000x64_1_0_0_1_n_n 1 rfl rfl).symm]
  refine Finset.sum_congr rfl fun k _ => ?_
  have hk := contrEquiv1_symm_val dot_S10000x1_S1x64_S10000x64_1_0_0_1_n_n 1 rfl rfl k
  have el : dot_S10000x1_S1x64_S10000x64_1_0_0_1_n_n.lhsIdx (ix2 p q) ((contrEquiv1 dot_S10000x1_S1x64_S10000x64_1_0_0_1_n_n 1 rfl rfl).symm k) = ix2 p k := funext fun a => Fin.ext (by
    match a with
    | ⟨0, _⟩ => exact lhsA_0 _ _
    | ⟨1, _⟩ => exact (lhsA_1 _ _).trans hk)
  have er : dot_S10000x1_S1x64_S10000x64_1_0_0_1_n_n.rhsIdx (ix2 p q) ((contrEquiv1 dot_S10000x1_S1x64_S10000x64_1_0_0_1_n_n 1 rfl rfl).symm k) = ix2 k q := funext fun a => Fin.ext (by
    match a with
    | ⟨0, _⟩ => exact (rhsA_0 _ _).trans hk
    | ⟨1, _⟩ => exact rhsA_1 _ _)
  rw [el, er]

/-- The first layer's first dense stage with its rectifier, read at `(p, q)`: `max (Σⱼ A (p,j)·W (j,q) + b q) 0`, `j` over the one input feature. -/
private theorem denseA_apply (A : FVec Ideal S10000x1 .f32) (W : FVec Ideal S1x64 .f32) (b : FVec Ideal S64 .f32)
    (p : Fin 10000) (q : Fin 64) :
    maximumf (addf (matmul (F := Ideal) dot_S10000x1_S1x64_S10000x64_1_0_0_1_n_n none (truncf .bf16 A bitsLt_bf16_f32) (truncf .bf16 W bitsLt_bf16_f32)
        (constant (F := Ideal) S10000x64 .f32 0x00000000#32))
      (broadcastTo S10000x64 (shapeCast S1x64 b shapeCasts_S64_S1x64) broadcasts_S1x64_S10000x64))
      (broadcast S10000x64 (Scalar.ofBits (F := Ideal) .f32 0x00000000#32)) (ix2 p q)
      = max ((∑ j : Fin 1, A (ix2 p j) * W (ix2 j q)) + b (ix1 q)) 0 := by
  rw [maximumf_apply, addf_apply, broadcast_apply, mmA_apply]
  rw [show broadcastTo S10000x64 (shapeCast S1x64 b shapeCasts_S64_S1x64) broadcasts_S1x64_S10000x64 (ix2 p q) = b (ix1 q) from
    (broadcastTo_1b_ab_apply _ broadcasts_S1x64_S10000x64 p q).trans (shapeCast_a_1a_apply b shapeCasts_S64_S1x64 0 q)]
  rw [show (Scalar.ofBits (F := Ideal) .f32 0x00000000#32 : Ideal .f32) = 0 from Ideal.ofBits_zero_f32]
  rfl

/-- The first layer's kernel (one input feature) stores `layer` of its blocks. -/
theorem pay0_eq (x0 x1 : Vec Ideal S10000x1 .f32) (x2 : Vec Ideal S1x64 .f32) (x3 : Vec Ideal S64 .f32)
    (x4 : Vec Ideal S64x64 .f32) (x5 : Vec Ideal S64 .f32) :
    k0_pay1 (F := Ideal) x0 x1 x2 x3 x4 x5 = Cert.Gin.layer x0 x1 x2 x3 x4 x5 := by
  funext i
  obtain ⟨p, q, rfl⟩ : ∃ (p : Fin 10000) (q : Fin 64), i = ix2 p q := ⟨i 0, i 1, eq_ix2 i⟩
  unfold k0_pay1 Cert.Gin.layer Cert.Gin.mlpRow
  simp only [shapeCast_self]
  refine (denseB_apply _ x4 x5 p q).trans ?_
  show max ((∑ k : Fin 64, _ * x4 (ix2 k q)) + x5 (ix1 q)) 0 = max ((∑ k : Fin 64, _ * x4 (ix2 k q)) + x5 (ix1 q)) 0
  refine congrArg (fun s => max (s + x5 (ix1 q)) 0) (Finset.sum_congr rfl fun k _ => ?_)
  refine congrArg (· * x4 (ix2 k q)) ?_
  exact denseA_apply (addf x0 x1) x2 x3 p k

/-- The second layer's kernel (64 input features) stores `layer` of its blocks. -/
theorem pay1_eq (x0 x1 : Vec Ideal S10000x64 .f32) (x2 : Vec Ideal S64x64 .f32) (x3 : Vec Ideal S64 .f32)
    (x4 : Vec Ideal S64x64 .f32) (x5 : Vec Ideal S64 .f32) :
    k1_pay1 (F := Ideal) x0 x1 x2 x3 x4 x5 = Cert.Gin.layer x0 x1 x2 x3 x4 x5 := by
  funext i
  obtain ⟨p, q, rfl⟩ : ∃ (p : Fin 10000) (q : Fin 64), i = ix2 p q := ⟨i 0, i 1, eq_ix2 i⟩
  unfold k1_pay1 Cert.Gin.layer Cert.Gin.mlpRow
  simp only [shapeCast_self]
  refine (denseB_apply _ x4 x5 p q).trans ?_
  show max ((∑ k : Fin 64, _ * x4 (ix2 k q)) + x5 (ix1 q)) 0 = max ((∑ k : Fin 64, _ * x4 (ix2 k q)) + x5 (ix1 q)) 0
  refine congrArg (fun s => max (s + x5 (ix1 q)) 0) (Finset.sum_congr rfl fun k _ => ?_)
  refine congrArg (· * x4 (ix2 k q)) ?_
  exact denseB_apply (addf x0 x1) x2 x3 p k

/-- The third layer's kernel: the same body. -/
theorem pay2_eq (x0 x1 : Vec Ideal S10000x64 .f32) (x2 : Vec Ideal S64x64 .f32) (x3 : Vec Ideal S64 .f32)
    (x4 : Vec Ideal S64x64 .f32) (x5 : Vec Ideal S64 .f32) :
    k2_pay1 (F := Ideal) x0 x1 x2 x3 x4 x5 = Cert.Gin.layer x0 x1 x2 x3 x4 x5 := by
  exact (show k2_pay1 (F := Ideal) x0 x1 x2 x3 x4 x5 = k1_pay1 x0 x1 x2 x3 x4 x5 from rfl).trans (pay1_eq x0 x1 x2 x3 x4 x5)

/-- The fourth layer's kernel: the same body. -/
theorem pay3_eq (x0 x1 : Vec Ideal S10000x64 .f32) (x2 : Vec Ideal S64x64 .f32) (x3 : Vec Ideal S64 .f32)
    (x4 : Vec Ideal S64x64 .f32) (x5 : Vec Ideal S64 .f32) :
    k3_pay1 (F := Ideal) x0 x1 x2 x3 x4 x5 = Cert.Gin.layer x0 x1 x2 x3 x4 x5 := by
  exact (show k3_pay1 (F := Ideal) x0 x1 x2 x3 x4 x5 = k1_pay1 x0 x1 x2 x3 x4 x5 from rfl).trans (pay1_eq x0 x1 x2 x3 x4 x5)

end Cert.KernelIdeal.Hand

end
-- ==== Proof.Reg0.lean ====
/-
  Layer kernel 0 over its whole grid: ten grid points, point `t` computing rows `10000·t … 10000·t + 9999` of the
  result from the same rows of the two feature arrays and from the whole weight and bias arrays. A layer acts row by row,
  so the block a point writes back is that block of `layer` of the whole arrays, and the ten blocks cover the result.
-/
import proofs.«423676_j55946243998145_1_alg».proof.Proof.Gen.KernelIdeal.Frame
import proofs.«423676_j55946243998145_1_alg».proof.Proof.PayLayer
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

example : Pipeline.arrRef spec0 0 = main_arg0 := rfl
example : Pipeline.arrRef spec0 1 = main_v13 := rfl
example : Pipeline.arrRef spec0 2 = main_arg4 := rfl
example : Pipeline.arrRef spec0 3 = main_arg5 := rfl
example : Pipeline.arrRef spec0 4 = main_arg6 := rfl
example : Pipeline.arrRef spec0 5 = main_arg7 := rfl
example : Pipeline.arrRef spec0 6 = main_v14 := rfl

/-- The zero offsets of a rank-two buffer, as a constant function. -/
private theorem zero2 : (![0, 0] : Fin 2 → Nat) = fun _ => 0 := funext fun a => by fin_cases a <;> rfl
/-- The zero offset of a rank-one buffer, as a constant function. -/
private theorem zero1 : (![0] : Fin 1 → Nat) = fun _ => 0 := funext fun a => by fin_cases a; rfl

/-- What the body leaves in the result's buffer: it loads its six buffers whole and stores once, whole, so the buffer
    holds `layer` of the six blocks. -/
private theorem out0_layer (x0 x1 : Vec Ideal S10000x1 .f32) (x2 : Vec Ideal S1x64 .f32) (x3 : Vec Ideal S64 .f32)
    (x4 : Vec Ideal S64x64 .f32) (x5 : Vec Ideal S64 .f32) :
    out0_6 (F := Ideal) x0 x1 x2 x3 x4 x5 = Cert.Gin.layer x0 x1 x2 x3 x4 x5 := by
  unfold out0_6
  rw [View.canon_unit_zero zero2]
  simp only [View.ld_unit_zero (S := S10000x1) zero2, View.ld_unit_zero (S := S1x64) zero2,
    View.ld_unit_zero (S := S64x64) zero2, View.ld_unit_zero (S := S64) zero1]
  exact pay0_eq x0 x1 x2 x3 x4 x5

/-- The index maps over the grid: at point `t` the two feature windows and the result window are at row block `t`
    (column block 0); the weight and bias windows are at block 0 on every axis. -/
private theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- A layer acts row by row: its entry at `(y₀, q)` over arrays of `N` rows is its entry at `(i₀, q)` over arrays of
    `M` rows as soon as row `y₀` of each feature array of the first is row `i₀` of that of the second and the weights
    and biases are the same. -/
private theorem layer_row_eq {N M C : Nat}
    (h a : (⟨2, ![N, C]⟩ : Shape).Idx → EReal) (h' a' : (⟨2, ![M, C]⟩ : Shape).Idx → EReal)
    (w1 w1' : (⟨2, ![C, 64]⟩ : Shape).Idx → EReal) (b1 b1' : (⟨1, ![64]⟩ : Shape).Idx → EReal)
    (w2 w2' : (⟨2, ![64, 64]⟩ : Shape).Idx → EReal) (b2 b2' : (⟨1, ![64]⟩ : Shape).Idx → EReal)
    (y : (⟨2, ![N, 64]⟩ : Shape).Idx) (i : (⟨2, ![M, 64]⟩ : Shape).Idx)
    (hh : ∀ j : Fin C, h (ix2 (y 0) j) = h' (ix2 (i 0) j))
    (ha : ∀ j : Fin C, a (ix2 (y 0) j) = a' (ix2 (i 0) j))
    (hw1 : w1 = w1') (hb1 : b1 = b1') (hw2 : w2 = w2') (hb2 : b2 = b2')
    (hq : (y 1).val = (i 1).val) :
    Cert.Gin.layer h a w1 b1 w2 b2 y = Cert.Gin.layer h' a' w1' b1' w2' b2' i := by
  subst hw1 hb1 hw2 hb2
  have hq' : (y 1 : Fin 64) = i 1 := Fin.ext hq
  unfold Cert.Gin.layer
  simp only [hh, ha, hq']

/-- What point `t` writes back is block `t` of `layer` of the whole arrays: entry `(p, q)` of the block sits at
    row `10000·t + p`, column `q` of the result, the feature blocks' row `p` is the feature arrays' row `10000·t + p`
    (a block's coordinate is its index times its size plus the coordinate inside it), and the weight and bias blocks
    are their whole arrays. -/
private theorem flushed0_layer (c : Dev nD) (t : Fin cfg0.N) :
    (dat0 (F := Ideal) V c).flushed 6 t = ((cfg0.win 6).blk t).view.read (Elt Ideal)
      (Cert.Gin.layer (V c main_arg0 : S100000x1.Idx → EReal) (V c main_v13 : S100000x1.Idx → EReal)
          (V c main_arg4 : S1x64.Idx → EReal) (V c main_arg5 : S64.Idx → EReal)
          (V c main_arg6 : S64x64.Idx → EReal) (V c main_arg7 : S64.Idx → EReal)) := by
  show (cfg0.win 6).cut (grid0.coords t) ((dat0 V c).after 6 t) = _
  rw [after0_6, out0_layer]
  funext y
  obtain ⟨e00, e01, e10, e11, e20, e21, e30, e40, e41, e50, e60, e61⟩ := idx0 t
  refine layer_row_eq (N := 10000) (M := 100000) (C := 1) _ _ _ _ _ _ _ _ _ _ _ _ y (((cfg0.win 6).blk t).view.emb y) ?_ ?_ ?_ ?_ ?_ ?_ ?_
  · intro j
    show V c main_arg0 (((cfg0.win 0).blk t).view.emb (ix2 (y 0) j)) = V c main_arg0 (ix2 (((cfg0.win 6).blk t).view.emb y 0) j)
    refine congrArg (V c main_arg0) (funext fun a => Fin.ext ?_)
    match a with
    | ⟨0, _⟩ => show win0_0.index t (0 : Fin 2) * 10000 + 1 * (y 0).val = win0_6.index t (0 : Fin 2) * 10000 + 1 * (y 0).val; rw [e00, e60]
    | ⟨1, _⟩ => show win0_0.index t (1 : Fin 2) * 1 + 1 * j.val = j.val; rw [e01]; omega
  · intro j
    show V c main_v13 (((cfg0.win 1).blk t).view.emb (ix2 (y 0) j)) = V c main_v13 (ix2 (((cfg0.win 6).blk t).view.emb y 0) j)
    refine congrArg (V c main_v13) (funext fun a => Fin.ext ?_)
    match a with
    | ⟨0, _⟩ => show win0_1.index t (0 : Fin 2) * 10000 + 1 * (y 0).val = win0_6.index t (0 : Fin 2) * 10000 + 1 * (y 0).val; rw [e10, e60]
    | ⟨1, _⟩ => show win0_1.index t (1 : Fin 2) * 1 + 1 * j.val = j.val; rw [e11]; omega
  · funext x
    show V c main_arg4 (((cfg0.win 2).blk t).view.emb x) = V c main_arg4 x
    refine congrArg (V c main_arg4) (funext fun a => Fin.ext ?_)
    match a with
    | ⟨0, _⟩ => show win0_2.index t (0 : Fin 2) * 1 + 1 * (x 0).val = (x 0).val; rw [e20]; omega
    | ⟨1, _⟩ => show win0_2.index t (1 : Fin 2) * 64 + 1 * (x 1).val = (x 1).val; rw [e21]; omega
  · funext x
    show V c main_arg5 (((cfg0.win 3).blk t).view.emb x) = V c main_arg5 x
    refine congrArg (V c main_arg5) (funext fun a => Fin.ext ?_)
    match a with
    | ⟨0, _⟩ => show win0_3.index t (0 : Fin 1) * 64 + 1 * (x 0).val = (x 0).val; rw [e30]; omega
  · funext x
    show V c main_arg6 (((cfg0.win 4).blk t).view.emb x) = V c main_arg6 x
    refine congrArg (V c main_arg6) (funext fun a => Fin.ext ?_)
    match a with
    | ⟨0, _⟩ => show win0_4.index t (0 : Fin 2) * 64 + 1 * (x 0).val = (x 0).val; rw [e40]; omega
    | ⟨1, _⟩ => show win0_4.index t (1 : Fin 2) * 64 + 1 * (x 1).val = (x 1).val; rw [e41]; omega
  · funext x
    show V c main_arg7 (((cfg0.win 5).blk t).view.emb x) = V c main_arg7 x
    refine congrArg (V c main_arg7) (funext fun a => Fin.ext ?_)
    match a with
    | ⟨0, _⟩ => show win0_5.index t (0 : Fin 1) * 64 + 1 * (x 0).val = (x 0).val; rw [e50]; omega
  · show (y 1).val = win0_6.index t (1 : Fin 2) * 64 + 1 * (y 1).val
    rw [e61]; omega

/-- An index of the result is in point `t`'s block iff each coordinate is in the block's range on its axis. -/
private theorem mem_blk0 (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v14).slice (win0_6.rect t)).set ↔ _
  rw [View.set_slice_whole, Rect.mem_set_unit]
  exact Iff.rfl

/-- The ten blocks cover the result: row `r` is in the block of point `r / 10000`. -/
private theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, -, -, -, -, -, -, e60, e61⟩ := idx0 ⟨(i 0).val / 10000, ht⟩
  have e60' : win0_6.index ⟨(i 0).val / 10000, ht⟩ (0 : Fin 2) = (i 0).val / 10000 := e60
  refine ⟨⟨(i 0).val / 10000, ht⟩, flush0_6 _, ?_⟩
  rw [mem_blk0]
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e60']; omega
  | ⟨1, _⟩ =>
    show win0_6.index ⟨(i 0).val / 10000, ht⟩ (1 : Fin 2) * 64 ≤ (i 1).val
      ∧ (i 1).val < win0_6.index ⟨(i 0).val / 10000, ht⟩ (1 : Fin 2) * 64 + 64
    rw [e61]; omega

/-- After region 0 its result array is `layer` of the arrays the region was entered with. -/
theorem region0_out (c : Dev nD) :
    ((dat0 (F := Ideal) V c).arrAt 6 cfg0.N : S100000x64.Idx → EReal)
      = Cert.Gin.layer (V c main_arg0 : S100000x1.Idx → EReal) (V c main_v13 : S100000x1.Idx → EReal)
          (V c main_arg4 : S1x64.Idx → EReal) (V c main_arg5 : S64.Idx → EReal)
          (V c main_arg6 : S64x64.Idx → EReal) (V c main_arg7 : S64.Idx → EReal) := by
  exact (dat0 (F := Ideal) V c).arrAt_eq_of_cover 6 _ (fun t _ => flushed0_layer V c t) cover0

end Cert.KernelIdeal.Hand

end
-- ==== Proof.Reg1.lean ====
/-
  Layer kernel 1 over its whole grid: ten grid points, point `t` computing rows `10000·t … 10000·t + 9999` of the
  result from the same rows of the two feature arrays and from the whole weight and bias arrays. A layer acts row by row,
  so the block a point writes back is that block of `layer` of the whole arrays, and the ten blocks cover the result.
-/
import proofs.«423676_j55946243998145_1_alg».proof.Proof.Gen.KernelIdeal.Frame
import proofs.«423676_j55946243998145_1_alg».proof.Proof.PayLayer
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

example : Pipeline.arrRef spec1 0 = main_v14 := rfl
example : Pipeline.arrRef spec1 1 = main_v32 := rfl
example : Pipeline.arrRef spec1 2 = main_v16 := rfl
example : Pipeline.arrRef spec1 3 = main_v18 := rfl
example : Pipeline.arrRef spec1 4 = main_v20 := rfl
example : Pipeline.arrRef spec1 5 = main_v22 := rfl
example : Pipeline.arrRef spec1 6 = main_v33 := rfl

/-! ## The index maps, the blocks, the cover -/

/-- The all-zero offsets of a rank-2 rectangle, -/
private theorem zero2 : (![0, 0] : Fin 2 → Nat) = fun _ => 0 := funext fun a => by fin_cases a <;> rfl
/-- and of a rank-1 one. -/
private theorem zero1 : (![0] : Fin 1 → Nat) = fun _ => 0 := funext fun a => by fin_cases a; rfl

/-- The body loads each of its six buffers whole and stores one whole block, so what it leaves in the result's buffer is
    the layer kernel's arithmetic applied to the six buffers. -/
private theorem buf_eq_pay (x0 x1 : Vec Ideal S10000x64 .f32) (x2 : Vec Ideal S64x64 .f32) (x3 : Vec Ideal S64 .f32)
    (x4 : Vec Ideal S64x64 .f32) (x5 : Vec Ideal S64 .f32) :
    out1_6 (F := Ideal) x0 x1 x2 x3 x4 x5 = k1_pay1 (F := Ideal) x0 x1 x2 x3 x4 x5 := by
  unfold out1_6
  rw [View.canon_unit_zero zero2]
  simp only [View.ld_unit_zero (S := S10000x64) zero2, View.ld_unit_zero (S := S64x64) zero2,
    View.ld_unit_zero (S := S64) zero1]

/-- The block indices over the grid: at point `t` the two feature arrays and the result are at row block `t`, column
    block 0; the weights and biases are at block 0 on every axis. -/
private theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of block `t` is a row of the array: ten blocks of 10000 rows make 100000. -/
private theorem row_lt (t : Fin cfg1.N) (p : Fin 10000) : 10000 * t.val + p.val < 100000 := by
  have h : t.val < 10 := lt_of_lt_of_eq t.isLt (N_1 : cfg1.N = 10)
  omega

/-- A layer acts row by row: its entry `(p, q)` on blocks whose row `p` is row `r` of the whole feature arrays, with the
    whole weights and biases, is entry `(r, q)` of the layer of the whole arrays. -/
private theorem layer_at_row
    (H A : S100000x64.Idx → EReal) (W1 : S64x64.Idx → EReal) (B1 : S64.Idx → EReal)
    (W2 : S64x64.Idx → EReal) (B2 : S64.Idx → EReal)
    (x0 x1 : S10000x64.Idx → EReal) (x2 : S64x64.Idx → EReal) (x3 : S64.Idx → EReal)
    (x4 : S64x64.Idx → EReal) (x5 : S64.Idx → EReal)
    (p : Fin 10000) (r : Fin 100000) (q : Fin 64)
    (h0 : ∀ j : Fin 64, x0 (ix2 p j) = H (ix2 r j))
    (h1 : ∀ j : Fin 64, x1 (ix2 p j) = A (ix2 r j))
    (h2 : x2 = W1) (h3 : x3 = B1) (h4 : x4 = W2) (h5 : x5 = B2) :
    Cert.Gin.layer x0 x1 x2 x3 x4 x5 (ix2 p q) = Cert.Gin.layer H A W1 B1 W2 B2 (ix2 r q) := by
  subst h2 h3 h4 h5
  unfold Cert.Gin.layer
  show Cert.Gin.mlpRow (fun j => x0 (ix2 p j)) (fun j => x1 (ix2 p j)) _ _ _ _ q
     = Cert.Gin.mlpRow (fun j => H (ix2 r j)) (fun j => A (ix2 r j)) _ _ _ _ q
  rw [funext h0, funext h1]

/-- Entry `(p, j)` of the first feature array's block at point `t` is its entry `(10000·t + p, j)`. -/
private theorem feat0_at (c : Dev nD) (t : Fin cfg1.N) (p : Fin 10000) (j : Fin 64) :
    (iblk1 (F := Ideal) V c 0 t : S10000x64.Idx → EReal) (ix2 p j)
      = (V c main_v14 : S100000x64.Idx → EReal) (ix2 ⟨10000 * t.val + p.val, row_lt t p⟩ j) := by
  obtain ⟨e0, e1, -⟩ := index_maps t
  unfold iblk1
  rw [View.read_apply]
  show V c main_v14 _ = V c main_v14 _
  congr 1
  funext a
  apply Fin.ext
  match a with
  | ⟨0, _⟩ => show win1_0.index t (0 : Fin 2) * 10000 + 1 * p.val = 10000 * t.val + p.val; omega
  | ⟨1, _⟩ => show win1_0.index t (1 : Fin 2) * 64 + 1 * j.val = j.val; omega

/-- The same for the second feature array (the neighbourhood sums). -/
private theorem feat1_at (c : Dev nD) (t : Fin cfg1.N) (p : Fin 10000) (j : Fin 64) :
    (iblk1 (F := Ideal) V c 1 t : S10000x64.Idx → EReal) (ix2 p j)
      = (V c main_v32 : S100000x64.Idx → EReal) (ix2 ⟨10000 * t.val + p.val, row_lt t p⟩ j) := by
  obtain ⟨-, -, e0, e1, -⟩ := index_maps t
  unfold iblk1
  rw [View.read_apply]
  show V c main_v32 _ = V c main_v32 _
  congr 1
  funext a
  apply Fin.ext
  match a with
  | ⟨0, _⟩ => show win1_1.index t (0 : Fin 2) * 10000 + 1 * p.val = 10000 * t.val + p.val; omega
  | ⟨1, _⟩ => show win1_1.index t (1 : Fin 2) * 64 + 1 * j.val = j.val; omega

/-- The first weight matrix's block is the whole matrix at every point: its block index is 0 on both axes. -/
private theorem w1_whole (c : Dev nD) (t : Fin cfg1.N) :
    (iblk1 (F := Ideal) V c 2 t : S64x64.Idx → EReal) = (V c main_v16 : S64x64.Idx → EReal) := by
  obtain ⟨-, -, -, -, e0, e1, -⟩ := index_maps t
  funext x
  obtain ⟨j, k, rfl⟩ : ∃ (j : Fin 64) (k : Fin 64), x = ix2 j k := ⟨x 0, x 1, eq_ix2 x⟩
  unfold iblk1
  rw [View.read_apply]
  show V c main_v16 _ = V c main_v16 _
  congr 1
  funext a
  apply Fin.ext
  match a with
  | ⟨0, _⟩ => show win1_2.index t (0 : Fin 2) * 64 + 1 * j.val = j.val; omega
  | ⟨1, _⟩ => show win1_2.index t (1 : Fin 2) * 64 + 1 * k.val = k.val; omega

/-- The first bias's block is the whole vector. -/
private theorem b1_whole (c : Dev nD) (t : Fin cfg1.N) :
    (iblk1 (F := Ideal) V c 3 t : S64.Idx → EReal) = (V c main_v18 : S64.Idx → EReal) := by
  obtain ⟨-, -, -, -, -, -, e0, -⟩ := index_maps t
  funext x
  obtain ⟨k, rfl⟩ : ∃ (k : Fin 64), x = ix1 k := ⟨x 0, eq_ix1 x⟩
  unfold iblk1
  rw [View.read_apply]
  show V c main_v18 _ = V c main_v18 _
  congr 1
  funext a
  apply Fin.ext
  match a with
  | ⟨0, _⟩ => show win1_3.index t (0 : Fin 1) * 64 + 1 * k.val = k.val; omega

/-- The second weight matrix's block is the whole matrix. -/
private theorem w2_whole (c : Dev nD) (t : Fin cfg1.N) :
    (iblk1 (F := Ideal) V c 4 t : S64x64.Idx → EReal) = (V c main_v20 : S64x64.Idx → EReal) := by
  obtain ⟨-, -, -, -, -, -, -, e0, e1, -⟩ := index_maps t
  funext x
  obtain ⟨j, k, rfl⟩ : ∃ (j : Fin 64) (k : Fin 64), x = ix2 j k := ⟨x 0, x 1, eq_ix2 x⟩
  unfold iblk1
  rw [View.read_apply]
  show V c main_v20 _ = V c main_v20 _
  congr 1
  funext a
  apply Fin.ext
  match a with
  | ⟨0, _⟩ => show win1_4.index t (0 : Fin 2) * 64 + 1 * j.val = j.val; omega
  | ⟨1, _⟩ => show win1_4.index t (1 : Fin 2) * 64 + 1 * k.val = k.val; omega

/-- The second bias's block is the whole vector. -/
private theorem b2_whole (c : Dev nD) (t : Fin cfg1.N) :
    (iblk1 (F := Ideal) V c 5 t : S64.Idx → EReal) = (V c main_v22 : S64.Idx → EReal) := by
  obtain ⟨-, -, -, -, -, -, -, -, -, e0, -⟩ := index_maps t
  funext x
  obtain ⟨k, rfl⟩ : ∃ (k : Fin 64), x = ix1 k := ⟨x 0, eq_ix1 x⟩
  unfold iblk1
  rw [View.read_apply]
  show V c main_v22 _ = V c main_v22 _
  congr 1
  funext a
  apply Fin.ext
  match a with
  | ⟨0, _⟩ => show win1_5.index t (0 : Fin 1) * 64 + 1 * k.val = k.val; omega

/-- Entry `(p, q)` of the result's block at point `t` sits at entry `(10000·t + p, q)` of the result array. -/
private theorem out_emb (t : Fin cfg1.N) (p : Fin 10000) (q : Fin 64) :
    (((cfg1.win 6).blk t).view.emb (ix2 p q : S10000x64.Idx) : S100000x64.Idx)
      = ix2 ⟨10000 * t.val + p.val, row_lt t p⟩ q := by
  obtain ⟨-, -, -, -, -, -, -, -, -, -, e0, e1⟩ := index_maps t
  funext a
  apply Fin.ext
  match a with
  | ⟨0, _⟩ => show win1_6.index t (0 : Fin 2) * 10000 + 1 * p.val = 10000 * t.val + p.val; omega
  | ⟨1, _⟩ => show win1_6.index t (1 : Fin 2) * 64 + 1 * q.val = q.val; omega

/-- What point `t` writes back is block `t` of the layer of the whole arrays: the body's block is the layer of the six
    input blocks, the feature blocks are rows `10000·t … 10000·t + 9999` of their arrays, the weights and biases are whole,
    and a layer acts row by row. -/
private theorem flushed_eq (c : Dev nD) (t : Fin cfg1.N) :
    (dat1 (F := Ideal) V c).flushed 6 t = ((cfg1.win 6).blk t).view.read (Elt Ideal)
      (Cert.Gin.layer (V c main_v14 : S100000x64.Idx → EReal) (V c main_v32 : S100000x64.Idx → EReal)
          (V c main_v16 : S64x64.Idx → EReal) (V c main_v18 : S64.Idx → EReal)
          (V c main_v20 : S64x64.Idx → EReal) (V c main_v22 : S64.Idx → EReal)) := by
  show (cfg1.win 6).cut (grid1.coords t) ((dat1 (F := Ideal) V c).after 6 t) = _
  rw [after1_6, buf_eq_pay, pay1_eq]
  funext y
  obtain ⟨p, q, rfl⟩ : ∃ (p : Fin 10000) (q : Fin 64), y = (ix2 p q : S10000x64.Idx) :=
    ⟨y 0, y 1, eq_ix2 (n0 := 10000) (n1 := 64) y⟩
  show Cert.Gin.layer (iblk1 (F := Ideal) V c 0 t : S10000x64.Idx → EReal) (iblk1 (F := Ideal) V c 1 t : S10000x64.Idx → EReal)
        (iblk1 (F := Ideal) V c 2 t : S64x64.Idx → EReal) (iblk1 (F := Ideal) V c 3 t : S64.Idx → EReal)
        (iblk1 (F := Ideal) V c 4 t : S64x64.Idx → EReal) (iblk1 (F := Ideal) V c 5 t : S64.Idx → EReal) (ix2 p q)
      = Cert.Gin.layer (V c main_v14 : S100000x64.Idx → EReal) (V c main_v32 : S100000x64.Idx → EReal)
          (V c main_v16 : S64x64.Idx → EReal) (V c main_v18 : S64.Idx → EReal)
          (V c main_v20 : S64x64.Idx → EReal) (V c main_v22 : S64.Idx → EReal)
          (((cfg1.win 6).blk t).view.emb (ix2 p q : S10000x64.Idx))
  rw [out_emb t p q]
  exact layer_at_row _ _ _ _ _ _ _ _ _ _ _ _ p ⟨10000 * t.val + p.val, row_lt t p⟩ q
    (fun j => feat0_at V c t p j) (fun j => feat1_at V c t p j)
    (w1_whole V c t) (b1_whole V c t) (w2_whole V c t) (b2_whole V c t)

/-- An index of the result array is in point `t`'s block iff each coordinate is in the block's range on its axis. -/
private theorem mem_out_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v33).slice (win1_6.rect t)).set ↔ _
  rw [View.set_slice_whole, Rect.mem_set_unit]
  exact Iff.rfl

/-- The ten blocks cover the result: row `r` is in the block of point `r / 10000`, and every point writes back. -/
private theorem rows_covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 :=
    ⟨⟨(i 0).val / 10000, lt_of_lt_of_eq (by omega : (i 0).val / 10000 < 10) hN.symm⟩, rfl⟩
  obtain ⟨-, -, -, -, -, -, -, -, -, -, e0, e1⟩ := index_maps t
  refine ⟨t, flush1_6 t, ?_⟩
  rw [mem_out_blk]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 64 ≤ (i 1).val ∧ (i 1).val < win1_6.index t (1 : Fin 2) * 64 + 64
    omega

/-- After region 1 its result array is `layer` of the arrays the region was entered with. -/
theorem region1_out (c : Dev nD) :
    ((dat1 (F := Ideal) V c).arrAt 6 cfg1.N : S100000x64.Idx → EReal)
      = Cert.Gin.layer (V c main_v14 : S100000x64.Idx → EReal) (V c main_v32 : S100000x64.Idx → EReal)
          (V c main_v16 : S64x64.Idx → EReal) (V c main_v18 : S64.Idx → EReal)
          (V c main_v20 : S64x64.Idx → EReal) (V c main_v22 : S64.Idx → EReal) := by
  exact (dat1 (F := Ideal) V c).arrAt_eq_of_cover 6 _ (fun t _ => flushed_eq V c t) rows_covered

end Cert.KernelIdeal.Hand

end
-- ==== Proof.Reg2.lean ====
/-
  Layer kernel 2 over its whole grid: ten grid points, point `t` computing rows `10000·t … 10000·t + 9999` of the
  result from the same rows of the two feature arrays and from the whole weight and bias arrays. A layer acts row by row,
  so the block a point writes back is that block of `layer` of the whole arrays, and the ten blocks cover the result.
-/
import proofs.«423676_j55946243998145_1_alg».proof.Proof.Gen.KernelIdeal.Frame
import proofs.«423676_j55946243998145_1_alg».proof.Proof.PayLayer
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

example : Pipeline.arrRef spec2 0 = main_v33 := rfl
example : Pipeline.arrRef spec2 1 = main_v51 := rfl
example : Pipeline.arrRef spec2 2 = main_v35 := rfl
example : Pipeline.arrRef spec2 3 = main_v37 := rfl
example : Pipeline.arrRef spec2 4 = main_v39 := rfl
example : Pipeline.arrRef spec2 5 = main_v41 := rfl
example : Pipeline.arrRef spec2 6 = main_v52 := rfl

/-! ## The index maps, the blocks, the cover -/

/-- The all-zero offsets of a rank-2 rectangle, -/
private theorem zero2 : (![0, 0] : Fin 2 → Nat) = fun _ => 0 := funext fun a => by fin_cases a <;> rfl
/-- and of a rank-1 one. -/
private theorem zero1 : (![0] : Fin 1 → Nat) = fun _ => 0 := funext fun a => by fin_cases a; rfl

/-- The body loads each of its six buffers whole and stores one whole block, so what it leaves in the result's buffer is
    the layer kernel's arithmetic applied to the six buffers. -/
private theorem buf_eq_pay (x0 x1 : Vec Ideal S10000x64 .f32) (x2 : Vec Ideal S64x64 .f32) (x3 : Vec Ideal S64 .f32)
    (x4 : Vec Ideal S64x64 .f32) (x5 : Vec Ideal S64 .f32) :
    out2_6 (F := Ideal) x0 x1 x2 x3 x4 x5 = k2_pay1 (F := Ideal) x0 x1 x2 x3 x4 x5 := by
  unfold out2_6
  rw [View.canon_unit_zero zero2]
  simp only [View.ld_unit_zero (S := S10000x64) zero2, View.ld_unit_zero (S := S64x64) zero2,
    View.ld_unit_zero (S := S64) zero1]

/-- The block indices over the grid: at point `t` the two feature arrays and the result are at row block `t`, column
    block 0; the weights and biases are at block 0 on every axis. -/
private theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row `p` of block `t` is a row of the array: ten blocks of 10000 rows make 100000. -/
private theorem row_lt (t : Fin cfg2.N) (p : Fin 10000) : 10000 * t.val + p.val < 100000 := by
  have h : t.val < 10 := lt_of_lt_of_eq t.isLt (N_2 : cfg2.N = 10)
  omega

/-- A layer acts row by row: its entry `(p, q)` on blocks whose row `p` is row `r` of the whole feature arrays, with the
    whole weights and biases, is entry `(r, q)` of the layer of the whole arrays. -/
private theorem layer_at_row
    (H A : S100000x64.Idx → EReal) (W1 : S64x64.Idx → EReal) (B1 : S64.Idx → EReal)
    (W2 : S64x64.Idx → EReal) (B2 : S64.Idx → EReal)
    (x0 x1 : S10000x64.Idx → EReal) (x2 : S64x64.Idx → EReal) (x3 : S64.Idx → EReal)
    (x4 : S64x64.Idx → EReal) (x5 : S64.Idx → EReal)
    (p : Fin 10000) (r : Fin 100000) (q : Fin 64)
    (h0 : ∀ j : Fin 64, x0 (ix2 p j) = H (ix2 r j))
    (h1 : ∀ j : Fin 64, x1 (ix2 p j) = A (ix2 r j))
    (h2 : x2 = W1) (h3 : x3 = B1) (h4 : x4 = W2) (h5 : x5 = B2) :
    Cert.Gin.layer x0 x1 x2 x3 x4 x5 (ix2 p q) = Cert.Gin.layer H A W1 B1 W2 B2 (ix2 r q) := by
  subst h2 h3 h4 h5
  unfold Cert.Gin.layer
  show Cert.Gin.mlpRow (fun j => x0 (ix2 p j)) (fun j => x1 (ix2 p j)) _ _ _ _ q
     = Cert.Gin.mlpRow (fun j => H (ix2 r j)) (fun j => A (ix2 r j)) _ _ _ _ q
  rw [funext h0, funext h1]

/-- Entry `(p, j)` of the first feature array's block at point `t` is its entry `(10000·t + p, j)`. -/
private theorem feat0_at (c : Dev nD) (t : Fin cfg2.N) (p : Fin 10000) (j : Fin 64) :
    (iblk2 (F := Ideal) V c 0 t : S10000x64.Idx → EReal) (ix2 p j)
      = (V c main_v33 : S100000x64.Idx → EReal) (ix2 ⟨10000 * t.val + p.val, row_lt t p⟩ j) := by
  obtain ⟨e0, e1, -⟩ := index_maps t
  unfold iblk2
  rw [View.read_apply]
  show V c main_v33 _ = V c main_v33 _
  congr 1
  funext a
  apply Fin.ext
  match a with
  | ⟨0, _⟩ => show win2_0.index t (0 : Fin 2) * 10000 + 1 * p.val = 10000 * t.val + p.val; omega
  | ⟨1, _⟩ => show win2_0.index t (1 : Fin 2) * 64 + 1 * j.val = j.val; omega

/-- The same for the second feature array (the neighbourhood sums). -/
private theorem feat1_at (c : Dev nD) (t : Fin cfg2.N) (p : Fin 10000) (j : Fin 64) :
    (iblk2 (F := Ideal) V c 1 t : S10000x64.Idx → EReal) (ix2 p j)
      = (V c main_v51 : S100000x64.Idx → EReal) (ix2 ⟨10000 * t.val + p.val, row_lt t p⟩ j) := by
  obtain ⟨-, -, e0, e1, -⟩ := index_maps t
  unfold iblk2
  rw [View.read_apply]
  show V c main_v51 _ = V c main_v51 _
  congr 1
  funext a
  apply Fin.ext
  match a with
  | ⟨0, _⟩ => show win2_1.index t (0 : Fin 2) * 10000 + 1 * p.val = 10000 * t.val + p.val; omega
  | ⟨1, _⟩ => show win2_1.index t (1 : Fin 2) * 64 + 1 * j.val = j.val; omega

/-- The first weight matrix's block is the whole matrix at every point: its block index is 0 on both axes. -/
private theorem w1_whole (c : Dev nD) (t : Fin cfg2.N) :
    (iblk2 (F := Ideal) V c 2 t : S64x64.Idx → EReal) = (V c main_v35 : S64x64.Idx → EReal) := by
  obtain ⟨-, -, -, -, e0, e1, -⟩ := index_maps t
  funext x
  obtain ⟨j, k, rfl⟩ : ∃ (j : Fin 64) (k : Fin 64), x = ix2 j k := ⟨x 0, x 1, eq_ix2 x⟩
  unfold iblk2
  rw [View.read_apply]
  show V c main_v35 _ = V c main_v35 _
  congr 1
  funext a
  apply Fin.ext
  match a with
  | ⟨0, _⟩ => show win2_2.index t (0 : Fin 2) * 64 + 1 * j.val = j.val; omega
  | ⟨1, _⟩ => show win2_2.index t (1 : Fin 2) * 64 + 1 * k.val = k.val; omega

/-- The first bias's block is the whole vector. -/
private theorem b1_whole (c : Dev nD) (t : Fin cfg2.N) :
    (iblk2 (F := Ideal) V c 3 t : S64.Idx → EReal) = (V c main_v37 : S64.Idx → EReal) := by
  obtain ⟨-, -, -, -, -, -, e0, -⟩ := index_maps t
  funext x
  obtain ⟨k, rfl⟩ : ∃ (k : Fin 64), x = ix1 k := ⟨x 0, eq_ix1 x⟩
  unfold iblk2
  rw [View.read_apply]
  show V c main_v37 _ = V c main_v37 _
  congr 1
  funext a
  apply Fin.ext
  match a with
  | ⟨0, _⟩ => show win2_3.index t (0 : Fin 1) * 64 + 1 * k.val = k.val; omega

/-- The second weight matrix's block is the whole matrix. -/
private theorem w2_whole (c : Dev nD) (t : Fin cfg2.N) :
    (iblk2 (F := Ideal) V c 4 t : S64x64.Idx → EReal) = (V c main_v39 : S64x64.Idx → EReal) := by
  obtain ⟨-, -, -, -, -, -, -, e0, e1, -⟩ := index_maps t
  funext x
  obtain ⟨j, k, rfl⟩ : ∃ (j : Fin 64) (k : Fin 64), x = ix2 j k := ⟨x 0, x 1, eq_ix2 x⟩
  unfold iblk2
  rw [View.read_apply]
  show V c main_v39 _ = V c main_v39 _
  congr 1
  funext a
  apply Fin.ext
  match a with
  | ⟨0, _⟩ => show win2_4.index t (0 : Fin 2) * 64 + 1 * j.val = j.val; omega
  | ⟨1, _⟩ => show win2_4.index t (1 : Fin 2) * 64 + 1 * k.val = k.val; omega

/-- The second bias's block is the whole vector. -/
private theorem b2_whole (c : Dev nD) (t : Fin cfg2.N) :
    (iblk2 (F := Ideal) V c 5 t : S64.Idx → EReal) = (V c main_v41 : S64.Idx → EReal) := by
  obtain ⟨-, -, -, -, -, -, -, -, -, e0, -⟩ := index_maps t
  funext x
  obtain ⟨k, rfl⟩ : ∃ (k : Fin 64), x = ix1 k := ⟨x 0, eq_ix1 x⟩
  unfold iblk2
  rw [View.read_apply]
  show V c main_v41 _ = V c main_v41 _
  congr 1
  funext a
  apply Fin.ext
  match a with
  | ⟨0, _⟩ => show win2_5.index t (0 : Fin 1) * 64 + 1 * k.val = k.val; omega

/-- Entry `(p, q)` of the result's block at point `t` sits at entry `(10000·t + p, q)` of the result array. -/
private theorem out_emb (t : Fin cfg2.N) (p : Fin 10000) (q : Fin 64) :
    (((cfg2.win 6).blk t).view.emb (ix2 p q : S10000x64.Idx) : S100000x64.Idx)
      = ix2 ⟨10000 * t.val + p.val, row_lt t p⟩ q := by
  obtain ⟨-, -, -, -, -, -, -, -, -, -, e0, e1⟩ := index_maps t
  funext a
  apply Fin.ext
  match a with
  | ⟨0, _⟩ => show win2_6.index t (0 : Fin 2) * 10000 + 1 * p.val = 10000 * t.val + p.val; omega
  | ⟨1, _⟩ => show win2_6.index t (1 : Fin 2) * 64 + 1 * q.val = q.val; omega

/-- What point `t` writes back is block `t` of the layer of the whole arrays: the body's block is the layer of the six
    input blocks, the feature blocks are rows `10000·t … 10000·t + 9999` of their arrays, the weights and biases are whole,
    and a layer acts row by row. -/
private theorem flushed_eq (c : Dev nD) (t : Fin cfg2.N) :
    (dat2 (F := Ideal) V c).flushed 6 t = ((cfg2.win 6).blk t).view.read (Elt Ideal)
      (Cert.Gin.layer (V c main_v33 : S100000x64.Idx → EReal) (V c main_v51 : S100000x64.Idx → EReal)
          (V c main_v35 : S64x64.Idx → EReal) (V c main_v37 : S64.Idx → EReal)
          (V c main_v39 : S64x64.Idx → EReal) (V c main_v41 : S64.Idx → EReal)) := by
  show (cfg2.win 6).cut (grid2.coords t) ((dat2 (F := Ideal) V c).after 6 t) = _
  rw [after2_6, buf_eq_pay, pay2_eq]
  funext y
  obtain ⟨p, q, rfl⟩ : ∃ (p : Fin 10000) (q : Fin 64), y = (ix2 p q : S10000x64.Idx) :=
    ⟨y 0, y 1, eq_ix2 (n0 := 10000) (n1 := 64) y⟩
  show Cert.Gin.layer (iblk2 (F := Ideal) V c 0 t : S10000x64.Idx → EReal) (iblk2 (F := Ideal) V c 1 t : S10000x64.Idx → EReal)
        (iblk2 (F := Ideal) V c 2 t : S64x64.Idx → EReal) (iblk2 (F := Ideal) V c 3 t : S64.Idx → EReal)
        (iblk2 (F := Ideal) V c 4 t : S64x64.Idx → EReal) (iblk2 (F := Ideal) V c 5 t : S64.Idx → EReal) (ix2 p q)
      = Cert.Gin.layer (V c main_v33 : S100000x64.Idx → EReal) (V c main_v51 : S100000x64.Idx → EReal)
          (V c main_v35 : S64x64.Idx → EReal) (V c main_v37 : S64.Idx → EReal)
          (V c main_v39 : S64x64.Idx → EReal) (V c main_v41 : S64.Idx → EReal)
          (((cfg2.win 6).blk t).view.emb (ix2 p q : S10000x64.Idx))
  rw [out_emb t p q]
  exact layer_at_row _ _ _ _ _ _ _ _ _ _ _ _ p ⟨10000 * t.val + p.val, row_lt t p⟩ q
    (fun j => feat0_at V c t p j) (fun j => feat1_at V c t p j)
    (w1_whole V c t) (b1_whole V c t) (w2_whole V c t) (b2_whole V c t)

/-- An index of the result array is in point `t`'s block iff each coordinate is in the block's range on its axis. -/
private theorem mem_out_blk (t : Fin cfg2.N) (i : S100000x64.Idx) :
    i ∈ ((cfg2.win 6).blk t).view.set ↔ ∀ a : Fin 2, win2_6.index t a * S10000x64.size a ≤ (i a).val
      ∧ (i a).val < win2_6.index t a * S10000x64.size a + S10000x64.size a := by
  show i ∈ ((View.whole main_v52).slice (win2_6.rect t)).set ↔ _
  rw [View.set_slice_whole, Rect.mem_set_unit]
  exact Iff.rfl

/-- The ten blocks cover the result: row `r` is in the block of point `r / 10000`, and every point writes back. -/
private theorem rows_covered (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 :=
    ⟨⟨(i 0).val / 10000, lt_of_lt_of_eq (by omega : (i 0).val / 10000 < 10) hN.symm⟩, rfl⟩
  obtain ⟨-, -, -, -, -, -, -, -, -, -, e0, e1⟩ := index_maps t
  refine ⟨t, flush2_6 t, ?_⟩
  rw [mem_out_blk]
  intro a
  match a with
  | ⟨0, _⟩ =>
    show win2_6.index t (0 : Fin 2) * 10000 ≤ (i 0).val ∧ (i 0).val < win2_6.index t (0 : Fin 2) * 10000 + 10000
    omega
  | ⟨1, _⟩ =>
    show win2_6.index t (1 : Fin 2) * 64 ≤ (i 1).val ∧ (i 1).val < win2_6.index t (1 : Fin 2) * 64 + 64
    omega

/-- After region 2 its result array is `layer` of the arrays the region was entered with. -/
theorem region2_out (c : Dev nD) :
    ((dat2 (F := Ideal) V c).arrAt 6 cfg2.N : S100000x64.Idx → EReal)
      = Cert.Gin.layer (V c main_v33 : S100000x64.Idx → EReal) (V c main_v51 : S100000x64.Idx → EReal)
          (V c main_v35 : S64x64.Idx → EReal) (V c main_v37 : S64.Idx → EReal)
          (V c main_v39 : S64x64.Idx → EReal) (V c main_v41 : S64.Idx → EReal) := by
  exact (dat2 (F := Ideal) V c).arrAt_eq_of_cover 6 _ (fun t _ => flushed_eq V c t) rows_covered

end Cert.KernelIdeal.Hand

end
-- ==== Proof.Reg3.lean ====
/-
  Layer kernel 3 over its whole grid: ten grid points, point `t` computing rows `10000·t … 10000·t + 9999` of the
  result from the same rows of the two feature arrays and from the whole weight and bias arrays. A layer acts row by row,
  so the block a point writes back is that block of `layer` of the whole arrays, and the ten blocks cover the result.
-/
import proofs.«423676_j55946243998145_1_alg».proof.Proof.Gen.KernelIdeal.Frame
import proofs.«423676_j55946243998145_1_alg».proof.Proof.PayLayer
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

example : Pipeline.arrRef spec3 0 = main_v52 := rfl
example : Pipeline.arrRef spec3 1 = main_v70 := rfl
example : Pipeline.arrRef spec3 2 = main_v54 := rfl
example : Pipeline.arrRef spec3 3 = main_v56 := rfl
example : Pipeline.arrRef spec3 4 = main_v58 := rfl
example : Pipeline.arrRef spec3 5 = main_v60 := rfl
example : Pipeline.arrRef spec3 6 = main_v71 := rfl

/-- The zero offsets of a rank-two buffer, as a constant function. -/
private theorem zero2 : (![0, 0] : Fin 2 → Nat) = fun _ => 0 := funext fun a => by fin_cases a <;> rfl
/-- The zero offset of a rank-one buffer, as a constant function. -/
private theorem zero1 : (![0] : Fin 1 → Nat) = fun _ => 0 := funext fun a => by fin_cases a; rfl

/-- What the body leaves in the result's buffer: it loads its six buffers whole and stores once, whole, so the buffer
    holds `layer` of the six blocks. -/
private theorem out3_layer (x0 x1 : Vec Ideal S10000x64 .f32) (x2 : Vec Ideal S64x64 .f32) (x3 : Vec Ideal S64 .f32)
    (x4 : Vec Ideal S64x64 .f32) (x5 : Vec Ideal S64 .f32) :
    out3_6 (F := Ideal) x0 x1 x2 x3 x4 x5 = Cert.Gin.layer x0 x1 x2 x3 x4 x5 := by
  unfold out3_6
  rw [View.canon_unit_zero zero2]
  simp only [View.ld_unit_zero (S := S10000x64) zero2, View.ld_unit_zero (S := S64x64) zero2,
    View.ld_unit_zero (S := S64) zero1]
  exact pay3_eq x0 x1 x2 x3 x4 x5

/-- The index maps over the grid: at point `t` the two feature windows and the result window are at row block `t`
    (column block 0); the weight and bias windows are at block 0 on every axis. -/
private theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- A layer acts row by row: its entry at `(y₀, q)` over arrays of `N` rows is its entry at `(i₀, q)` over arrays of
    `M` rows as soon as row `y₀` of each feature array of the first is row `i₀` of that of the second and the weights
    and biases are the same. -/
private theorem layer_row_eq {N M C : Nat}
    (h a : (⟨2, ![N, C]⟩ : Shape).Idx → EReal) (h' a' : (⟨2, ![M, C]⟩ : Shape).Idx → EReal)
    (w1 w1' : (⟨2, ![C, 64]⟩ : Shape).Idx → EReal) (b1 b1' : (⟨1, ![64]⟩ : Shape).Idx → EReal)
    (w2 w2' : (⟨2, ![64, 64]⟩ : Shape).Idx → EReal) (b2 b2' : (⟨1, ![64]⟩ : Shape).Idx → EReal)
    (y : (⟨2, ![N, 64]⟩ : Shape).Idx) (i : (⟨2, ![M, 64]⟩ : Shape).Idx)
    (hh : ∀ j : Fin C, h (ix2 (y 0) j) = h' (ix2 (i 0) j))
    (ha : ∀ j : Fin C, a (ix2 (y 0) j) = a' (ix2 (i 0) j))
    (hw1 : w1 = w1') (hb1 : b1 = b1') (hw2 : w2 = w2') (hb2 : b2 = b2')
    (hq : (y 1).val = (i 1).val) :
    Cert.Gin.layer h a w1 b1 w2 b2 y = Cert.Gin.layer h' a' w1' b1' w2' b2' i := by
  subst hw1 hb1 hw2 hb2
  have hq' : (y 1 : Fin 64) = i 1 := Fin.ext hq
  unfold Cert.Gin.layer
  simp only [hh, ha, hq']

/-- What point `t` writes back is block `t` of `layer` of the whole arrays: entry `(p, q)` of the block sits at
    row `10000·t + p`, column `q` of the result, the feature blocks' row `p` is the feature arrays' row `10000·t + p`
    (a block's coordinate is its index times its size plus the coordinate inside it), and the weight and bias blocks
    are their whole arrays. -/
private theorem flushed3_layer (c : Dev nD) (t : Fin cfg3.N) :
    (dat3 (F := Ideal) V c).flushed 6 t = ((cfg3.win 6).blk t).view.read (Elt Ideal)
      (Cert.Gin.layer (V c main_v52 : S100000x64.Idx → EReal) (V c main_v70 : S100000x64.Idx → EReal)
          (V c main_v54 : S64x64.Idx → EReal) (V c main_v56 : S64.Idx → EReal)
          (V c main_v58 : S64x64.Idx → EReal) (V c main_v60 : S64.Idx → EReal)) := by
  show (cfg3.win 6).cut (grid3.coords t) ((dat3 V c).after 6 t) = _
  rw [after3_6, out3_layer]
  funext y
  obtain ⟨e00, e01, e10, e11, e20, e21, e30, e40, e41, e50, e60, e61⟩ := idx3 t
  refine layer_row_eq (N := 10000) (M := 100000) (C := 64) _ _ _ _ _ _ _ _ _ _ _ _ y (((cfg3.win 6).blk t).view.emb y) ?_ ?_ ?_ ?_ ?_ ?_ ?_
  · intro j
    show V c main_v52 (((cfg3.win 0).blk t).view.emb (ix2 (y 0) j)) = V c main_v52 (ix2 (((cfg3.win 6).blk t).view.emb y 0) j)
    refine congrArg (V c main_v52) (funext fun a => Fin.ext ?_)
    match a with
    | ⟨0, _⟩ => show win3_0.index t (0 : Fin 2) * 10000 + 1 * (y 0).val = win3_6.index t (0 : Fin 2) * 10000 + 1 * (y 0).val; rw [e00, e60]
    | ⟨1, _⟩ => show win3_0.index t (1 : Fin 2) * 64 + 1 * j.val = j.val; rw [e01]; omega
  · intro j
    show V c main_v70 (((cfg3.win 1).blk t).view.emb (ix2 (y 0) j)) = V c main_v70 (ix2 (((cfg3.win 6).blk t).view.emb y 0) j)
    refine congrArg (V c main_v70) (funext fun a => Fin.ext ?_)
    match a with
    | ⟨0, _⟩ => show win3_1.index t (0 : Fin 2) * 10000 + 1 * (y 0).val = win3_6.index t (0 : Fin 2) * 10000 + 1 * (y 0).val; rw [e10, e60]
    | ⟨1, _⟩ => show win3_1.index t (1 : Fin 2) * 64 + 1 * j.val = j.val; rw [e11]; omega
  · funext x
    show V c main_v54 (((cfg3.win 2).blk t).view.emb x) = V c main_v54 x
    refine congrArg (V c main_v54) (funext fun a => Fin.ext ?_)
    match a with
    | ⟨0, _⟩ => show win3_2.index t (0 : Fin 2) * 64 + 1 * (x 0).val = (x 0).val; rw [e20]; omega
    | ⟨1, _⟩ => show win3_2.index t (1 : Fin 2) * 64 + 1 * (x 1).val = (x 1).val; rw [e21]; omega
  · funext x
    show V c main_v56 (((cfg3.win 3).blk t).view.emb x) = V c main_v56 x
    refine congrArg (V c main_v56) (funext fun a => Fin.ext ?_)
    match a with
    | ⟨0, _⟩ => show win3_3.index t (0 : Fin 1) * 64 + 1 * (x 0).val = (x 0).val; rw [e30]; omega
  · funext x
    show V c main_v58 (((cfg3.win 4).blk t).view.emb x) = V c main_v58 x
    refine congrArg (V c main_v58) (funext fun a => Fin.ext ?_)
    match a with
    | ⟨0, _⟩ => show win3_4.index t (0 : Fin 2) * 64 + 1 * (x 0).val = (x 0).val; rw [e40]; omega
    | ⟨1, _⟩ => show win3_4.index t (1 : Fin 2) * 64 + 1 * (x 1).val = (x 1).val; rw [e41]; omega
  · funext x
    show V c main_v60 (((cfg3.win 5).blk t).view.emb x) = V c main_v60 x
    refine congrArg (V c main_v60) (funext fun a => Fin.ext ?_)
    match a with
    | ⟨0, _⟩ => show win3_5.index t (0 : Fin 1) * 64 + 1 * (x 0).val = (x 0).val; rw [e50]; omega
  · show (y 1).val = win3_6.index t (1 : Fin 2) * 64 + 1 * (y 1).val
    rw [e61]; omega

/-- An index of the result is in point `t`'s block iff each coordinate is in the block's range on its axis. -/
private theorem mem_blk3 (t : Fin cfg3.N) (i : S100000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v71).slice (win3_6.rect t)).set ↔ _
  rw [View.set_slice_whole, Rect.mem_set_unit]
  exact Iff.rfl

/-- The ten blocks cover the result: row `r` is in the block of point `r / 10000`. -/
private theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨-, -, -, -, -, -, -, -, -, -, e60, e61⟩ := idx3 ⟨(i 0).val / 10000, ht⟩
  have e60' : win3_6.index ⟨(i 0).val / 10000, ht⟩ (0 : Fin 2) = (i 0).val / 10000 := e60
  refine ⟨⟨(i 0).val / 10000, ht⟩, flush3_6 _, ?_⟩
  rw [mem_blk3]
  intro a
  match a with
  | ⟨0, _⟩ =>
    show win3_6.index ⟨(i 0).val / 10000, ht⟩ (0 : Fin 2) * 10000 ≤ (i 0).val
      ∧ (i 0).val < win3_6.index ⟨(i 0).val / 10000, ht⟩ (0 : Fin 2) * 10000 + 10000
    rw [e60']; omega
  | ⟨1, _⟩ =>
    show win3_6.index ⟨(i 0).val / 10000, ht⟩ (1 : Fin 2) * 64 ≤ (i 1).val
      ∧ (i 1).val < win3_6.index ⟨(i 0).val / 10000, ht⟩ (1 : Fin 2) * 64 + 64
    rw [e61]; omega

/-- After region 3 its result array is `layer` of the arrays the region was entered with. -/
theorem region3_out (c : Dev nD) :
    ((dat3 (F := Ideal) V c).arrAt 6 cfg3.N : S100000x64.Idx → EReal)
      = Cert.Gin.layer (V c main_v52 : S100000x64.Idx → EReal) (V c main_v70 : S100000x64.Idx → EReal)
          (V c main_v54 : S64x64.Idx → EReal) (V c main_v56 : S64.Idx → EReal)
          (V c main_v58 : S64x64.Idx → EReal) (V c main_v60 : S64.Idx → EReal) := by
  exact (dat3 (F := Ideal) V c).arrAt_eq_of_cover 6 _ (fun t _ => flushed3_layer V c t) cover3

end Cert.KernelIdeal.Hand

end
-- ==== Proof.PayPool.lean ====
/-
  The pooling kernel at one grid point. The body compares an iota over the 2000 segments with the point's 1024 segment
  ids, turns the comparison into a 0/1 matrix and multiplies it with the point's 1024 feature rows: entry (s, q) of the
  product is the sum of the rows whose id is s (a product with 0 is 0 and with 1 the row's entry, at every extended real).
  At the first point the running result is reset to zero before the product is added; at a later point the product is
  added onto what the point before left.
-/
import proofs.«423676_j55946243998145_1_alg».proof.Proof.Gen.KernelIdeal.Frame
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

/-- One grid point's contribution: for segment `s` and column `q`, the sum over the point's 1024 rows whose id is `s`. -/
def poolBlock (x0 : Vec Ideal S1024 .i32) (x1 : Vec Ideal S1024x64 .f32) : S2000x64.Idx → EReal :=
  fun i => ∑ k : Fin 1024, if (x0 (ix1 k)).toInt = ((i 0).val : Int) then x1 (ix2 k (i 1)) else 0

private theorem hz : (![0, 0] : Fin 2 → Nat) = fun _ => 0 := funext fun a => by fin_cases a <;> rfl
private theorem hz1 : (![0] : Fin 1 → Nat) = fun _ => 0 := funext fun a => by fin_cases a; rfl

/-! ## What each case stores, as the body's arithmetic on the point's blocks (any float instance) -/

/-- A later point stores the body's arithmetic on its two blocks and the buffer's running contents. -/
private theorem pieceB {F : FTy → Type} [FloatOps F] (c : Dev nD) (i : grid4.Coords)
    (arg1 : Memref sig .tc .vmem S1024 .i32) (harg1 : arg1.IsWhole)
    (arg2 : Memref sig .tc .vmem S1024x64 .f32) (harg2 : arg2.IsWhole) (arg3 : Memref sig .tc .vmem S2000x64 .f32)
    (harg3 : arg3.IsWhole) (hc0 : ¬cond4_0 i) (x0 : Vec F S1024 .i32) (x1 : Vec F S1024x64 .f32)
    (xo2 : Vec F S2000x64 .f32) :
    out4_B_2 (F := F) c i arg1 harg1 arg2 harg2 arg3 harg3 hc0 x0 x1 xo2 = k4_pay2 x0 x1 xo2 := by
  unfold out4_B_2
  rw [View.read_writes_eq_canon _ _ _ (cover4_B_2 c i arg1 harg1 arg2 harg2 arg3 harg3 hc0 x0 x1 xo2)]
  unfold kernelRun4_B
  dsimp only
  try sl_unfold_words
  rw [View.canon_unit_zero hz]
  simp only [View.readAt_eq_ld, harg1.read_unread, harg2.read_unread, harg3.read_unread,
    View.ld_unit_zero (S := S1024) hz1, View.ld_unit_zero (S := S1024x64) hz, View.ld_unit_zero (S := S2000x64) hz]

/-- The first point stores zeros, reads them back as the running contents and stores the same arithmetic over them. -/
private theorem pieceA {F : FTy → Type} [FloatOps F] (c : Dev nD) (i : grid4.Coords)
    (arg1 : Memref sig .tc .vmem S1024 .i32) (harg1 : arg1.IsWhole)
    (arg2 : Memref sig .tc .vmem S1024x64 .f32) (harg2 : arg2.IsWhole) (arg3 : Memref sig .tc .vmem S2000x64 .f32)
    (harg3 : arg3.IsWhole) (hc0 : cond4_0 i) (x0 : Vec F S1024 .i32) (x1 : Vec F S1024x64 .f32) :
    out4_A_2 (F := F) c i arg1 harg1 arg2 harg2 arg3 harg3 hc0 x0 x1 = k4_pay2 x0 x1 k4_pay1 := by
  unfold out4_A_2
  rw [View.read_writes_eq_canon _ _ _ (cover4_A_2 c i arg1 harg1 arg2 harg2 arg3 harg3 hc0 x0 x1)]
  unfold kernelRun4_A
  dsimp only
  try sl_unfold_words
  rw [View.canon_cons_unit_zero (S := S2000x64) hz, View.readCov_unit_zero (S := S2000x64) _ hz]
  simp only [View.readAt_eq_ld, harg1.read_unread, harg2.read_unread,
    View.ld_unit_zero (S := S1024) hz1, View.ld_unit_zero (S := S1024x64) hz]

/-! ## The product's index maps: output (s, q) and contraction position k meet the factors at (s, k) and (k, q) -/

private abbrev DD : DotDims S2000x1024 S1024x64 S2000x64 := dot_S2000x1024_S1024x64_S2000x64_1_0_0_1_n_n

private theorem lhs0 (j : S2000x64.Idx) (k : DD.contr.Idx) : (DD.lhsIdx j k 0).val = (j 0).val := by
  unfold DotDims.lhsIdx
  rw [dif_neg (show ¬(0 : Fin S2000x1024.rank) ∈ DD.lhsBatch by decide), dif_pos (show (0 : Fin S2000x1024.rank) ∈ DD.lhsNonContracting by decide)]
  rfl
private theorem lhs1 (j : S2000x64.Idx) (k : DD.contr.Idx) : (DD.lhsIdx j k 1).val = (k ⟨0, by decide⟩).val :=
  DD.lhsIdx_val_of_single rfl j k
private theorem rhs0 (j : S2000x64.Idx) (k : DD.contr.Idx) : (DD.rhsIdx j k 0).val = (k ⟨0, by decide⟩).val :=
  DD.rhsIdx_val_of_single rfl j k
private theorem rhs1 (j : S2000x64.Idx) (k : DD.contr.Idx) : (DD.rhsIdx j k 1).val = (j 1).val := by
  unfold DotDims.rhsIdx
  rw [dif_neg (show ¬(1 : Fin S1024x64.rank) ∈ DD.rhsBatch by decide), dif_pos (show (1 : Fin S1024x64.rank) ∈ DD.rhsNonContracting by decide)]
  rfl

/-! ## The 0/1 matrix at an entry -/

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A comparison of integer vectors at an index compares the two words there. -/
private theorem cmpi_at {s : Shape} {w : Nat} (p : CmpIPredicate) (x y : IVec s w) (i : s.Idx) :
    cmpi p x y i = IntOp.cmpi p (x i) (y i) := rfl

/-- A segment number below 2000, as a 32-bit word, reads back signed as itself. -/
private theorem toInt_ofNat_small (s : Nat) (hs : s < 2000) : (BitVec.ofNat 32 s).toInt = (s : Int) := by
  rw [BitVec.toInt_eq_toNat_cond, BitVec.toNat_ofNat]
  have h : s % 2 ^ 32 = s := Nat.mod_eq_of_lt (by omega)
  rw [h]; split <;> omega

/-- The comparison bit, widened and converted: 1 where the word is the segment number (read signed), 0 elsewhere. -/
private theorem hot_word (w : BitVec 32) (s : Nat) (hs : s < 2000) :
    (FloatOps.sitofp (F := Ideal) .f32 ((IntOp.cmpi .eq (BitVec.ofNat 32 s) w).setWidth 32) : EReal)
      = if w.toInt = (s : Int) then 1 else 0 := by
  show ((((BitVec.ofBool (BitVec.ofNat 32 s == w)).setWidth 32).toInt : ℝ) : EReal) = _
  by_cases h : w.toInt = (s : Int)
  · have e : BitVec.ofNat 32 s = w := BitVec.eq_of_toInt_eq ((toInt_ofNat_small s hs).trans h.symm)
    have e' : (BitVec.ofNat 32 s == w) = true := by rw [e]; exact beq_self_eq_true w
    have one : ((BitVec.ofBool true).setWidth 32).toInt = 1 := by decide
    rw [if_pos h, e', one]; norm_num
  · have e : BitVec.ofNat 32 s ≠ w := fun e => h (by rw [← e]; exact toInt_ofNat_small s hs)
    have e' : (BitVec.ofNat 32 s == w) = false := beq_eq_false_iff_ne.mpr e
    have zero : ((BitVec.ofBool false).setWidth 32).toInt = 0 := by decide
    rw [if_neg h, e', zero]; norm_num

/-! ## The body's arithmetic at an entry -/

/-- Entry (s, q) of what the body stores: the running entry plus the sum of the rows whose id is s. -/
private theorem pay2_apply (x0 : Vec Ideal S1024 .i32) (x1 : Vec Ideal S1024x64 .f32) (run : Vec Ideal S2000x64 .f32)
    (s : Fin 2000) (q : Fin 64) :
    k4_pay2 (F := Ideal) x0 x1 run (ix2 s q)
      = run (ix2 s q) + ∑ k : Fin 1024, if (x0 (ix1 k)).toInt = (s.val : Int) then x1 (ix2 k q) else 0 := by
  unfold k4_pay2
  dsimp only
  refine (addf_apply _ _ _).trans ?_
  refine congrArg₂ (· + ·) (congrFun (shapeCast_self run _) (ix2 s q)) ?_
  refine (Ideal.matmul_constant_zero_apply DD none _ _ (ix2 s q)).trans ?_
  rw [← Equiv.sum_comp (contrEquiv1 DD 1024 rfl rfl).symm]
  refine Finset.sum_congr rfl fun k _ => ?_
  have hk := contrEquiv1_symm_val DD 1024 rfl rfl k
  have el : DD.lhsIdx (ix2 s q) ((contrEquiv1 DD 1024 rfl rfl).symm k) = ix2 s k := funext fun a => Fin.ext (by
    match a with
    | ⟨0, _⟩ => exact lhs0 _ _
    | ⟨1, _⟩ => exact (lhs1 _ _).trans hk)
  have er : DD.rhsIdx (ix2 s q) ((contrEquiv1 DD 1024 rfl rfl).symm k) = ix2 k q := funext fun a => Fin.ext (by
    match a with
    | ⟨0, _⟩ => exact (rhs0 _ _).trans hk
    | ⟨1, _⟩ => exact rhs1 _ _)
  rw [el, er]
  have hiota : broadcastTo S2000x1024 (iota .tc S2000x1 32 [0] iota_S2000x1_d0_w32) broadcasts_S2000x1_S2000x1024 (ix2 s k)
      = BitVec.ofNat 32 s.val :=
    (broadcastTo_a1_ab_apply _ _ s k).trans (iota_single_apply .tc S2000x1 32 0 _ (ix2 s (0 : Fin 1)))
  have hid : broadcastTo S2000x1024 (shapeCast S1x1024 (shapeCast S1024 x0 shapeCasts_S1024_S1024) shapeCasts_S1024_S1x1024)
      broadcasts_S1x1024_S2000x1024 (ix2 s k) = x0 (ix1 k) :=
    (broadcastTo_1b_ab_apply _ _ s k).trans
      ((shapeCast_a_1a_apply _ _ (0 : Fin 1) k).trans (congrFun (shapeCast_self x0 _) (ix1 k)))
  rw [truncf_apply, truncf_apply, sitofp_apply, extui_apply, cmpi_at, hiota, hid, hot_word _ _ s.isLt, shapeCast_self]
  by_cases h : (x0 (ix1 k)).toInt = (s.val : Int)
  · rw [if_pos h, if_pos h, one_mul]
  · rw [if_neg h, if_neg h, zero_mul]

/-- The zero splat at an entry. -/
private theorem pay1_apply (y : S2000x64.Idx) : k4_pay1 (F := Ideal) y = 0 := by
  unfold k4_pay1
  exact Ideal.ofBits_zero_f32

/-- The first point leaves its own contribution (zero plus it). -/
theorem out4_A_eq (c : Dev nD) (i : grid4.Coords) (arg1 : Memref sig .tc .vmem S1024 .i32) (harg1 : arg1.IsWhole)
    (arg2 : Memref sig .tc .vmem S1024x64 .f32) (harg2 : arg2.IsWhole) (arg3 : Memref sig .tc .vmem S2000x64 .f32)
    (harg3 : arg3.IsWhole) (hc0 : cond4_0 i) (x0 : Vec Ideal S1024 .i32) (x1 : Vec Ideal S1024x64 .f32) :
    out4_A_2 (F := Ideal) c i arg1 harg1 arg2 harg2 arg3 harg3 hc0 x0 x1 = poolBlock x0 x1 := by
  rw [pieceA (F := Ideal) c i arg1 harg1 arg2 harg2 arg3 harg3 hc0 x0 x1]
  funext y
  obtain ⟨s, q, rfl⟩ : ∃ (s : Fin 2000) (q : Fin 64), y = ix2 s q := ⟨y 0, y 1, eq_ix2 y⟩
  rw [pay2_apply, pay1_apply, zero_add]
  rfl

/-- A later point adds its contribution onto what the buffer held. -/
theorem out4_B_eq (c : Dev nD) (i : grid4.Coords) (arg1 : Memref sig .tc .vmem S1024 .i32) (harg1 : arg1.IsWhole)
    (arg2 : Memref sig .tc .vmem S1024x64 .f32) (harg2 : arg2.IsWhole) (arg3 : Memref sig .tc .vmem S2000x64 .f32)
    (harg3 : arg3.IsWhole) (hc0 : ¬cond4_0 i) (x0 : Vec Ideal S1024 .i32) (x1 : Vec Ideal S1024x64 .f32)
    (xo2 : Vec Ideal S2000x64 .f32) :
    out4_B_2 (F := Ideal) c i arg1 harg1 arg2 harg2 arg3 harg3 hc0 x0 x1 xo2 = fun y => xo2 y + poolBlock x0 x1 y := by
  rw [pieceB (F := Ideal) c i arg1 harg1 arg2 harg2 arg3 harg3 hc0 x0 x1 xo2]
  funext y
  obtain ⟨s, q, rfl⟩ : ∃ (s : Fin 2000) (q : Fin 64), y = ix2 s q := ⟨y 0, y 1, eq_ix2 y⟩
  rw [pay2_apply]
  rfl

end Cert.KernelIdeal.Hand

end
-- ==== Proof.Reg4.lean ====
/-
  The pooling kernel over its 98 grid points: point `t` reads ids and rows `1024·t … 1024·t + 1023` of the padded
  arrays, every point works on the one result block, and the block is written back after the last point. By induction
  on the point the block holds the sum of the contributions so far; after the last one that is the sum over all 100352
  padded rows, split into 98 stretches of 1024.
-/
import proofs.«423676_j55946243998145_1_alg».proof.Proof.Gen.KernelIdeal.Frame
import proofs.«423676_j55946243998145_1_alg».proof.Proof.PayPool
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

example : Pipeline.arrRef spec4 0 = main_v73 := rfl
example : Pipeline.arrRef spec4 1 = main_v72 := rfl
example : Pipeline.arrRef spec4 2 = main_v74 := rfl

/-! ## The points' blocks, entry by entry -/

private theorem r4_N : cfg4.N = 98 := N_4

/-- Point `t`'s 1024 segment ids, -/
private abbrev r4_ids (c : Dev nD) (t : Fin cfg4.N) : Vec Ideal S1024 .i32 := iblk4 V c 0 t
/-- and its 1024 feature rows. -/
private abbrev r4_rows (c : Dev nD) (t : Fin cfg4.N) : Vec Ideal S1024x64 .f32 := iblk4 V c 1 t

/-- The id window at point `t` sits on block `t`; -/
private theorem r4_idx0 : ∀ t : Fin cfg4.N, win4_0.index t 0 = t.val :=
  (by decide +kernel : ∀ t : Fin grid4.N, win4_0.index t 0 = t.val)
/-- the row window on block `(t, 0)`. -/
private theorem r4_idx1 : ∀ t : Fin cfg4.N, win4_1.index t 0 = t.val ∧ win4_1.index t 1 = 0 :=
  (by decide +kernel : ∀ t : Fin grid4.N, win4_1.index t 0 = t.val ∧ win4_1.index t 1 = 0)

/-- Entry `k` of point `t`'s ids is entry `1024·t + k` of the id array. -/
private theorem r4_ids_apply (c : Dev nD) (t : Fin cfg4.N) (k : Fin 1024) (h : 1024 * t.val + k.val < 100352) :
    r4_ids V c t (ix1 k) = (V c main_v73 : S100352.Idx → BitVec 32) (ix1 ⟨1024 * t.val + k.val, h⟩) := by
  unfold r4_ids iblk4
  rw [View.read_apply]
  show V c main_v73 _ = V c main_v73 _
  congr 1
  funext a
  apply Fin.ext
  match a with
  | ⟨0, _⟩ => show win4_0.index t 0 * 1024 + 1 * k.val = 1024 * t.val + k.val; rw [r4_idx0 t]; omega

/-- Entry `(k, q)` of point `t`'s rows is entry `(1024·t + k, q)` of the row array. -/
private theorem r4_rows_apply (c : Dev nD) (t : Fin cfg4.N) (k : Fin 1024) (q : Fin 64) (h : 1024 * t.val + k.val < 100352) :
    r4_rows V c t (ix2 k q) = (V c main_v72 : S100352x64.Idx → EReal) (ix2 ⟨1024 * t.val + k.val, h⟩ q) := by
  unfold r4_rows iblk4
  rw [View.read_apply]
  show V c main_v72 _ = V c main_v72 _
  congr 1
  funext a
  apply Fin.ext
  match a with
  | ⟨0, _⟩ => show win4_1.index t 0 * 1024 + 1 * k.val = 1024 * t.val + k.val; rw [(r4_idx1 t).1]; omega
  | ⟨1, _⟩ => show win4_1.index t 1 * 64 + 1 * q.val = q.val; rw [(r4_idx1 t).2]; omega

/-! ## The running result -/

/-- After point `n` the result block holds the contributions of the points `0 … n`: the first point leaves its own,
    every later one adds its own onto what the point before left. -/
private theorem r4_outsAt_eq (c : Dev nD) : ∀ (n : ℕ) (hn : n < cfg4.N),
    (outsAt4 V c n hn : S2000x64.Idx → EReal)
      = fun y => ∑ t' : Fin (n + 1), poolBlock (r4_ids V c ⟨t'.val, by omega⟩) (r4_rows V c ⟨t'.val, by omega⟩) y
  | 0, hn => by
    rw [outsAt4_A V c ⟨0, hn⟩ (Nat.zero_mod 98)]
    rw [out4_A_eq c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩)
      ((hcond4_0 ⟨0, hn⟩).mpr (Nat.zero_mod 98)) (iblk4 V c 0 ⟨0, hn⟩) (iblk4 V c 1 ⟨0, hn⟩)]
    funext y
    rw [Fin.sum_univ_one]
    rfl
  | n + 1, hn => by
    have hN : cfg4.N = 98 := N_4
    have hB : ¬(⟨n + 1, hn⟩ : Fin cfg4.N).val % 98 = 0 := by dsimp only; omega
    rw [outsAt4_B V c ⟨n + 1, hn⟩ hB]
    dsimp only
    rw [out4_B_eq c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (fun h => hB ((hcond4_0 ⟨n + 1, hn⟩).mp h)) (iblk4 V c 0 ⟨n + 1, hn⟩) (iblk4 V c 1 ⟨n + 1, hn⟩)
      (outsAt4 V c (n + 1 - 1) (Nat.lt_of_le_of_lt (Nat.sub_le _ _) hn))]
    funext y
    show outsAt4 V c n (Nat.lt_of_succ_lt hn) y + poolBlock (iblk4 V c 0 ⟨n + 1, hn⟩) (iblk4 V c 1 ⟨n + 1, hn⟩) y = _
    rw [r4_outsAt_eq c n (Nat.lt_of_succ_lt hn), Fin.sum_univ_castSucc]
    rfl

/-! ## The result array after the region -/

/-- The last grid point. -/
private abbrev r4_last : Fin cfg4.N := ⟨97, lt_of_lt_of_eq (by decide : 97 < 98) N_4.symm⟩

/-- The result window never moves: at every point it sits on block (0, 0). -/
private theorem r4_idx2 : ∀ (t : Fin cfg4.N) (a : Fin 2), win4_2.index t a = 0 :=
  (by decide +kernel : ∀ (t : Fin grid4.N) (a : Fin 2), win4_2.index t a = 0)

/-- So its offsets into the result array are zero at every point. -/
private theorem r4_off2 (t : Fin cfg4.N) : (fun a => win4_2.index t a * main_v74.ty.shape.size a) = fun _ => 0 :=
  funext fun a => by rw [r4_idx2 t a, Nat.zero_mul]

/-- The block has the array's own sizes, so at zero offsets it is the whole array: reading it gives the array back, -/
private theorem r4_read_blk2 (c : Dev nD) (t : Fin cfg4.N) (G : Buf (Elt Ideal) ((c : Thread nD τ).loc main_v74)) :
    ((cfg4.win 2).blk t).view.read (Elt Ideal) G = G :=
  Memref.read_access_unit_zero (Elt Ideal) main_v74 (r4_off2 t) (fun a => by rw [congrFun (r4_off2 t) a, Nat.zero_add]) G

/-- and every entry of the array lies in it. -/
private theorem r4_mem_blk2 (t : Fin cfg4.N) (i : S2000x64.Idx) : i ∈ ((cfg4.win 2).blk t).view.set := by
  show i ∈ ((View.whole main_v74).slice (win4_2.rect t)).set
  rw [View.set_slice_whole]
  exact View.mem_set_unit_zero (r4_off2 t) _ i

/-- What the result block holds after the last point, as contents of the result array. -/
private abbrev r4_result (c : Dev nD) : Buf (Elt Ideal) ((c : Thread nD τ).loc main_v74) := outsAt4 V c 97 r4_last.isLt

/-- The block is written back at the last point only, and what is written is what the block then holds. -/
private theorem r4_flushed_eq (c : Dev nD) (t : Fin cfg4.N) (hf : (cfg4.win 2).flush t = true) :
    (dat4 V c).flushed 2 t = ((cfg4.win 2).blk t).view.read (Elt Ideal) (r4_result V c) := by
  rw [r4_read_blk2]
  obtain rfl : t = r4_last := Fin.ext (by show t.val = 97; have := (flush4_2 t).mp hf; have := t.isLt; have := r4_N; omega)
  exact after4_2 V c r4_last

/-- So the result array ends holding what the block held after the last point. -/
private theorem r4_final (c : Dev nD) : (dat4 V c).arrAt 2 cfg4.N = r4_result V c :=
  (dat4 V c).arrAt_eq_of_cover 2 (r4_result V c) (r4_flushed_eq V c) fun i =>
    ⟨r4_last, (flush4_2 r4_last).mpr rfl, r4_mem_blk2 r4_last i⟩

/-! ## 98 stretches of 1024 make the 100352 padded rows -/

/-- A sum over the 100352 = 98·1024 padded rows, cut into 98 stretches of 1024: row `n = 1024·t + k` is row `k` of stretch `t`. -/
private theorem r4_sum_stretch {M : Type} [AddCommMonoid M] (f : Fin 100352 → M) :
    ∑ n : Fin 100352, f n = ∑ t : Fin 98, ∑ k : Fin 1024, f ⟨1024 * t.val + k.val, by omega⟩ := by
  rw [← Fintype.sum_prod_type']
  exact (Fintype.sum_equiv (finProdFinEquiv (m := 98) (n := 1024)) (fun p => f ⟨1024 * p.1.val + p.2.val, by omega⟩) f
    (fun p => congrArg f (Fin.ext (by show 1024 * p.1.val + p.2.val = _; rw [finProdFinEquiv_apply_val]; omega)))).symm

/-- After the pooling region its result array is the segment sum of the (padded) arrays it was entered with. -/
theorem region4_out (c : Dev nD) :
    ((dat4 (F := Ideal) V c).arrAt 2 cfg4.N : S2000x64.Idx → EReal)
      = Cert.Gin.segSum 2000 (V c main_v73 : S100352.Idx → BitVec 32) (V c main_v72 : S100352x64.Idx → EReal) := by
  have hN : cfg4.N = 98 := N_4
  rw [r4_final V c]
  show (outsAt4 V c 97 r4_last.isLt : S2000x64.Idx → EReal) = _
  rw [r4_outsAt_eq V c 97 r4_last.isLt]
  funext i
  unfold Cert.Gin.segSum
  rw [r4_sum_stretch]
  -- stretch by stretch, row by row: the same summand on both sides
  refine Finset.sum_congr rfl fun t _ => ?_
  unfold poolBlock
  refine Finset.sum_congr rfl fun k _ => ?_
  rw [r4_ids_apply V c ⟨t.val, by omega⟩ k (by have := t.isLt; have := k.isLt; dsimp only; omega),
    r4_rows_apply V c ⟨t.val, by omega⟩ k (i 1) (by have := t.isLt; have := k.isLt; dsimp only; omega)]

end Cert.KernelIdeal.Hand

end
-- ==== Proof.Reg5.lean ====
/-
  The final kernel, one grid point on whole arrays: a 0/1 matrix of the subgraphs' graph ids against an iota over the 64
  graphs pools the 2000 subgraph rows into 64 graph rows (a product with 0 is 0 and with 1 the entry), the two-layer
  classifier gives eight logits a row, and the row's log-softmax is taken with the row maximum subtracted first.
-/
import proofs.«423676_j55946243998145_1_alg».proof.Proof.Gen.KernelIdeal.Frame
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

/-! ## Layout operations on a column, read at an index -/

/-- An `[a, 1]` column broadcast to `[a, b]` reads, at `(p, c)`, the column's entry at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The words of the 0/1 matrix -/

/-- For a graph number below 64, a 32-bit id equals the number's word exactly when it reads, signed, as the number. -/
private theorem word_eq_iff (w : BitVec 32) (g : Fin 64) : BitVec.ofNat 32 g.val = w ↔ w.toInt = (g.val : ℤ) := by
  have hg := g.isLt
  have hb : ((g.val : ℕ) : ℤ).bmod (2 ^ 32) = (g.val : ℤ) := Int.bmod_eq_of_le_mul_two (by omega) (by omega)
  constructor
  · rintro rfl
    rw [BitVec.toInt_ofNat', hb]
  · intro h
    apply BitVec.eq_of_toInt_eq
    rw [h, BitVec.toInt_ofNat', hb]

/-- The comparison bit widened and converted: `1` where the id is the graph's, else `0`. -/
private theorem onehot_word (w : BitVec 32) (g : Fin 64) :
    (FloatOps.sitofp (F := Ideal) .f32 ((IntOp.cmpi .eq (BitVec.ofNat 32 g.val) w).setWidth 32) : EReal)
      = if w.toInt = (g.val : ℤ) then 1 else 0 := by
  by_cases h : BitVec.ofNat 32 g.val = w
  · rw [if_pos ((word_eq_iff w g).mp h), IntOp.cmpi_eq.mpr h]
    show (((BitVec.setWidth 32 1#1).toInt : ℝ) : EReal) = 1
    rw [show (BitVec.setWidth 32 1#1).toInt = 1 by decide]
    simp
  · rw [if_neg (fun h' => h ((word_eq_iff w g).mpr h')), eq_zero_of_ne_one (fun h' => h (IntOp.cmpi_eq.mp h'))]
    show (((BitVec.setWidth 32 0#1).toInt : ℝ) : EReal) = 0
    rw [show (BitVec.setWidth 32 0#1).toInt = 0 by decide]
    simp
/-! ## The three products read at an index -/

private theorem lhsP_0 (i : S64x64.Idx) (q : dot_S64x2000_S2000x64_S64x64_1_0_0_1_n_n.contr.Idx) :
    (dot_S64x2000_S2000x64_S64x64_1_0_0_1_n_n.lhsIdx i q 0).val = (i 0).val := by
  unfold DotDims.lhsIdx
  rw [dif_neg (show ¬(0 : Fin S64x2000.rank) ∈ dot_S64x2000_S2000x64_S64x64_1_0_0_1_n_n.lhsBatch by decide), dif_pos (show (0 : Fin S64x2000.rank) ∈ dot_S64x2000_S2000x64_S64x64_1_0_0_1_n_n.lhsNonContracting by decide)]
  rfl
private theorem lhsP_1 (i : S64x64.Idx) (q : dot_S64x2000_S2000x64_S64x64_1_0_0_1_n_n.contr.Idx) :
    (dot_S64x2000_S2000x64_S64x64_1_0_0_1_n_n.lhsIdx i q 1).val = (q ⟨0, by decide⟩).val :=
  dot_S64x2000_S2000x64_S64x64_1_0_0_1_n_n.lhsIdx_val_of_single rfl i q
private theorem rhsP_0 (i : S64x64.Idx) (q : dot_S64x2000_S2000x64_S64x64_1_0_0_1_n_n.contr.Idx) :
    (dot_S64x2000_S2000x64_S64x64_1_0_0_1_n_n.rhsIdx i q 0).val = (q ⟨0, by decide⟩).val :=
  dot_S64x2000_S2000x64_S64x64_1_0_0_1_n_n.rhsIdx_val_of_single rfl i q
private theorem rhsP_1 (i : S64x64.Idx) (q : dot_S64x2000_S2000x64_S64x64_1_0_0_1_n_n.contr.Idx) :
    (dot_S64x2000_S2000x64_S64x64_1_0_0_1_n_n.rhsIdx i q 1).val = (i 1).val := by
  unfold DotDims.rhsIdx
  rw [dif_neg (show ¬(1 : Fin S2000x64.rank) ∈ dot_S64x2000_S2000x64_S64x64_1_0_0_1_n_n.rhsBatch by decide), dif_pos (show (1 : Fin S2000x64.rank) ∈ dot_S64x2000_S2000x64_S64x64_1_0_0_1_n_n.rhsNonContracting by decide)]
  rfl
/-- The product into a zero accumulator at `(p, c)`: the sum over the one contracted coordinate. -/
private theorem mmP_apply {φ₁ φ₂ : FTy} (L : FVec Ideal S64x2000 φ₁) (R : FVec Ideal S2000x64 φ₂) (p : Fin 64) (c : Fin 64) :
    matmul dot_S64x2000_S2000x64_S64x64_1_0_0_1_n_n none L R (constant (F := Ideal) S64x64 .f32 0x00000000#32) (ix2 p c)
      = ∑ k : Fin 2000, L (ix2 p k) * R (ix2 k c) := by
  simp only [matmul]
  rw [Ideal.matmul_constant_zero_apply, ← Equiv.sum_comp (contrEquiv1 dot_S64x2000_S2000x64_S64x64_1_0_0_1_n_n 2000 rfl rfl).symm]
  refine Finset.sum_congr rfl fun k _ => ?_
  have hk := contrEquiv1_symm_val dot_S64x2000_S2000x64_S64x64_1_0_0_1_n_n 2000 rfl rfl k
  have el : dot_S64x2000_S2000x64_S64x64_1_0_0_1_n_n.lhsIdx (ix2 p c) ((contrEquiv1 dot_S64x2000_S2000x64_S64x64_1_0_0_1_n_n 2000 rfl rfl).symm k) = ix2 p k := funext fun a => Fin.ext (by
    match a with
    | ⟨0, _⟩ => exact lhsP_0 _ _
    | ⟨1, _⟩ => exact (lhsP_1 _ _).trans hk)
  have er : dot_S64x2000_S2000x64_S64x64_1_0_0_1_n_n.rhsIdx (ix2 p c) ((contrEquiv1 dot_S64x2000_S2000x64_S64x64_1_0_0_1_n_n 2000 rfl rfl).symm k) = ix2 k c := funext fun a => Fin.ext (by
    match a with
    | ⟨0, _⟩ => exact (rhsP_0 _ _).trans hk
    | ⟨1, _⟩ => exact rhsP_1 _ _)
  rw [el, er]

private theorem lhsH_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
private theorem lhsH_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
private theorem rhsH_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
private theorem rhsH_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl
/-- The product into a zero accumulator at `(p, c)`: the sum over the one contracted coordinate. -/
private theorem mmH_apply {φ₁ φ₂ : FTy} (L : FVec Ideal S64x64 φ₁) (R : FVec Ideal S64x64 φ₂) (p : Fin 64) (c : Fin 64) :
    matmul dot_S64x64_S64x64_S64x64_1_0_0_1_n_n none L R (constant (F := Ideal) S64x64 .f32 0x00000000#32) (ix2 p c)
      = ∑ k : Fin 64, L (ix2 p k) * R (ix2 k c) := by
  simp only [matmul]
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 p c) ((contrEquiv1 dot_S64x64_S64x64_S64x64_1_0_0_1_n_n 64 rfl rfl).symm k) = ix2 p k := funext fun a => Fin.ext (by
    match a with
    | ⟨0, _⟩ => exact lhsH_0 _ _
    | ⟨1, _⟩ => exact (lhsH_1 _ _).trans hk)
  have er : dot_S64x64_S64x64_S64x64_1_0_0_1_n_n.rhsIdx (ix2 p c) ((contrEquiv1 dot_S64x64_S64x64_S64x64_1_0_0_1_n_n 64 rfl rfl).symm k) = ix2 k c := funext fun a => Fin.ext (by
    match a with
    | ⟨0, _⟩ => exact (rhsH_0 _ _).trans hk
    | ⟨1, _⟩ => exact rhsH_1 _ _)
  rw [el, er]

private theorem lhsO_0 (i : S64x8.Idx) (q : dot_S64x64_S64x8_S64x8_1_0_0_1_n_n.contr.Idx) :
    (dot_S64x64_S64x8_S64x8_1_0_0_1_n_n.lhsIdx i q 0).val = (i 0).val := by
  unfold DotDims.lhsIdx
  rw [dif_neg (show ¬(0 : Fin S64x64.rank) ∈ dot_S64x64_S64x8_S64x8_1_0_0_1_n_n.lhsBatch by decide), dif_pos (show (0 : Fin S64x64.rank) ∈ dot_S64x64_S64x8_S64x8_1_0_0_1_n_n.lhsNonContracting by decide)]
  rfl
private theorem lhsO_1 (i : S64x8.Idx) (q : dot_S64x64_S64x8_S64x8_1_0_0_1_n_n.contr.Idx) :
    (dot_S64x64_S64x8_S64x8_1_0_0_1_n_n.lhsIdx i q 1).val = (q ⟨0, by decide⟩).val :=
  dot_S64x64_S64x8_S64x8_1_0_0_1_n_n.lhsIdx_val_of_single rfl i q
private theorem rhsO_0 (i : S64x8.Idx) (q : dot_S64x64_S64x8_S64x8_1_0_0_1_n_n.contr.Idx) :
    (dot_S64x64_S64x8_S64x8_1_0_0_1_n_n.rhsIdx i q 0).val = (q ⟨0, by decide⟩).val :=
  dot_S64x64_S64x8_S64x8_1_0_0_1_n_n.rhsIdx_val_of_single rfl i q
private theorem rhsO_1 (i : S64x8.Idx) (q : dot_S64x64_S64x8_S64x8_1_0_0_1_n_n.contr.Idx) :
    (dot_S64x64_S64x8_S64x8_1_0_0_1_n_n.rhsIdx i q 1).val = (i 1).val := by
  unfold DotDims.rhsIdx
  rw [dif_neg (show ¬(1 : Fin S64x8.rank) ∈ dot_S64x64_S64x8_S64x8_1_0_0_1_n_n.rhsBatch by decide), dif_pos (show (1 : Fin S64x8.rank) ∈ dot_S64x64_S64x8_S64x8_1_0_0_1_n_n.rhsNonContracting by decide)]
  rfl
/-- The product into a zero accumulator at `(p, c)`: the sum over the one contracted coordinate. -/
private theorem mmO_apply {φ₁ φ₂ : FTy} (L : FVec Ideal S64x64 φ₁) (R : FVec Ideal S64x8 φ₂) (p : Fin 64) (c : Fin 8) :
    matmul dot_S64x64_S64x8_S64x8_1_0_0_1_n_n none L R (constant (F := Ideal) S64x8 .f32 0x00000000#32) (ix2 p c)
      = ∑ k : Fin 64, L (ix2 p k) * R (ix2 k c) := by
  simp only [matmul]
  rw [Ideal.matmul_constant_zero_apply, ← Equiv.sum_comp (contrEquiv1 dot_S64x64_S64x8_S64x8_1_0_0_1_n_n 64 rfl rfl).symm]
  refine Finset.sum_congr rfl fun k _ => ?_
  have hk := contrEquiv1_symm_val dot_S64x64_S64x8_S64x8_1_0_0_1_n_n 64 rfl rfl k
  have el : dot_S64x64_S64x8_S64x8_1_0_0_1_n_n.lhsIdx (ix2 p c) ((contrEquiv1 dot_S64x64_S64x8_S64x8_1_0_0_1_n_n 64 rfl rfl).symm k) = ix2 p k := funext fun a => Fin.ext (by
    match a with
    | ⟨0, _⟩ => exact lhsO_0 _ _
    | ⟨1, _⟩ => exact (lhsO_1 _ _).trans hk)
  have er : dot_S64x64_S64x8_S64x8_1_0_0_1_n_n.rhsIdx (ix2 p c) ((contrEquiv1 dot_S64x64_S64x8_S64x8_1_0_0_1_n_n 64 rfl rfl).symm k) = ix2 k c := funext fun a => Fin.ext (by
    match a with
    | ⟨0, _⟩ => exact (rhsO_0 _ _).trans hk
    | ⟨1, _⟩ => exact rhsO_1 _ _)
  rw [el, er]
/-! ## Pointwise operations the library leaves to their definitions -/

private theorem cmpi_apply {s : Shape} {w : ℕ} (p : CmpIPredicate) (a b : IVec s w) (i : s.Idx) :
    cmpi p a b i = IntOp.cmpi p (a i) (b i) := rfl
private theorem exp_apply {s : Shape} {φ : FTy} (v : FVec Ideal s φ) (i : s.Idx) : exp v i = Ideal.exp (v i) := rfl
private theorem log_apply {s : Shape} {φ : FTy} (v : FVec Ideal s φ) (i : s.Idx) : log v i = Ideal.log (v i) := rfl

/-! ## The stages of the payload -/

/-- The 0/1 matrix of graph numbers against the subgraphs' ids. -/
private def onehot (x0 : Vec Ideal S2000 .i32) : FVec Ideal S64x2000 .bf16 :=
  truncf .bf16 (sitofp (F := Ideal) .f32 (extui 32 (cmpi .eq
    (broadcastTo S64x2000 (iota .tc S64x1 32 [0] iota_S64x1_d0_w32) broadcasts_S64x1_S64x2000)
    (broadcastTo S64x2000 (shapeCast S1x2000 x0 shapeCasts_S2000_S1x2000) broadcasts_S1x2000_S64x2000)) natLt_1_32)) bitsLt_bf16_f32

/-- The subgraph rows pooled into graph rows: the 0/1 matrix times the rows. -/
private def pooled (x0 : Vec Ideal S2000 .i32) (x1 : Vec Ideal S2000x64 .f32) : FVec Ideal S64x64 .f32 :=
  matmul dot_S64x2000_S2000x64_S64x64_1_0_0_1_n_n none (onehot x0)
    (truncf .bf16 (shapeCast S2000x64 x1 shapeCasts_S2000x64_S2000x64) bitsLt_bf16_f32) (constant (F := Ideal) S64x64 .f32 0x00000000#32)

/-- The classifier's hidden layer of pooled rows `P`. -/
private def hidden (P : FVec Ideal S64x64 .f32) (x2 : Vec Ideal S64x64 .f32) (x3 : Vec Ideal S64 .f32) : FVec Ideal S64x64 .f32 :=
  maximumf (addf (matmul dot_S64x64_S64x64_S64x64_1_0_0_1_n_n none (truncf .bf16 P bitsLt_bf16_f32) (truncf .bf16 x2 bitsLt_bf16_f32)
      (constant (F := Ideal) S64x64 .f32 0x00000000#32))
    (broadcastTo S64x64 (shapeCast S1x64 x3 shapeCasts_S64_S1x64) broadcasts_S1x64_S64x64))
    (broadcast S64x64 (Scalar.ofBits (F := Ideal) .f32 0x00000000#32))

/-- The eight logits of each row of a hidden layer `H`. -/
private def logits (H : FVec Ideal S64x64 .f32) (x4 : Vec Ideal S64x8 .f32) (x5 : Vec Ideal S8 .f32) : FVec Ideal S64x8 .f32 :=
  addf (matmul dot_S64x64_S64x8_S64x8_1_0_0_1_n_n none (truncf .bf16 H bitsLt_bf16_f32) (truncf .bf16 x4 bitsLt_bf16_f32)
      (constant (F := Ideal) S64x8 .f32 0x00000000#32))
    (broadcastTo S64x8 (shapeCast S1x8 x5 shapeCasts_S8_S1x8) broadcasts_S1x8_S64x8)

/-- The row maxima of `L`, as a column broadcast back over the rows. -/
private def rowMaxB (L : FVec Ideal S64x8 .f32) : FVec Ideal S64x8 .f32 :=
  broadcastTo S64x8 (shapeCast S64x1 (multiReduction (F := Ideal) .maximumf [1] S64 L 0xFF800000#32 reduces_S64x8_S64 (.inl rfl) rfl)
    shapeCasts_S64_S64x1) broadcasts_S64x1_S64x8

/-- The log-softmax of each row of `L`, the row maximum subtracted first. -/
private def lsm (L : FVec Ideal S64x8 .f32) : FVec Ideal S64x8 .f32 :=
  subf (subf L (rowMaxB L))
    (broadcastTo S64x8 (log (shapeCast S64x1
      (multiReduction (F := Ideal) .add [1] S64 (exp (subf L (rowMaxB L))) 0x00000000#32 reduces_S64x8_S64 (.inl rfl) rfl)
      shapeCasts_S64_S64x1)) broadcasts_S64x1_S64x8)

/-- The payload is its stages composed. -/
private theorem pay5_stages (x0 : Vec Ideal S2000 .i32) (x1 : Vec Ideal S2000x64 .f32) (x2 : Vec Ideal S64x64 .f32)
    (x3 : Vec Ideal S64 .f32) (x4 : Vec Ideal S64x8 .f32) (x5 : Vec Ideal S8 .f32) :
    k5_pay1 (F := Ideal) x0 x1 x2 x3 x4 x5 = lsm (logits (hidden (pooled x0 x1) x2 x3) x4 x5) := rfl
/-! ## Each stage read at an index -/

private theorem onehot_apply (x0 : Vec Ideal S2000 .i32) (g : Fin 64) (k : Fin 2000) :
    onehot x0 (ix2 g k) = if (x0 (ix1 k) : BitVec 32).toInt = (g.val : ℤ) then 1 else 0 := by
  unfold onehot
  rw [truncf_apply, sitofp_apply, extui_apply, cmpi_apply, broadcastTo_a1_ab_apply, broadcastTo_1b_ab_apply,
    shapeCast_a_1a_apply, iota_single_apply]
  exact onehot_word _ g

/-- A pooled entry is the sum of the subgraph rows whose id is the graph's. -/
private theorem pooled_apply (x0 : Vec Ideal S2000 .i32) (x1 : Vec Ideal S2000x64 .f32) (g j : Fin 64) :
    pooled x0 x1 (ix2 g j) = Cert.Gin.segSum 64 x0 x1 (ix2 g j) := by
  unfold pooled
  rw [mmP_apply]
  unfold Cert.Gin.segSum
  refine Finset.sum_congr rfl fun k _ => ?_
  rw [onehot_apply, truncf_apply, shapeCast_self, ite_mul, one_mul, zero_mul]

private theorem hidden_apply (P : FVec Ideal S64x64 .f32) (x2 : Vec Ideal S64x64 .f32) (x3 : Vec Ideal S64 .f32) (g k : Fin 64) :
    hidden P x2 x3 (ix2 g k) = max ((∑ j : Fin 64, P (ix2 g j) * x2 (ix2 j k)) + x3 (ix1 k)) 0 := by
  unfold hidden
  rw [maximumf_apply, addf_apply, mmH_apply, broadcastTo_1b_ab_apply, shapeCast_a_1a_apply, broadcast_apply]
  show max _ (Ideal.ofBits .f32 0x00000000#32) = _
  rw [Ideal.ofBits_zero_f32]
  rfl

private theorem logits_apply (H : FVec Ideal S64x64 .f32) (x4 : Vec Ideal S64x8 .f32) (x5 : Vec Ideal S8 .f32) (g : Fin 64) (o : Fin 8) :
    logits H x4 x5 (ix2 g o) = (∑ k : Fin 64, H (ix2 g k) * x4 (ix2 k o)) + x5 (ix1 o) := by
  unfold logits
  rw [addf_apply, mmO_apply, broadcastTo_1b_ab_apply, shapeCast_a_1a_apply]
  rfl

/-- Row `g` of the `[64, 8]` array with the column `o` put back is the entry `(g, o)`. -/
private theorem lift_row (g : Fin 64) (o : Fin 8) : reduces_S64x8_S64.lift (ix1 g) o = ix2 g o :=
  funext fun a => Fin.ext (by match a with | ⟨0, _⟩ => rfl | ⟨1, _⟩ => rfl)

private theorem rowMaxB_apply (L : FVec Ideal S64x8 .f32) (g : Fin 64) (o : Fin 8) :
    rowMaxB L (ix2 g o) = Cert.Gin.rowMax (fun o' => L (ix2 g o')) := by
  unfold rowMaxB
  rw [broadcastTo_a1_ab_apply, shapeCast_a_a1_apply]
  refine (Ideal.multiReduction_maximumf_single L 0xFF800000#32 reduces_S64x8_S64 (.inl rfl) rfl (ix1 g)).trans ?_
  unfold Cert.Gin.rowMax
  have e : (L ∘ reduces_S64x8_S64.lift (ix1 g)) = fun o' : Fin 8 => L (ix2 g o') :=
    funext fun o' => congrArg L (lift_row g o')
  rw [e]
  rfl

private theorem lsm_apply (L : FVec Ideal S64x8 .f32) (g : Fin 64) (o : Fin 8) :
    lsm L (ix2 g o) = Cert.Gin.logSoftmax (fun o' => L (ix2 g o')) o := by
  unfold lsm
  rw [subf_apply, subf_apply, broadcastTo_a1_ab_apply, log_apply, shapeCast_a_a1_apply, rowMaxB_apply]
  unfold Cert.Gin.logSoftmax
  refine congrArg (fun z => (L (ix2 g o) - Cert.Gin.rowMax (fun o' => L (ix2 g o'))) - Ideal.log z) ?_
  refine (Ideal.multiReduction_add_single (exp (subf L (rowMaxB L))) 0x00000000#32 reduces_S64x8_S64 (.inl rfl) rfl (ix1 g)).trans ?_
  refine Finset.sum_congr rfl fun (o' : Fin 8) _ => ?_
  rw [lift_row g o', exp_apply, subf_apply, rowMaxB_apply]

/-- What the final kernel stores is the classifier with its log-softmax on the pooled rows. -/
theorem pay5_eq (x0 : Vec Ideal S2000 .i32) (x1 : Vec Ideal S2000x64 .f32) (x2 : Vec Ideal S64x64 .f32)
    (x3 : Vec Ideal S64 .f32) (x4 : Vec Ideal S64x8 .f32) (x5 : Vec Ideal S8 .f32) :
    k5_pay1 (F := Ideal) x0 x1 x2 x3 x4 x5 = Cert.Gin.head (Cert.Gin.segSum 64 x0 x1) x2 x3 x4 x5 := by
  rw [pay5_stages]
  funext i
  obtain ⟨g, o, rfl⟩ : ∃ (g : Fin 64) (o : Fin 8), i = ix2 g o := ⟨i 0, i 1, eq_ix2 i⟩
  rw [lsm_apply]
  unfold Cert.Gin.head
  refine congrArg (fun l => Cert.Gin.logSoftmax l o) (funext fun o' => ?_)
  rw [logits_apply]
  unfold Cert.Gin.logit
  refine congrArg (· + x5 (ix1 o')) (Finset.sum_congr rfl fun k _ => ?_)
  rw [hidden_apply]
  refine congrArg (fun z => max (z + x3 (ix1 k)) 0 * x4 (ix2 k o')) (Finset.sum_congr rfl fun j _ => ?_)
  rw [pooled_apply]

variable (V : (c : Dev nD) → (b : Ref sig .tc) → Buf (Elt Ideal) ((c : Thread nD τ).loc b))

example : Pipeline.arrRef spec5 0 = main_arg3 := rfl
example : Pipeline.arrRef spec5 1 = main_v74 := rfl
example : Pipeline.arrRef spec5 2 = main_arg12 := rfl
example : Pipeline.arrRef spec5 3 = main_arg13 := rfl
example : Pipeline.arrRef spec5 4 = main_arg14 := rfl
example : Pipeline.arrRef spec5 5 = main_arg15 := rfl
example : Pipeline.arrRef spec5 6 = main_v75 := rfl

/-- The zero offsets of a rank-two buffer, as a constant function. -/
private theorem zero2 : (![0, 0] : Fin 2 → Nat) = fun _ => 0 := funext fun a => by fin_cases a <;> rfl
/-- The zero offset of a rank-one buffer, as a constant function. -/
private theorem zero1 : (![0] : Fin 1 → Nat) = fun _ => 0 := funext fun a => by fin_cases a; rfl

/-- What the body leaves in the result's buffer: it loads its six buffers whole and stores once, whole, so the buffer
    holds the payload of the six blocks. -/
private theorem out5_pay (x0 : Vec Ideal S2000 .i32) (x1 : Vec Ideal S2000x64 .f32) (x2 : Vec Ideal S64x64 .f32)
    (x3 : Vec Ideal S64 .f32) (x4 : Vec Ideal S64x8 .f32) (x5 : Vec Ideal S8 .f32) :
    out5_6 (F := Ideal) x0 x1 x2 x3 x4 x5 = k5_pay1 (F := Ideal) x0 x1 x2 x3 x4 x5 := by
  unfold out5_6
  rw [View.canon_unit_zero zero2]
  simp only [View.ld_unit_zero (S := S2000) zero1, View.ld_unit_zero (S := S2000x64) zero2,
    View.ld_unit_zero (S := S64x64) zero2, View.ld_unit_zero (S := S64) zero1,
    View.ld_unit_zero (S := S64x8) zero2, View.ld_unit_zero (S := S8) zero1]

/-- The index maps over the grid: every window is at block 0 on every axis. -/
private theorem idx5 : ∀ t : Fin cfg5.N,
    win5_0.index t (0 : Fin 1) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = 0 ∧ win5_6.index t (1 : Fin 2) = 0 :=
  (by decide +kernel : ∀ t : Fin grid5.N, _)

/-- The classifier on the pooled rows depends on its six arrays and on the index only. -/
private theorem head_segSum_congr (s s' : S2000.Idx → BitVec 32) (h h' : S2000x64.Idx → EReal)
    (w1 w1' : S64x64.Idx → EReal) (b1 b1' : S64.Idx → EReal) (w2 w2' : S64x8.Idx → EReal) (b2 b2' : S8.Idx → EReal)
    (y i : S64x8.Idx) (hs : s = s') (hh : h = h') (hw1 : w1 = w1') (hb1 : b1 = b1') (hw2 : w2 = w2') (hb2 : b2 = b2')
    (hy : y = i) :
    Cert.Gin.head (Cert.Gin.segSum 64 s h) w1 b1 w2 b2 y = Cert.Gin.head (Cert.Gin.segSum 64 s' h') w1' b1' w2' b2' i := by
  subst hs hh hw1 hb1 hw2 hb2 hy
  rfl

/-- What the one point writes back is the block of the classifier of the whole arrays: every input block is its whole
    array (a block's coordinate is its index, zero, times its size plus the coordinate inside it), and so is the
    result's. -/
private theorem flushed5_head
    (hpay : ∀ (x0 : Vec Ideal S2000 .i32) (x1 : Vec Ideal S2000x64 .f32) (x2 : Vec Ideal S64x64 .f32)
      (x3 : Vec Ideal S64 .f32) (x4 : Vec Ideal S64x8 .f32) (x5 : Vec Ideal S8 .f32),
      k5_pay1 (F := Ideal) x0 x1 x2 x3 x4 x5 = Cert.Gin.head (Cert.Gin.segSum 64 x0 x1) x2 x3 x4 x5)
    (c : Dev nD) (t : Fin cfg5.N) :
    (dat5 (F := Ideal) V c).flushed 6 t = ((cfg5.win 6).blk t).view.read (Elt Ideal)
      (Cert.Gin.head (Cert.Gin.segSum 64 (V c main_arg3 : S2000.Idx → BitVec 32) (V c main_v74 : S2000x64.Idx → EReal))
          (V c main_arg12 : S64x64.Idx → EReal) (V c main_arg13 : S64.Idx → EReal)
          (V c main_arg14 : S64x8.Idx → EReal) (V c main_arg15 : S8.Idx → EReal)) := by
  show (cfg5.win 6).cut (grid5.coords t) ((dat5 V c).after 6 t) = _
  rw [after5_6, out5_pay, hpay]
  funext y
  obtain ⟨e00, e10, e11, e20, e21, e30, e40, e41, e50, e60, e61⟩ := idx5 t
  refine head_segSum_congr _ _ _ _ _ _ _ _ _ _ _ _ y (((cfg5.win 6).blk t).view.emb y) ?_ ?_ ?_ ?_ ?_ ?_ ?_
  · funext x
    show V c main_arg3 (((cfg5.win 0).blk t).view.emb x) = V c main_arg3 x
    refine congrArg (V c main_arg3) (funext fun a => Fin.ext ?_)
    match a with
    | ⟨0, _⟩ => show win5_0.index t (0 : Fin 1) * 2000 + 1 * (x 0).val = (x 0).val; rw [e00]; omega
  · funext x
    show V c main_v74 (((cfg5.win 1).blk t).view.emb x) = V c main_v74 x
    refine congrArg (V c main_v74) (funext fun a => Fin.ext ?_)
    match a with
    | ⟨0, _⟩ => show win5_1.index t (0 : Fin 2) * 2000 + 1 * (x 0).val = (x 0).val; rw [e10]; omega
    | ⟨1, _⟩ => show win5_1.index t (1 : Fin 2) * 64 + 1 * (x 1).val = (x 1).val; rw [e11]; omega
  · funext x
    show V c main_arg12 (((cfg5.win 2).blk t).view.emb x) = V c main_arg12 x
    refine congrArg (V c main_arg12) (funext fun a => Fin.ext ?_)
    match a with
    | ⟨0, _⟩ => show win5_2.index t (0 : Fin 2) * 64 + 1 * (x 0).val = (x 0).val; rw [e20]; omega
    | ⟨1, _⟩ => show win5_2.index t (1 : Fin 2) * 64 + 1 * (x 1).val = (x 1).val; rw [e21]; omega
  · funext x
    show V c main_arg13 (((cfg5.win 3).blk t).view.emb x) = V c main_arg13 x
    refine congrArg (V c main_arg13) (funext fun a => Fin.ext ?_)
    match a with
    | ⟨0, _⟩ => show win5_3.index t (0 : Fin 1) * 64 + 1 * (x 0).val = (x 0).val; rw [e30]; omega
  · funext x
    show V c main_arg14 (((cfg5.win 4).blk t).view.emb x) = V c main_arg14 x
    refine congrArg (V c main_arg14) (funext fun a => Fin.ext ?_)
    match a with
    | ⟨0, _⟩ => show win5_4.index t (0 : Fin 2) * 64 + 1 * (x 0).val = (x 0).val; rw [e40]; omega
    | ⟨1, _⟩ => show win5_4.index t (1 : Fin 2) * 8 + 1 * (x 1).val = (x 1).val; rw [e41]; omega
  · funext x
    show V c main_arg15 (((cfg5.win 5).blk t).view.emb x) = V c main_arg15 x
    refine congrArg (V c main_arg15) (funext fun a => Fin.ext ?_)
    match a with
    | ⟨0, _⟩ => show win5_5.index t (0 : Fin 1) * 8 + 1 * (x 0).val = (x 0).val; rw [e50]; omega
  · funext a
    apply Fin.ext
    match a with
    | ⟨0, _⟩ => show (y 0).val = win5_6.index t (0 : Fin 2) * 64 + 1 * (y 0).val; rw [e60]; omega
    | ⟨1, _⟩ => show (y 1).val = win5_6.index t (1 : Fin 2) * 8 + 1 * (y 1).val; rw [e61]; omega

/-- An index of the result is in point `t`'s block iff each coordinate is in the block's range on its axis. -/
private theorem mem_blk5 (t : Fin cfg5.N) (i : S64x8.Idx) :
    i ∈ ((cfg5.win 6).blk t).view.set ↔ ∀ a : Fin 2, win5_6.index t a * S64x8.size a ≤ (i a).val
      ∧ (i a).val < win5_6.index t a * S64x8.size a + S64x8.size a := by
  show i ∈ ((View.whole main_v75).slice (win5_6.rect t)).set ↔ _
  rw [View.set_slice_whole, Rect.mem_set_unit]
  exact Iff.rfl

/-- The one point's block covers the result. -/
private theorem cover5 (i : S64x8.Idx) :
    ∃ t : Fin cfg5.N, (cfg5.win 6).flush t = true ∧ i ∈ ((cfg5.win 6).blk t).view.set := by
  have hi0 : (i 0).val < 64 := (i 0).isLt
  have hi1 : (i 1).val < 8 := (i 1).isLt
  obtain ⟨-, -, -, -, -, -, -, -, -, e60, e61⟩ := idx5 t5_0
  refine ⟨t5_0, flush5_6 _, ?_⟩
  rw [mem_blk5]
  intro a
  match a with
  | ⟨0, _⟩ =>
    show win5_6.index t5_0 (0 : Fin 2) * 64 ≤ (i 0).val ∧ (i 0).val < win5_6.index t5_0 (0 : Fin 2) * 64 + 64
    rw [e60]; omega
  | ⟨1, _⟩ =>
    show win5_6.index t5_0 (1 : Fin 2) * 8 ≤ (i 1).val ∧ (i 1).val < win5_6.index t5_0 (1 : Fin 2) * 8 + 8
    rw [e61]; omega

/-- After the final region the result array is the classifier's log-softmax of the pooled subgraph rows, given that
    the kernel's payload is that function of its blocks. -/
theorem region5_out_of
    (hpay : ∀ (x0 : Vec Ideal S2000 .i32) (x1 : Vec Ideal S2000x64 .f32) (x2 : Vec Ideal S64x64 .f32)
      (x3 : Vec Ideal S64 .f32) (x4 : Vec Ideal S64x8 .f32) (x5 : Vec Ideal S8 .f32),
      k5_pay1 (F := Ideal) x0 x1 x2 x3 x4 x5 = Cert.Gin.head (Cert.Gin.segSum 64 x0 x1) x2 x3 x4 x5)
    (c : Dev nD) :
    ((dat5 (F := Ideal) V c).arrAt 6 cfg5.N : S64x8.Idx → EReal)
      = Cert.Gin.head (Cert.Gin.segSum 64 (V c main_arg3 : S2000.Idx → BitVec 32) (V c main_v74 : S2000x64.Idx → EReal))
          (V c main_arg12 : S64x64.Idx → EReal) (V c main_arg13 : S64.Idx → EReal)
          (V c main_arg14 : S64x8.Idx → EReal) (V c main_arg15 : S8.Idx → EReal) := by
  exact (dat5 (F := Ideal) V c).arrAt_eq_of_cover 6 _ (fun t _ => flushed5_head V hpay c t) cover5

/-- After the final region the result array is the classifier's log-softmax of the pooled subgraph rows. -/
theorem region5_out (c : Dev nD) :
    ((dat5 (F := Ideal) V c).arrAt 6 cfg5.N : S64x8.Idx → EReal)
      = Cert.Gin.head (Cert.Gin.segSum 64 (V c main_arg3 : S2000.Idx → BitVec 32) (V c main_v74 : S2000x64.Idx → EReal))
          (V c main_arg12 : S64x64.Idx → EReal) (V c main_arg13 : S64.Idx → EReal)
          (V c main_arg14 : S64x8.Idx → EReal) (V c main_arg15 : S8.Idx → EReal) :=
  region5_out_of V pay5_eq c

end Cert.KernelIdeal.Hand

end
-- ==== Proof.KHost.lean ====
/-
  The host operations the kernel's program runs between its pallas_calls, as functions: the neighbourhood sum of a
  feature array (sources with a negative index wrapped once, rows gathered by source, added up at their targets by the
  host's accumulating scatter) at one and at 64 features, and the two paddings in front of the pooling kernel (352
  zero rows under the features, 352 ids of −1 under the segment ids).
-/
import proofs.«423676_j55946243998145_1_alg».proof.KernelIdeal
import proofs.«423676_j55946243998145_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

/-- The gather's index column: each source, wrapped by the node count when negative. -/
def srcIdx (src : IVec S1600000 32) : IVec S1600000x1 32 :=
  broadcastInDim S1600000x1 ![0] bcast_S1600000_S1600000x1_0
    (select (cmpi CmpIPredicate.slt src (broadcastInDim S1600000 ![] bcast_S_S1600000 (constantI S_ 32 0#32)))
      (addi src (broadcastInDim S1600000 ![] bcast_S_S1600000 (constantI S_ 32 100000#32))) src)

/-- Neighbourhood sums of a one-feature array. -/
def agg1 (src dst : IVec S1600000 32) (x : FVec Ideal S100000x1 .f32) : FVec Ideal S100000x1 .f32 :=
  Host.scatterAdd scatter_S100000x1_S1600000x1_S1600000x1_1_0_0_1
    (broadcastInDim S100000x1 ![] bcast_S_S100000x1 (constant (F := Ideal) S_ .f32 0#32))
    (broadcastInDim S1600000x1 ![0] bcast_S1600000_S1600000x1_0 dst)
    (Host.gather gather_S100000x1_S1600000x1_S1600000x1_1_0_n_n_0_1_11 x (srcIdx src))

/-- Neighbourhood sums of a 64-feature array. -/
def agg64 (src dst : IVec S1600000 32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0#32))
    (broadcastInDim S1600000x1 ![0] bcast_S1600000_S1600000x1_0 dst)
    (Host.gather gather_S100000x64_S1600000x1_S1600000x64_1_0_n_n_0_1_164 h (srcIdx src))

/-- The features under 352 further rows of zero. -/
def padRows (h : FVec Ideal S100000x64 .f32) : FVec Ideal S100352x64 .f32 :=
  pad S100352x64 ![0, 0] ![352, 0] ![0, 0] h (sitofp (F := Ideal) .f32 (constantI S_ 32 0#32)) pads_S100000x64_S100352x64_03520_000 h_S_

/-- The segment ids under 352 further ids of −1. -/
def padIds (i : IVec S100000 32) : IVec S100352 32 :=
  pad S100352 ![0] ![352] ![0] i (constantI S_ 32 4294967295#32) pads_S100000_S100352_03520 h_S_

end Cert.KernelIdeal.Hand

end
-- ==== Proof.Net.lean ====
/-
  The whole network as one function of its sixteen arguments, over the layer, pooling and classifier functions.
  The neighbourhood sums (a gather of rows by the edges' sources followed by a scatter-add at their targets) enter as
  two given functions `A1` (one feature) and `A64` (64 features): both programs compute them by the same host
  operations, so nothing here opens them. `row`, `mat` and `vec` are the slices both programs take of the edge list
  and of the stacked weights.
-/
import proofs.«423676_j55946243998145_1_alg».proof.Proof.Spec

noncomputable section

namespace Cert.Gin

open Idealize.ShloMosaic Idealize.ShloMosaic.ValueIdx

/-- Row `k` of the edge list: the sources (`k = 0`) or the targets (`k = 1`). -/
def row {α : Type} (k : Fin 2) (e : (⟨2, ![2, 1600000]⟩ : Shape).Idx → α) : (⟨1, ![1600000]⟩ : Shape).Idx → α :=
  fun i => e (ix2 k (i 0))

/-- Matrix `k` of a stack of three weight matrices. -/
def mat {α : Type} (k : Fin 3) (w : (⟨3, ![3, 64, 64]⟩ : Shape).Idx → α) : (⟨2, ![64, 64]⟩ : Shape).Idx → α :=
  fun i => w (ix3 k (i 0) (i 1))

/-- Vector `k` of a stack of three bias vectors. -/
def vec {α : Type} (k : Fin 3) (b : (⟨2, ![3, 64]⟩ : Shape).Idx → α) : (⟨1, ![64]⟩ : Shape).Idx → α :=
  fun i => b (ix2 k (i 0))

/-- The network: four layers, each on the features and their neighbourhood sums, the two poolings, the classifier. -/
def net (A1 : ((⟨2, ![100000, 1]⟩ : Shape).Idx → EReal) → ((⟨2, ![100000, 1]⟩ : Shape).Idx → EReal))
    (A64 : ((⟨2, ![100000, 64]⟩ : Shape).Idx → EReal) → ((⟨2, ![100000, 64]⟩ : Shape).Idx → EReal))
    (x : (⟨2, ![100000, 1]⟩ : Shape).Idx → EReal)
    (n2s : (⟨1, ![100000]⟩ : Shape).Idx → BitVec 32) (s2g : (⟨1, ![2000]⟩ : Shape).Idx → BitVec 32)
    (w4 : (⟨2, ![1, 64]⟩ : Shape).Idx → EReal) (b5 : (⟨1, ![64]⟩ : Shape).Idx → EReal)
    (w6 : (⟨2, ![64, 64]⟩ : Shape).Idx → EReal) (b7 : (⟨1, ![64]⟩ : Shape).Idx → EReal)
    (w8 : (⟨3, ![3, 64, 64]⟩ : Shape).Idx → EReal) (b9 : (⟨2, ![3, 64]⟩ : Shape).Idx → EReal)
    (w10 : (⟨3, ![3, 64, 64]⟩ : Shape).Idx → EReal) (b11 : (⟨2, ![3, 64]⟩ : Shape).Idx → EReal)
    (w12 : (⟨2, ![64, 64]⟩ : Shape).Idx → EReal) (b13 : (⟨1, ![64]⟩ : Shape).Idx → EReal)
    (w14 : (⟨2, ![64, 8]⟩ : Shape).Idx → EReal) (b15 : (⟨1, ![8]⟩ : Shape).Idx → EReal) :
    (⟨2, ![64, 8]⟩ : Shape).Idx → EReal :=
  let h1 := layer x (A1 x) w4 b5 w6 b7
  let h2 := layer h1 (A64 h1) (mat 0 w8) (vec 0 b9) (mat 0 w10) (vec 0 b11)
  let h3 := layer h2 (A64 h2) (mat 1 w8) (vec 1 b9) (mat 1 w10) (vec 1 b11)
  let h4 := layer h3 (A64 h3) (mat 2 w8) (vec 2 b9) (mat 2 w10) (vec 2 b11)
  head (segSum 64 s2g (segSum 2000 n2s h4)) w12 b13 w14 b15

end Cert.Gin

end
-- ==== Proof.KThread1.lean ====
/-
  What the first two pallas_calls find in their operand arrays. A host stretch's results are its operations' composed
  terms of what the stretch was entered with; a buffer no operation of a stretch writes, and no region's output, keeps
  its contents, so an argument of @main is read back to the launch memory. Region 0 is entered with the node features,
  their neighbourhood sums and the first layer's weights; region 1 with region 0's result, its neighbourhood sums and
  slice 0 of the stacked weights.
-/
import proofs.«423676_j55946243998145_1_alg».proof.Proof.Gen.KernelIdeal.Frame
import proofs.«423676_j55946243998145_1_alg».proof.Proof.KHost
import proofs.«423676_j55946243998145_1_alg».proof.Proof.Net
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

/-- No operation of a host stretch writes a given buffer: the stretch is a literal list, each operation writes the
    singleton of its result, and the result references are told apart from the buffer's by deciding equality. -/
local macro "not_written" "[" l:ident "]" : tactic =>
  `(tactic| (
      simp only [$l:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton];
      (repeat' apply And.intro);
      all_goals exact StableHlo.devRef_ne_of_ne (by decide)))

/-- A buffer the first host stretch does not write is read back to the launch memory. -/
local macro "passes0" "[" b:ident "]" : tactic =>
  `(tactic| exact StableHlo.after_of_forall_not_mem (b := Proc.devRef .tc $b) _ _
      (List.forall_iff_forall_mem.mp (by not_written [hostOps0])))

/-- Row `k` of the edge list: the one-row slice of the two-row array from row `o = k`, flattened, reads at `p` the
    array at `(k, p)`. -/
private theorem row_eq {α : Type} (o : Nat) (k : Fin 2) (hk : k.val = o) (E : S2x1600000.Idx → α)
    (hs : S2x1600000.Slices ![o, 0] S1x1600000) (hc : S1x1600000.ShapeCasts S1600000) :
    shapeCast S1600000 (extractStridedSlice S1x1600000 ![o, 0] E hs) hc = Cert.Gin.row k E := by
  funext i
  obtain ⟨p, rfl⟩ : ∃ p : Fin 1600000, i = ix1 p := ⟨i 0, eq_ix1 i⟩
  rw [shapeCast_1a_a_apply, slice2_axis0_apply o E hs 0 p k (by rw [hk]; rfl)]
  rfl

/-- Matrix `k` of a stack of three: the one-matrix slice from `o = k` with its unit axis dropped reads at `(p, q)` the
    stack at `(k, p, q)`. -/
private theorem mat_eq {α : Type} (o : Nat) (k : Fin 3) (hk : k.val = o) (W : S3x64x64.Idx → α)
    (hs : S3x64x64.Slices ![o, 0, 0] S1x64x64) (hc : S1x64x64.ShapeCasts S64x64) :
    shapeCast S64x64 (extractStridedSlice S1x64x64 ![o, 0, 0] W hs) hc = Cert.Gin.mat k W := by
  funext i
  obtain ⟨p, q, rfl⟩ : ∃ (p : Fin 64) (q : Fin 64), i = ix2 p q := ⟨i 0, i 1, eq_ix2 i⟩
  rw [shapeCast_1ab_ab_apply]
  exact extractStridedSlice_apply _ W hs _ (ix3 k p q) (fun a => by
    match a with
    | ⟨0, _⟩ => exact hk.trans (Nat.add_zero o).symm
    | ⟨1, _⟩ => exact (Nat.zero_add _).symm
    | ⟨2, _⟩ => exact (Nat.zero_add _).symm)

/-- Vector `k` of a stack of three: the one-row slice from `o = k`, flattened, reads at `p` the stack at `(k, p)`. -/
private theorem vec_eq {α : Type} (o : Nat) (k : Fin 3) (hk : k.val = o) (B : S3x64.Idx → α)
    (hs : S3x64.Slices ![o, 0] S1x64) (hc : S1x64.ShapeCasts S64) :
    shapeCast S64 (extractStridedSlice S1x64 ![o, 0] B hs) hc = Cert.Gin.vec k B := by
  funext i
  obtain ⟨p, rfl⟩ : ∃ p : Fin 64, i = ix1 p := ⟨i 0, eq_ix1 i⟩
  rw [shapeCast_1a_a_apply, slice2_axis0_apply o B hs 0 p k (by rw [hk]; rfl)]
  rfl

variable (m : (ℓ : Loc nD τ sig) → Buf (Elt Ideal) ℓ) (ρ : Dev nD → PrngReg)

theorem V1_arg0 (c : Dev nD) : (V1 (F := Ideal) m ρ c main_arg0 : S100000x1.Idx → EReal) = (m ((c.tc : Thread nD τ).loc main_arg0)) := by
  passes0 [main_arg0]
set_option maxHeartbeats 8000000 in
theorem V1_v13 (c : Dev nD) : (V1 (F := Ideal) m ρ c main_v13 : S100000x1.Idx → EReal)
    = agg1 (Cert.Gin.row 0 (m ((c.tc : Thread nD τ).loc main_arg1))) (Cert.Gin.row 1 (m ((c.tc : Thread nD τ).loc main_arg1))) (m ((c.tc : Thread nD τ).loc main_arg0)) := by
  show StableHlo.after hostOps0 (W0 m ρ c) (Proc.devRef .tc main_v13) = _
  after_results
  unfold agg1 srcIdx
  rw [← row_eq 0 0 rfl (m ((c.tc : Thread nD τ).loc main_arg1)) slices_S2x1600000_S1x1600000_0_0 shapeCasts_S1x1600000_S1600000,
    ← row_eq 1 1 rfl (m ((c.tc : Thread nD τ).loc main_arg1)) slices_S2x1600000_S1x1600000_1_0 shapeCasts_S1x1600000_S1600000]
  rfl
theorem V1_arg4 (c : Dev nD) : (V1 (F := Ideal) m ρ c main_arg4 : S1x64.Idx → EReal) = (m ((c.tc : Thread nD τ).loc main_arg4)) := by
  passes0 [main_arg4]
theorem V1_arg5 (c : Dev nD) : (V1 (F := Ideal) m ρ c main_arg5 : S64.Idx → EReal) = (m ((c.tc : Thread nD τ).loc main_arg5)) := by
  passes0 [main_arg5]
theorem V1_arg6 (c : Dev nD) : (V1 (F := Ideal) m ρ c main_arg6 : S64x64.Idx → EReal) = (m ((c.tc : Thread nD τ).loc main_arg6)) := by
  passes0 [main_arg6]
theorem V1_arg7 (c : Dev nD) : (V1 (F := Ideal) m ρ c main_arg7 : S64.Idx → EReal) = (m ((c.tc : Thread nD τ).loc main_arg7)) := by
  passes0 [main_arg7]

/-- The sources, as region 0 is entered: row 0 of the edge list. -/
private theorem W1_v1 (c : Dev nD) : (W1 (F := Ideal) m ρ c (Proc.devRef .tc main_v1) : S1600000.Idx → BitVec 32)
    = Cert.Gin.row 0 (m ((c.tc : Thread nD τ).loc main_arg1)) := by
  show StableHlo.after hostOps0 (W0 m ρ c) (Proc.devRef .tc main_v1) = _
  after_results
  exact row_eq 0 0 rfl (m ((c.tc : Thread nD τ).loc main_arg1)) slices_S2x1600000_S1x1600000_0_0 shapeCasts_S1x1600000_S1600000

/-- The targets, as region 0 is entered: row 1 of the edge list. -/
private theorem W1_v3 (c : Dev nD) : (W1 (F := Ideal) m ρ c (Proc.devRef .tc main_v3) : S1600000.Idx → BitVec 32)
    = Cert.Gin.row 1 (m ((c.tc : Thread nD τ).loc main_arg1)) := by
  show StableHlo.after hostOps0 (W0 m ρ c) (Proc.devRef .tc main_v3) = _
  after_results
  exact row_eq 1 1 rfl (m ((c.tc : Thread nD τ).loc main_arg1)) slices_S2x1600000_S1x1600000_1_0 shapeCasts_S1x1600000_S1600000

/-- The stacked weight arguments, as the second host stretch is entered: neither region 0 nor the first stretch writes
    one, so each is read back to the launch memory. -/
private theorem W2_arg8 (c : Dev nD) : W2 (F := Ideal) m ρ c (Proc.devRef .tc main_arg8) = m ((c.tc : Thread nD τ).loc main_arg8) :=
  (W2_of_ne m ρ c main_arg8 (by decide)).trans (by passes0 [main_arg8])
private theorem W2_arg9 (c : Dev nD) : W2 (F := Ideal) m ρ c (Proc.devRef .tc main_arg9) = m ((c.tc : Thread nD τ).loc main_arg9) :=
  (W2_of_ne m ρ c main_arg9 (by decide)).trans (by passes0 [main_arg9])
private theorem W2_arg10 (c : Dev nD) : W2 (F := Ideal) m ρ c (Proc.devRef .tc main_arg10) = m ((c.tc : Thread nD τ).loc main_arg10) :=
  (W2_of_ne m ρ c main_arg10 (by decide)).trans (by passes0 [main_arg10])
private theorem W2_arg11 (c : Dev nD) : W2 (F := Ideal) m ρ c (Proc.devRef .tc main_arg11) = m ((c.tc : Thread nD τ).loc main_arg11) :=
  (W2_of_ne m ρ c main_arg11 (by decide)).trans (by passes0 [main_arg11])

theorem V3_v14 (c : Dev nD) : (V3 (F := Ideal) m ρ c main_v14 : S100000x64.Idx → EReal) = V2 (F := Ideal) m ρ c main_v14 := by
  exact StableHlo.after_of_forall_not_mem (b := Proc.devRef .tc main_v14) _ _
    (List.forall_iff_forall_mem.mp (by not_written [hostOps1]))
set_option maxHeartbeats 8000000 in
theorem V3_v32 (c : Dev nD) : (V3 (F := Ideal) m ρ c main_v32 : S100000x64.Idx → EReal)
    = agg64 (Cert.Gin.row 0 (m ((c.tc : Thread nD τ).loc main_arg1))) (Cert.Gin.row 1 (m ((c.tc : Thread nD τ).loc main_arg1))) (V2 (F := Ideal) m ρ c main_v14) := by
  show StableHlo.after hostOps1 (W2 m ρ c) (Proc.devRef .tc main_v32) = _
  after_results
  rw [W2_of_ne m ρ c main_v1 (by decide), W2_of_ne m ρ c main_v3 (by decide)]
  unfold agg64 srcIdx
  rw [← W1_v1 m ρ c, ← W1_v3 m ρ c]
set_option maxHeartbeats 8000000 in
theorem V3_v16 (c : Dev nD) : (V3 (F := Ideal) m ρ c main_v16 : S64x64.Idx → EReal) = Cert.Gin.mat 0 (m ((c.tc : Thread nD τ).loc main_arg8)) := by
  show StableHlo.after hostOps1 (W2 m ρ c) (Proc.devRef .tc main_v16) = _
  after_results
  rw [W2_arg8]
  exact mat_eq 0 0 rfl _ slices_S3x64x64_S1x64x64_0_0_0 shapeCasts_S1x64x64_S64x64
set_option maxHeartbeats 8000000 in
theorem V3_v18 (c : Dev nD) : (V3 (F := Ideal) m ρ c main_v18 : S64.Idx → EReal) = Cert.Gin.vec 0 (m ((c.tc : Thread nD τ).loc main_arg9)) := by
  show StableHlo.after hostOps1 (W2 m ρ c) (Proc.devRef .tc main_v18) = _
  after_results
  rw [W2_arg9]
  exact vec_eq 0 0 rfl _ slices_S3x64_S1x64_0_0 shapeCasts_S1x64_S64
set_option maxHeartbeats 8000000 in
theorem V3_v20 (c : Dev nD) : (V3 (F := Ideal) m ρ c main_v20 : S64x64.Idx → EReal) = Cert.Gin.mat 0 (m ((c.tc : Thread nD τ).loc main_arg10)) := by
  show StableHlo.after hostOps1 (W2 m ρ c) (Proc.devRef .tc main_v20) = _
  after_results
  rw [W2_arg10]
  exact mat_eq 0 0 rfl _ slices_S3x64x64_S1x64x64_0_0_0 shapeCasts_S1x64x64_S64x64
set_option maxHeartbeats 8000000 in
theorem V3_v22 (c : Dev nD) : (V3 (F := Ideal) m ρ c main_v22 : S64.Idx → EReal) = Cert.Gin.vec 0 (m ((c.tc : Thread nD τ).loc main_arg11)) := by
  show StableHlo.after hostOps1 (W2 m ρ c) (Proc.devRef .tc main_v22) = _
  after_results
  rw [W2_arg11]
  exact vec_eq 0 0 rfl _ slices_S3x64_S1x64_0_0 shapeCasts_S1x64_S64

end Cert.KernelIdeal.Hand

end
-- ==== Proof.KThread2.lean ====
/-
  What the third and fourth pallas_calls find in their operand arrays: the layer before's result, its neighbourhood
  sums (over the edge rows computed before region 0, which nothing has written since) and slices 1 and 2 of the stacked
  weights (arguments of @main, read back to the launch memory).
-/
import proofs.«423676_j55946243998145_1_alg».proof.Proof.Gen.KernelIdeal.Frame
import proofs.«423676_j55946243998145_1_alg».proof.Proof.KHost
import proofs.«423676_j55946243998145_1_alg».proof.Proof.Net
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- A buffer that no operation of a host stretch writes holds after the stretch what it held before it. -/
local macro "not_written " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Generic pieces: a stack's member read through the host's slice and reshape -/

/-- Row `k` of a two-row integer array, cut out as a one-row slice and flattened. -/
private theorem row_of_slice {α : Type} (k : Fin 2) (o : Nat) (ho : o = k.val)
    (X : (⟨2, ![2, 1600000]⟩ : Shape).Idx → α)
    (hs : (⟨2, ![2, 1600000]⟩ : Shape).Slices ![o, 0] ⟨2, ![1, 1600000]⟩)
    (hc : (⟨2, ![1, 1600000]⟩ : Shape).ShapeCasts ⟨1, ![1600000]⟩) :
    shapeCast ⟨1, ![1600000]⟩ (extractStridedSlice ⟨2, ![1, 1600000]⟩ ![o, 0] X hs) hc = Cert.Gin.row k X := by
  funext i
  obtain ⟨p, rfl⟩ : ∃ p : Fin 1600000, i = ix1 p := ⟨i 0, eq_ix1 i⟩
  rw [shapeCast_1a_a_apply]
  exact slice2_axis0_apply o X hs (0 : Fin 1) p k (by subst ho; exact (Nat.add_zero _).symm)

/-- Vector `k` of a stack of three, cut out as a one-row slice and flattened. -/
private theorem vec_of_slice {α : Type} (k : Fin 3) (o : Nat) (ho : o = k.val)
    (X : (⟨2, ![3, 64]⟩ : Shape).Idx → α)
    (hs : (⟨2, ![3, 64]⟩ : Shape).Slices ![o, 0] ⟨2, ![1, 64]⟩)
    (hc : (⟨2, ![1, 64]⟩ : Shape).ShapeCasts ⟨1, ![64]⟩) :
    shapeCast ⟨1, ![64]⟩ (extractStridedSlice ⟨2, ![1, 64]⟩ ![o, 0] X hs) hc = Cert.Gin.vec k X := by
  funext i
  obtain ⟨p, rfl⟩ : ∃ p : Fin 64, i = ix1 p := ⟨i 0, eq_ix1 i⟩
  rw [shapeCast_1a_a_apply]
  exact slice2_axis0_apply o X hs (0 : Fin 1) p k (by subst ho; exact (Nat.add_zero _).symm)

/-- Matrix `k` of a stack of three, cut out as a one-member slice with its unit axis dropped. -/
private theorem mat_of_slice {α : Type} (k : Fin 3) (o : Nat) (ho : o = k.val)
    (X : (⟨3, ![3, 64, 64]⟩ : Shape).Idx → α)
    (hs : (⟨3, ![3, 64, 64]⟩ : Shape).Slices ![o, 0, 0] ⟨3, ![1, 64, 64]⟩)
    (hc : (⟨3, ![1, 64, 64]⟩ : Shape).ShapeCasts ⟨2, ![64, 64]⟩) :
    shapeCast ⟨2, ![64, 64]⟩ (extractStridedSlice ⟨3, ![1, 64, 64]⟩ ![o, 0, 0] X hs) hc = Cert.Gin.mat k X := by
  funext i
  obtain ⟨p, q, rfl⟩ : ∃ (p : Fin 64) (q : Fin 64), i = ix2 p q := ⟨i 0, i 1, eq_ix2 i⟩
  rw [shapeCast_1ab_ab_apply]
  exact extractStridedSlice_apply _ X hs (ix3 (0 : Fin 1) p q) (ix3 k p q) (fun ax => by
    match ax with
    | ⟨0, _⟩ => subst ho; exact (Nat.add_zero _).symm
    | ⟨1, _⟩ => exact (Nat.zero_add _).symm
    | ⟨2, _⟩ => exact (Nat.zero_add _).symm)

/-! ## The stacked weights are arguments: nothing writes them, so every boundary of the fold holds the launch memory -/

private theorem W4_arg8 (c : Dev nD) : W4 (F := Ideal) m ρ c (Proc.devRef .tc main_arg8) = m ((c.tc : Thread nD τ).loc main_arg8) :=
  calc W4 (F := Ideal) m ρ c (Proc.devRef .tc main_arg8)
    _ = W3 m ρ c (Proc.devRef .tc main_arg8) := W4_of_ne m ρ c main_arg8 (by decide)
    _ = W2 m ρ c (Proc.devRef .tc main_arg8) := by not_written hostOps1
    _ = W1 m ρ c (Proc.devRef .tc main_arg8) := W2_of_ne m ρ c main_arg8 (by decide)
    _ = W0 m ρ c (Proc.devRef .tc main_arg8) := by not_written hostOps0
private theorem W4_arg9 (c : Dev nD) : W4 (F := Ideal) m ρ c (Proc.devRef .tc main_arg9) = m ((c.tc : Thread nD τ).loc main_arg9) :=
  calc W4 (F := Ideal) m ρ c (Proc.devRef .tc main_arg9)
    _ = W3 m ρ c (Proc.devRef .tc main_arg9) := W4_of_ne m ρ c main_arg9 (by decide)
    _ = W2 m ρ c (Proc.devRef .tc main_arg9) := by not_written hostOps1
    _ = W1 m ρ c (Proc.devRef .tc main_arg9) := W2_of_ne m ρ c main_arg9 (by decide)
    _ = W0 m ρ c (Proc.devRef .tc main_arg9) := by not_written hostOps0
private theorem W4_arg10 (c : Dev nD) : W4 (F := Ideal) m ρ c (Proc.devRef .tc main_arg10) = m ((c.tc : Thread nD τ).loc main_arg10) :=
  calc W4 (F := Ideal) m ρ c (Proc.devRef .tc main_arg10)
    _ = W3 m ρ c (Proc.devRef .tc main_arg10) := W4_of_ne m ρ c main_arg10 (by decide)
    _ = W2 m ρ c (Proc.devRef .tc main_arg10) := by not_written hostOps1
    _ = W1 m ρ c (Proc.devRef .tc main_arg10) := W2_of_ne m ρ c main_arg10 (by decide)
    _ = W0 m ρ c (Proc.devRef .tc main_arg10) := by not_written hostOps0
private theorem W4_arg11 (c : Dev nD) : W4 (F := Ideal) m ρ c (Proc.devRef .tc main_arg11) = m ((c.tc : Thread nD τ).loc main_arg11) :=
  calc W4 (F := Ideal) m ρ c (Proc.devRef .tc main_arg11)
    _ = W3 m ρ c (Proc.devRef .tc main_arg11) := W4_of_ne m ρ c main_arg11 (by decide)
    _ = W2 m ρ c (Proc.devRef .tc main_arg11) := by not_written hostOps1
    _ = W1 m ρ c (Proc.devRef .tc main_arg11) := W2_of_ne m ρ c main_arg11 (by decide)
    _ = W0 m ρ c (Proc.devRef .tc main_arg11) := by not_written hostOps0

private theorem W6_arg8 (c : Dev nD) : W6 (F := Ideal) m ρ c (Proc.devRef .tc main_arg8) = m ((c.tc : Thread nD τ).loc main_arg8) :=
  calc W6 (F := Ideal) m ρ c (Proc.devRef .tc main_arg8)
    _ = W5 m ρ c (Proc.devRef .tc main_arg8) := W6_of_ne m ρ c main_arg8 (by decide)
    _ = W4 m ρ c (Proc.devRef .tc main_arg8) := by not_written hostOps2
    _ = _ := W4_arg8 m ρ c
private theorem W6_arg9 (c : Dev nD) : W6 (F := Ideal) m ρ c (Proc.devRef .tc main_arg9) = m ((c.tc : Thread nD τ).loc main_arg9) :=
  calc W6 (F := Ideal) m ρ c (Proc.devRef .tc main_arg9)
    _ = W5 m ρ c (Proc.devRef .tc main_arg9) := W6_of_ne m ρ c main_arg9 (by decide)
    _ = W4 m ρ c (Proc.devRef .tc main_arg9) := by not_written hostOps2
    _ = _ := W4_arg9 m ρ c
private theorem W6_arg10 (c : Dev nD) : W6 (F := Ideal) m ρ c (Proc.devRef .tc main_arg10) = m ((c.tc : Thread nD τ).loc main_arg10) :=
  calc W6 (F := Ideal) m ρ c (Proc.devRef .tc main_arg10)
    _ = W5 m ρ c (Proc.devRef .tc main_arg10) := W6_of_ne m ρ c main_arg10 (by decide)
    _ = W4 m ρ c (Proc.devRef .tc main_arg10) := by not_written hostOps2
    _ = _ := W4_arg10 m ρ c
private theorem W6_arg11 (c : Dev nD) : W6 (F := Ideal) m ρ c (Proc.devRef .tc main_arg11) = m ((c.tc : Thread nD τ).loc main_arg11) :=
  calc W6 (F := Ideal) m ρ c (Proc.devRef .tc main_arg11)
    _ = W5 m ρ c (Proc.devRef .tc main_arg11) := W6_of_ne m ρ c main_arg11 (by decide)
    _ = W4 m ρ c (Proc.devRef .tc main_arg11) := by not_written hostOps2
    _ = _ := W4_arg11 m ρ c

/-! ## The edge rows: computed before region 0 from the edge list, written by nothing since -/

set_option maxHeartbeats 8000000 in
private theorem W1_v1 (c : Dev nD) : (W1 (F := Ideal) m ρ c (Proc.devRef .tc main_v1) : S1600000.Idx → BitVec 32)
    = Cert.Gin.row 0 (m ((c.tc : Thread nD τ).loc main_arg1)) := by
  show StableHlo.after hostOps0 (W0 m ρ c) (Proc.devRef .tc main_v1) = _
  after_results
  exact row_of_slice 0 0 rfl (m ((c.tc : Thread nD τ).loc main_arg1)) slices_S2x1600000_S1x1600000_0_0 shapeCasts_S1x1600000_S1600000

set_option maxHeartbeats 8000000 in
private theorem W1_v3 (c : Dev nD) : (W1 (F := Ideal) m ρ c (Proc.devRef .tc main_v3) : S1600000.Idx → BitVec 32)
    = Cert.Gin.row 1 (m ((c.tc : Thread nD τ).loc main_arg1)) := by
  show StableHlo.after hostOps0 (W0 m ρ c) (Proc.devRef .tc main_v3) = _
  after_results
  exact row_of_slice 1 1 rfl (m ((c.tc : Thread nD τ).loc main_arg1)) slices_S2x1600000_S1x1600000_1_0 shapeCasts_S1x1600000_S1600000

private theorem W4_v1 (c : Dev nD) : (W4 (F := Ideal) m ρ c (Proc.devRef .tc main_v1) : S1600000.Idx → BitVec 32)
    = Cert.Gin.row 0 (m ((c.tc : Thread nD τ).loc main_arg1)) :=
  calc W4 (F := Ideal) m ρ c (Proc.devRef .tc main_v1)
    _ = W3 m ρ c (Proc.devRef .tc main_v1) := W4_of_ne m ρ c main_v1 (by decide)
    _ = W2 m ρ c (Proc.devRef .tc main_v1) := by not_written hostOps1
    _ = W1 m ρ c (Proc.devRef .tc main_v1) := W2_of_ne m ρ c main_v1 (by decide)
    _ = _ := W1_v1 m ρ c
private theorem W4_v3 (c : Dev nD) : (W4 (F := Ideal) m ρ c (Proc.devRef .tc main_v3) : S1600000.Idx → BitVec 32)
    = Cert.Gin.row 1 (m ((c.tc : Thread nD τ).loc main_arg1)) :=
  calc W4 (F := Ideal) m ρ c (Proc.devRef .tc main_v3)
    _ = W3 m ρ c (Proc.devRef .tc main_v3) := W4_of_ne m ρ c main_v3 (by decide)
    _ = W2 m ρ c (Proc.devRef .tc main_v3) := by not_written hostOps1
    _ = W1 m ρ c (Proc.devRef .tc main_v3) := W2_of_ne m ρ c main_v3 (by decide)
    _ = _ := W1_v3 m ρ c
private theorem W6_v1 (c : Dev nD) : (W6 (F := Ideal) m ρ c (Proc.devRef .tc main_v1) : S1600000.Idx → BitVec 32)
    = Cert.Gin.row 0 (m ((c.tc : Thread nD τ).loc main_arg1)) :=
  calc W6 (F := Ideal) m ρ c (Proc.devRef .tc main_v1)
    _ = W5 m ρ c (Proc.devRef .tc main_v1) := W6_of_ne m ρ c main_v1 (by decide)
    _ = W4 m ρ c (Proc.devRef .tc main_v1) := by not_written hostOps2
    _ = _ := W4_v1 m ρ c
private theorem W6_v3 (c : Dev nD) : (W6 (F := Ideal) m ρ c (Proc.devRef .tc main_v3) : S1600000.Idx → BitVec 32)
    = Cert.Gin.row 1 (m ((c.tc : Thread nD τ).loc main_arg1)) :=
  calc W6 (F := Ideal) m ρ c (Proc.devRef .tc main_v3)
    _ = W5 m ρ c (Proc.devRef .tc main_v3) := W6_of_ne m ρ c main_v3 (by decide)
    _ = W4 m ρ c (Proc.devRef .tc main_v3) := by not_written hostOps2
    _ = _ := W4_v3 m ρ c

/-! ## Region 2's operands -/

theorem V5_v33 (c : Dev nD) : (V5 (F := Ideal) m ρ c main_v33 : S100000x64.Idx → EReal) = V4 (F := Ideal) m ρ c main_v33 := by
  show StableHlo.after hostOps2 (W4 m ρ c) (Proc.devRef .tc main_v33) = W4 m ρ c (Proc.devRef .tc main_v33)
  not_written hostOps2
set_option maxHeartbeats 8000000 in
theorem V5_v51 (c : Dev nD) : (V5 (F := Ideal) m ρ c main_v51 : S100000x64.Idx → EReal)
    = agg64 (Cert.Gin.row 0 (m ((c.tc : Thread nD τ).loc main_arg1))) (Cert.Gin.row 1 (m ((c.tc : Thread nD τ).loc main_arg1))) (V4 (F := Ideal) m ρ c main_v33) := by
  show StableHlo.after hostOps2 (W4 m ρ c) (Proc.devRef .tc main_v51) = _
  after_results
  rw [W4_v1 m ρ c, W4_v3 m ρ c]
  rfl
set_option maxHeartbeats 8000000 in
theorem V5_v35 (c : Dev nD) : (V5 (F := Ideal) m ρ c main_v35 : S64x64.Idx → EReal) = Cert.Gin.mat 1 (m ((c.tc : Thread nD τ).loc main_arg8)) := by
  show StableHlo.after hostOps2 (W4 m ρ c) (Proc.devRef .tc main_v35) = _
  after_results
  rw [W4_arg8 m ρ c]
  exact mat_of_slice 1 1 rfl (m ((c.tc : Thread nD τ).loc main_arg8)) slices_S3x64x64_S1x64x64_1_0_0 shapeCasts_S1x64x64_S64x64
set_option maxHeartbeats 8000000 in
theorem V5_v37 (c : Dev nD) : (V5 (F := Ideal) m ρ c main_v37 : S64.Idx → EReal) = Cert.Gin.vec 1 (m ((c.tc : Thread nD τ).loc main_arg9)) := by
  show StableHlo.after hostOps2 (W4 m ρ c) (Proc.devRef .tc main_v37) = _
  after_results
  rw [W4_arg9 m ρ c]
  exact vec_of_slice 1 1 rfl (m ((c.tc : Thread nD τ).loc main_arg9)) slices_S3x64_S1x64_1_0 shapeCasts_S1x64_S64
set_option maxHeartbeats 8000000 in
theorem V5_v39 (c : Dev nD) : (V5 (F := Ideal) m ρ c main_v39 : S64x64.Idx → EReal) = Cert.Gin.mat 1 (m ((c.tc : Thread nD τ).loc main_arg10)) := by
  show StableHlo.after hostOps2 (W4 m ρ c) (Proc.devRef .tc main_v39) = _
  after_results
  rw [W4_arg10 m ρ c]
  exact mat_of_slice 1 1 rfl (m ((c.tc : Thread nD τ).loc main_arg10)) slices_S3x64x64_S1x64x64_1_0_0 shapeCasts_S1x64x64_S64x64
set_option maxHeartbeats 8000000 in
theorem V5_v41 (c : Dev nD) : (V5 (F := Ideal) m ρ c main_v41 : S64.Idx → EReal) = Cert.Gin.vec 1 (m ((c.tc : Thread nD τ).loc main_arg11)) := by
  show StableHlo.after hostOps2 (W4 m ρ c) (Proc.devRef .tc main_v41) = _
  after_results
  rw [W4_arg11 m ρ c]
  exact vec_of_slice 1 1 rfl (m ((c.tc : Thread nD τ).loc main_arg11)) slices_S3x64_S1x64_1_0 shapeCasts_S1x64_S64

/-! ## Region 3's operands -/

theorem V7_v52 (c : Dev nD) : (V7 (F := Ideal) m ρ c main_v52 : S100000x64.Idx → EReal) = V6 (F := Ideal) m ρ c main_v52 := by
  show StableHlo.after hostOps3 (W6 m ρ c) (Proc.devRef .tc main_v52) = W6 m ρ c (Proc.devRef .tc main_v52)
  not_written hostOps3
set_option maxHeartbeats 8000000 in
theorem V7_v70 (c : Dev nD) : (V7 (F := Ideal) m ρ c main_v70 : S100000x64.Idx → EReal)
    = agg64 (Cert.Gin.row 0 (m ((c.tc : Thread nD τ).loc main_arg1))) (Cert.Gin.row 1 (m ((c.tc : Thread nD τ).loc main_arg1))) (V6 (F := Ideal) m ρ c main_v52) := by
  show StableHlo.after hostOps3 (W6 m ρ c) (Proc.devRef .tc main_v70) = _
  after_results
  rw [W6_v1 m ρ c, W6_v3 m ρ c]
  rfl
set_option maxHeartbeats 8000000 in
theorem V7_v54 (c : Dev nD) : (V7 (F := Ideal) m ρ c main_v54 : S64x64.Idx → EReal) = Cert.Gin.mat 2 (m ((c.tc : Thread nD τ).loc main_arg8)) := by
  show StableHlo.after hostOps3 (W6 m ρ c) (Proc.devRef .tc main_v54) = _
  after_results
  rw [W6_arg8 m ρ c]
  exact mat_of_slice 2 2 rfl (m ((c.tc : Thread nD τ).loc main_arg8)) slices_S3x64x64_S1x64x64_2_0_0 shapeCasts_S1x64x64_S64x64
set_option maxHeartbeats 8000000 in
theorem V7_v56 (c : Dev nD) : (V7 (F := Ideal) m ρ c main_v56 : S64.Idx → EReal) = Cert.Gin.vec 2 (m ((c.tc : Thread nD τ).loc main_arg9)) := by
  show StableHlo.after hostOps3 (W6 m ρ c) (Proc.devRef .tc main_v56) = _
  after_results
  rw [W6_arg9 m ρ c]
  exact vec_of_slice 2 2 rfl (m ((c.tc : Thread nD τ).loc main_arg9)) slices_S3x64_S1x64_2_0 shapeCasts_S1x64_S64
set_option maxHeartbeats 8000000 in
theorem V7_v58 (c : Dev nD) : (V7 (F := Ideal) m ρ c main_v58 : S64x64.Idx → EReal) = Cert.Gin.mat 2 (m ((c.tc : Thread nD τ).loc main_arg10)) := by
  show StableHlo.after hostOps3 (W6 m ρ c) (Proc.devRef .tc main_v58) = _
  after_results
  rw [W6_arg10 m ρ c]
  exact mat_of_slice 2 2 rfl (m ((c.tc : Thread nD τ).loc main_arg10)) slices_S3x64x64_S1x64x64_2_0_0 shapeCasts_S1x64x64_S64x64
set_option maxHeartbeats 8000000 in
theorem V7_v60 (c : Dev nD) : (V7 (F := Ideal) m ρ c main_v60 : S64.Idx → EReal) = Cert.Gin.vec 2 (m ((c.tc : Thread nD τ).loc main_arg11)) := by
  show StableHlo.after hostOps3 (W6 m ρ c) (Proc.devRef .tc main_v60) = _
  after_results
  rw [W6_arg11 m ρ c]
  exact vec_of_slice 2 2 rfl (m ((c.tc : Thread nD τ).loc main_arg11)) slices_S3x64_S1x64_2_0 shapeCasts_S1x64_S64

end Cert.KernelIdeal.Hand

end
-- ==== Proof.KThread3.lean ====
/-
  What the pooling and the final pallas_call find in their operand arrays: the fourth layer's result and the node ids,
  each padded by 352 rows, and then the pooled subgraph rows with the graph ids and the classifier's weights (arguments
  of @main, read back to the launch memory through every stretch and region, none of which writes them).
-/
import proofs.«423676_j55946243998145_1_alg».proof.Proof.Gen.KernelIdeal.Frame
import proofs.«423676_j55946243998145_1_alg».proof.Proof.KHost
import proofs.«423676_j55946243998145_1_alg».proof.Proof.Net
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The segment ids' buffer at the entry of the stretch that sets the constant −1 is the launch memory's: the
    generated walk from the final contents down to the launch, with its four topmost steps (the final region's exit,
    the pooling region's exit, the padding stretch and the constant's stretch, none of which writes the buffer) taken
    off. -/
private theorem W10_arg2 (c : Dev nD) :
    W10 (F := Ideal) m ρ c (Proc.devRef .tc main_arg2) = m ((c : Thread nD τ).loc main_arg2) := by
  have e13 : W14 (F := Ideal) m ρ c (Proc.devRef .tc main_arg2) = W13 m ρ c (Proc.devRef .tc main_arg2) :=
    W14_of_ne m ρ c main_arg2 (by decide)
  have e12 : W13 (F := Ideal) m ρ c (Proc.devRef .tc main_arg2) = W12 m ρ c (Proc.devRef .tc main_arg2) :=
    W13_of_ne m ρ c main_arg2 (by decide)
  have e11 : W12 (F := Ideal) m ρ c (Proc.devRef .tc main_arg2) = W11 m ρ c (Proc.devRef .tc main_arg2) :=
    StableHlo.after_of_forall_not_mem (b := Proc.devRef .tc main_arg2) _ _ (List.forall_iff_forall_mem.mp (by
      simp only [hostOps4_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e10 : W11 (F := Ideal) m ρ c (Proc.devRef .tc main_arg2) = W10 m ρ c (Proc.devRef .tc main_arg2) :=
    StableHlo.after_of_forall_not_mem (b := Proc.devRef .tc main_arg2) _ _ (List.forall_iff_forall_mem.mp (by
      simp only [hostOps4_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (e13.trans (e12.trans (e11.trans e10))).symm.trans (W14_main_arg2 m ρ c)

/-- The pooling region's id operand: the last two stretches set the constant −1, copy it and pad the segment ids
    with it; the ids they pad are the launch memory's, whatever else the contents at their entry are. -/
theorem V12_v73 (c : Dev nD) : (V12 (F := Ideal) m ρ c main_v73 : S100352.Idx → BitVec 32) = padIds (m ((c.tc : Thread nD τ).loc main_arg2)) := by
  have h := W10_arg2 m ρ c
  show StableHlo.after hostOps4_3 (StableHlo.after hostOps4_2 (W10 (F := Ideal) m ρ c)) (Proc.devRef .tc main_v73) = _
  generalize W10 (F := Ideal) m ρ c = V at h ⊢
  after_results
  rw [h]
  unfold padIds
  rfl

/-- The pooling region's feature operand: of the four stretches between the fourth layer and the pooling region only
    the second writes it, padding the layer's result with the constant 0 converted to a float; the transports along
    the references' types are identities. -/
theorem V12_v72 (c : Dev nD) : (V12 (F := Ideal) m ρ c main_v72 : S100352x64.Idx → EReal)
    = padRows (V8 (F := Ideal) m ρ c main_v71) := by
  show StableHlo.after hostOps4_3 (StableHlo.after hostOps4_2 (StableHlo.after hostOps4_1 (StableHlo.after hostOps4 (W8 (F := Ideal) m ρ c)))) (Proc.devRef .tc main_v72) = _
  after_results
  unfold padRows
  rfl

/-! The final region's argument operands. Each is an input array of that region, so the region's exit leaves it as
    it entered: read backwards, the entry contents are the exit contents, and these the generated walk takes down to
    the launch memory. -/

theorem V13_arg3 (c : Dev nD) : (V13 (F := Ideal) m ρ c main_arg3 : S2000.Idx → BitVec 32) = (m ((c.tc : Thread nD τ).loc main_arg3)) := by
  show W13 (F := Ideal) m ρ c (Proc.devRef .tc main_arg3) = _
  exact ((W14_arr m ρ c 0).trans (((dat5 (V13 m ρ) c).arrAt_in 0 rfl _).trans (A_eq5 (V13 m ρ) c 0))).symm.trans
    (W14_main_arg3 m ρ c)

theorem V13_arg12 (c : Dev nD) : (V13 (F := Ideal) m ρ c main_arg12 : S64x64.Idx → EReal) = (m ((c.tc : Thread nD τ).loc main_arg12)) := by
  show W13 (F := Ideal) m ρ c (Proc.devRef .tc main_arg12) = _
  exact ((W14_arr m ρ c 2).trans (((dat5 (V13 m ρ) c).arrAt_in 2 rfl _).trans (A_eq5 (V13 m ρ) c 2))).symm.trans
    (W14_main_arg12 m ρ c)

theorem V13_arg13 (c : Dev nD) : (V13 (F := Ideal) m ρ c main_arg13 : S64.Idx → EReal) = (m ((c.tc : Thread nD τ).loc main_arg13)) := by
  show W13 (F := Ideal) m ρ c (Proc.devRef .tc main_arg13) = _
  exact ((W14_arr m ρ c 3).trans (((dat5 (V13 m ρ) c).arrAt_in 3 rfl _).trans (A_eq5 (V13 m ρ) c 3))).symm.trans
    (W14_main_arg13 m ρ c)

theorem V13_arg14 (c : Dev nD) : (V13 (F := Ideal) m ρ c main_arg14 : S64x8.Idx → EReal) = (m ((c.tc : Thread nD τ).loc main_arg14)) := by
  show W13 (F := Ideal) m ρ c (Proc.devRef .tc main_arg14) = _
  exact ((W14_arr m ρ c 4).trans (((dat5 (V13 m ρ) c).arrAt_in 4 rfl _).trans (A_eq5 (V13 m ρ) c 4))).symm.trans
    (W14_main_arg14 m ρ c)

theorem V13_arg15 (c : Dev nD) : (V13 (F := Ideal) m ρ c main_arg15 : S8.Idx → EReal) = (m ((c.tc : Thread nD τ).loc main_arg15)) := by
  show W13 (F := Ideal) m ρ c (Proc.devRef .tc main_arg15) = _
  exact ((W14_arr m ρ c 5).trans (((dat5 (V13 m ρ) c).arrAt_in 5 rfl _).trans (A_eq5 (V13 m ρ) c 5))).symm.trans
    (W14_main_arg15 m ρ c)

end Cert.KernelIdeal.Hand

end
-- ==== Proof.PadSum.lean ====
/-
  Padding does not change the pooled sums: the 352 rows added under the node features carry the id −1, which names no
  segment (a segment's number is not negative), so each contributes zero whatever the row holds, and the first 100000
  rows and ids are the unpadded ones.
-/
import proofs.«423676_j55946243998145_1_alg».proof.Proof.KHost
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

/-- A sum over `a + b` indices whose last `b` terms vanish is the sum of its first `a` terms. -/
private theorem sum_fin_drop_tail {M : Type} [AddCommMonoid M] (a b : Nat) (f : Fin (a + b) → M)
    (hz : ∀ k : Fin b, f (Fin.natAdd a k) = 0) : ∑ n, f n = ∑ n : Fin a, f (Fin.castAdd b n) := by
  rw [Fin.sum_univ_add, Finset.sum_eq_zero (fun k _ => hz k), add_zero]

/-- A padded id in the first 100000 places is the id there. -/
private theorem padIds_low (id : IVec S100000 32) (n : Fin 100000) :
    padIds id (ix1 (Fin.castAdd 352 n : Fin 100352)) = id (ix1 n) := by
  unfold padIds
  refine pad_apply_of_inside _ _ _ _ _ _ _ _ (ix1 n) fun a => ?_
  have ha : a = 0 := Subsingleton.elim _ _
  subst ha
  show n.val = 0 + n.val * (0 + 1)
  omega

/-- A padded id in the last 352 places is the word of −1. -/
private theorem padIds_high (id : IVec S100000 32) (k : Fin 352) :
    padIds id (ix1 (Fin.natAdd 100000 k : Fin 100352)) = 4294967295#32 := by
  unfold padIds
  rw [pad_apply_of_not_inside _ _ _ _ _ _ _ _ (0 : Fin 1)]
  · rfl
  · show ¬(0 ≤ 100000 + k.val ∧ (100000 + k.val - 0) % (0 + 1) = 0 ∧ (100000 + k.val - 0) / (0 + 1) < 100000)
    omega

/-- A padded row in the first 100000 places is the row there. -/
private theorem padRows_low (h : FVec Ideal S100000x64 .f32) (n : Fin 100000) (q : Fin 64) :
    padRows h (ix2 (Fin.castAdd 352 n : Fin 100352) q) = h (ix2 n q) := by
  unfold padRows
  refine pad_apply_of_inside _ _ _ _ _ _ _ _ (ix2 n q) fun a => ?_
  match a with
  | ⟨0, _⟩ => show n.val = 0 + n.val * (0 + 1); omega
  | ⟨1, _⟩ => show q.val = 0 + q.val * (0 + 1); omega

/-- The segment sums of the padded arrays are those of the arrays. -/
theorem segSum_pad (id : IVec S100000 32) (h : FVec Ideal S100000x64 .f32) :
    Cert.Gin.segSum 2000 (padIds id) (padRows h) = Cert.Gin.segSum 2000 id h := by
  funext i
  unfold Cert.Gin.segSum
  show ∑ n : Fin (100000 + 352), _ = _
  rw [sum_fin_drop_tail 100000 352]
  · refine Finset.sum_congr rfl fun n _ => ?_
    rw [padIds_low]
    exact if_congr Iff.rfl (padRows_low h n (i 1)) rfl
  · intro k
    rw [padIds_high]
    have hne : (4294967295#32).toInt ≠ ((i 0).val : Int) := by
      have h1 : (4294967295#32).toInt = -1 := by decide
      rw [h1]; omega
    exact if_neg hne

end Cert.KernelIdeal.Hand

end
-- ==== Proof.KNet.lean ====
/-
  The kernel program's result as the network function of its arguments. Region by region, from the last back to the
  first: a region's result array is its function (layer, segment sum, classifier) of the arrays it was entered with;
  those are the region before's result, its neighbourhood sums, and weights read back to the launch memory. Padding
  drops out of the segment sums. Composed, the result buffer holds `net` of the sixteen arguments.
-/
import proofs.«423676_j55946243998145_1_alg».proof.Proof.Gen.KernelIdeal.Frame
import proofs.«423676_j55946243998145_1_alg».proof.Proof.Reg0
import proofs.«423676_j55946243998145_1_alg».proof.Proof.Reg1
import proofs.«423676_j55946243998145_1_alg».proof.Proof.Reg2
import proofs.«423676_j55946243998145_1_alg».proof.Proof.Reg3
import proofs.«423676_j55946243998145_1_alg».proof.Proof.Reg4
import proofs.«423676_j55946243998145_1_alg».proof.Proof.Reg5
import proofs.«423676_j55946243998145_1_alg».proof.Proof.KThread1
import proofs.«423676_j55946243998145_1_alg».proof.Proof.KThread2
import proofs.«423676_j55946243998145_1_alg».proof.Proof.KThread3
import proofs.«423676_j55946243998145_1_alg».proof.Proof.PadSum
import proofs.«423676_j55946243998145_1_alg».proof.Proof.KHost
import proofs.«423676_j55946243998145_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- After region 0: the first layer of the node features. -/
theorem h1_eq (c : Dev nD) : (V2 (F := Ideal) m ρ c main_v14 : S100000x64.Idx → EReal)
    = Cert.Gin.layer (m ((c.tc : Thread nD τ).loc main_arg0)) (agg1 (Cert.Gin.row 0 (m ((c.tc : Thread nD τ).loc main_arg1))) (Cert.Gin.row 1 (m ((c.tc : Thread nD τ).loc main_arg1))) (m ((c.tc : Thread nD τ).loc main_arg0)))
        (m ((c.tc : Thread nD τ).loc main_arg4)) (m ((c.tc : Thread nD τ).loc main_arg5)) (m ((c.tc : Thread nD τ).loc main_arg6)) (m ((c.tc : Thread nD τ).loc main_arg7)) := by
  refine (W2_arr m ρ c 6).trans ?_
  refine (region0_out (V1 m ρ) c).trans ?_
  rw [V1_arg0 m ρ c, V1_v13 m ρ c, V1_arg4 m ρ c, V1_arg5 m ρ c, V1_arg6 m ρ c, V1_arg7 m ρ c]

/-- After region 1: the second layer of region 0's result. -/
theorem h2_eq (c : Dev nD) : (V4 (F := Ideal) m ρ c main_v33 : S100000x64.Idx → EReal)
    = Cert.Gin.layer (V2 (F := Ideal) m ρ c main_v14 : S100000x64.Idx → EReal) (agg64 (Cert.Gin.row 0 (m ((c.tc : Thread nD τ).loc main_arg1))) (Cert.Gin.row 1 (m ((c.tc : Thread nD τ).loc main_arg1))) (V2 (F := Ideal) m ρ c main_v14))
        (Cert.Gin.mat 0 (m ((c.tc : Thread nD τ).loc main_arg8))) (Cert.Gin.vec 0 (m ((c.tc : Thread nD τ).loc main_arg9))) (Cert.Gin.mat 0 (m ((c.tc : Thread nD τ).loc main_arg10))) (Cert.Gin.vec 0 (m ((c.tc : Thread nD τ).loc main_arg11))) := by
  refine (W4_arr m ρ c 6).trans ?_
  refine (region1_out (V3 m ρ) c).trans ?_
  rw [V3_v14 m ρ c, V3_v32 m ρ c, V3_v16 m ρ c, V3_v18 m ρ c, V3_v20 m ρ c, V3_v22 m ρ c]

/-- After region 2: the third layer. -/
theorem h3_eq (c : Dev nD) : (V6 (F := Ideal) m ρ c main_v52 : S100000x64.Idx → EReal)
    = Cert.Gin.layer (V4 (F := Ideal) m ρ c main_v33 : S100000x64.Idx → EReal) (agg64 (Cert.Gin.row 0 (m ((c.tc : Thread nD τ).loc main_arg1))) (Cert.Gin.row 1 (m ((c.tc : Thread nD τ).loc main_arg1))) (V4 (F := Ideal) m ρ c main_v33))
        (Cert.Gin.mat 1 (m ((c.tc : Thread nD τ).loc main_arg8))) (Cert.Gin.vec 1 (m ((c.tc : Thread nD τ).loc main_arg9))) (Cert.Gin.mat 1 (m ((c.tc : Thread nD τ).loc main_arg10))) (Cert.Gin.vec 1 (m ((c.tc : Thread nD τ).loc main_arg11))) := by
  refine (W6_arr m ρ c 6).trans ?_
  refine (region2_out (V5 m ρ) c).trans ?_
  rw [V5_v33 m ρ c, V5_v51 m ρ c, V5_v35 m ρ c, V5_v37 m ρ c, V5_v39 m ρ c, V5_v41 m ρ c]

/-- After region 3: the fourth layer. -/
theorem h4_eq (c : Dev nD) : (V8 (F := Ideal) m ρ c main_v71 : S100000x64.Idx → EReal)
    = Cert.Gin.layer (V6 (F := Ideal) m ρ c main_v52 : S100000x64.Idx → EReal) (agg64 (Cert.Gin.row 0 (m ((c.tc : Thread nD τ).loc main_arg1))) (Cert.Gin.row 1 (m ((c.tc : Thread nD τ).loc main_arg1))) (V6 (F := Ideal) m ρ c main_v52))
        (Cert.Gin.mat 2 (m ((c.tc : Thread nD τ).loc main_arg8))) (Cert.Gin.vec 2 (m ((c.tc : Thread nD τ).loc main_arg9))) (Cert.Gin.mat 2 (m ((c.tc : Thread nD τ).loc main_arg10))) (Cert.Gin.vec 2 (m ((c.tc : Thread nD τ).loc main_arg11))) := by
  refine (W8_arr m ρ c 6).trans ?_
  refine (region3_out (V7 m ρ) c).trans ?_
  rw [V7_v52 m ρ c, V7_v70 m ρ c, V7_v54 m ρ c, V7_v56 m ρ c, V7_v58 m ρ c, V7_v60 m ρ c]

/-- After the pooling region: the nodes' rows summed into their subgraphs (the padding contributes nothing). -/
theorem pooled_eq (c : Dev nD) : (V13 (F := Ideal) m ρ c main_v74 : S2000x64.Idx → EReal)
    = Cert.Gin.segSum 2000 (m ((c.tc : Thread nD τ).loc main_arg2)) (V8 (F := Ideal) m ρ c main_v71 : S100000x64.Idx → EReal) := by
  refine (W13_arr m ρ c 2).trans ?_
  refine (region4_out (V12 m ρ) c).trans ?_
  rw [V12_v73 m ρ c, V12_v72 m ρ c, segSum_pad]

/-- After the final region: the classifier's log-softmax of the subgraph rows pooled into graphs. -/
theorem out_eq (c : Dev nD) : (W14 (F := Ideal) m ρ c (Proc.devRef .tc main_v75) : S64x8.Idx → EReal)
    = Cert.Gin.head (Cert.Gin.segSum 64 (m ((c.tc : Thread nD τ).loc main_arg3)) (V13 (F := Ideal) m ρ c main_v74 : S2000x64.Idx → EReal))
        (m ((c.tc : Thread nD τ).loc main_arg12)) (m ((c.tc : Thread nD τ).loc main_arg13)) (m ((c.tc : Thread nD τ).loc main_arg14)) (m ((c.tc : Thread nD τ).loc main_arg15)) := by
  refine (W14_arr m ρ c 6).trans ?_
  refine (region5_out (V13 m ρ) c).trans ?_
  rw [V13_arg3 m ρ c, V13_arg12 m ρ c, V13_arg13 m ρ c, V13_arg14 m ρ c, V13_arg15 m ρ c]

/-- The result buffer holds the network function of the sixteen arguments. -/
theorem kernel_value (c : Dev nD) : (W14 (F := Ideal) m ρ c (Proc.devRef .tc main_v75) : S64x8.Idx → EReal)
    = Cert.Gin.net (agg1 (Cert.Gin.row 0 (m ((c.tc : Thread nD τ).loc main_arg1))) (Cert.Gin.row 1 (m ((c.tc : Thread nD τ).loc main_arg1)))) (agg64 (Cert.Gin.row 0 (m ((c.tc : Thread nD τ).loc main_arg1))) (Cert.Gin.row 1 (m ((c.tc : Thread nD τ).loc main_arg1)))) (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [out_eq m ρ c, pooled_eq m ρ c, h4_eq m ρ c, h3_eq m ρ c, h2_eq m ρ c, h1_eq m ρ c]
  rfl

end Cert.KernelIdeal.Hand

end
-- ==== Proof.RHost.lean ====
/-
  The host operations the reference runs around each layer, as functions: the neighbourhood sum of a feature array
  (sources with a negative index wrapped once, rows gathered by source, added up at their targets by the host's
  accumulating scatter) at one and at 64 features: the same operations as the kernel's program runs.
-/
import proofs.«423676_j55946243998145_1_alg».proof.ReferenceIdeal
import proofs.«423676_j55946243998145_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.ReferenceIdeal.Hand

open Cert.ReferenceIdeal Cert.ReferenceIdeal.Gen

/-- The gather's index column: each source, wrapped by the node count when negative. -/
def srcIdx (src : IVec S1600000 32) : IVec S1600000x1 32 :=
  broadcastInDim S1600000x1 ![0] bcast_S1600000_S1600000x1_0
    (select (cmpi CmpIPredicate.slt src (broadcastInDim S1600000 ![] bcast_S_S1600000 (constantI S_ 32 0#32)))
      (addi src (broadcastInDim S1600000 ![] bcast_S_S1600000 (constantI S_ 32 100000#32))) src)

/-- Neighbourhood sums of a one-feature array. -/
def agg1 (src dst : IVec S1600000 32) (x : FVec Ideal S100000x1 .f32) : FVec Ideal S100000x1 .f32 :=
  Host.scatterAdd scatter_S100000x1_S1600000x1_S1600000x1_1_0_0_1
    (broadcastInDim S100000x1 ![] bcast_S_S100000x1 (constant (F := Ideal) S_ .f32 0#32))
    (broadcastInDim S1600000x1 ![0] bcast_S1600000_S1600000x1_0 dst)
    (Host.gather gather_S100000x1_S1600000x1_S1600000x1_1_0_n_n_0_1_11 x (srcIdx src))

/-- Neighbourhood sums of a 64-feature array. -/
def agg64 (src dst : IVec S1600000 32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0#32))
    (broadcastInDim S1600000x1 ![0] bcast_S1600000_S1600000x1_0 dst)
    (Host.gather gather_S100000x64_S1600000x1_S1600000x64_1_0_n_n_0_1_164 h (srcIdx src))

end Cert.ReferenceIdeal.Hand

end
-- ==== Proof.RefLayers.lean ====
/-
  The reference's four layers, stage by stage: each layer's result stage is `layer` of the stage before, of that
  stage's neighbourhood sums and of the layer's weights (the first layer's own arguments, then slices 0, 1, 2 of the
  stacked ones); each neighbourhood-sum stage is the host's gather and accumulating scatter of the stage before over
  the two rows of the edge list. A host dot product is the plain sum of products, a bias is broadcast along rows and a
  relu is the maximum with zero, at the extended reals.
-/
import proofs.«423676_j55946243998145_1_alg».proof.Proof.RefGen
import proofs.«423676_j55946243998145_1_alg».proof.Proof.RHost
import proofs.«423676_j55946243998145_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.ReferenceIdeal.Hand

open Cert.ReferenceIdeal Cert.ReferenceIdeal.Gen Cert.ReferenceIdeal.Read

variable (x0 : FVec Ideal S100000x1 .f32) (x1 : IVec S2x1600000 32) (x2 : IVec S100000 32) (x3 : IVec S2000 32)
  (x4 : FVec Ideal S1x64 .f32) (x5 : FVec Ideal S64 .f32) (x6 : FVec Ideal S64x64 .f32) (x7 : FVec Ideal S64 .f32)
  (x8 : FVec Ideal S3x64x64 .f32) (x9 : FVec Ideal S3x64 .f32) (x10 : FVec Ideal S3x64x64 .f32) (x11 : FVec Ideal S3x64 .f32)
  (x12 : FVec Ideal S64x64 .f32) (x13 : FVec Ideal S64 .f32) (x14 : FVec Ideal S64x8 .f32) (x15 : FVec Ideal S8 .f32)

/-- The reshape of a one-row slice of the edge list is that row: position `i` of the flat array is column `i % 1600000 = i`
    of the slice, which is column `i` of row 0 of the list (of row 1 for the slice that starts there). -/
theorem ref_row0 : val_main_v1 (F := Ideal) x1 = Cert.Gin.row 0 x1 := by
  funext i
  rw [val_main_v1_apply, val_main_v0_apply]
  unfold Cert.Gin.row
  congr 1
  funext a
  apply Fin.ext
  match a with
  | ⟨0, _⟩ => rfl
  | ⟨1, _⟩ => exact Nat.mod_eq_of_lt (i 0).isLt
theorem ref_row1 : val_main_v3 (F := Ideal) x1 = Cert.Gin.row 1 x1 := by
  funext i
  rw [val_main_v3_apply, val_main_v2_apply]
  unfold Cert.Gin.row
  congr 1
  funext a
  apply Fin.ext
  match a with
  | ⟨0, _⟩ => rfl
  | ⟨1, _⟩ => exact Nat.mod_eq_of_lt (i 0).isLt

/-- Each neighbourhood-sum stage is, operation for operation, the host's gather and accumulating scatter over the two rows:
    once the rows are named the same on both sides the two terms coincide. -/
theorem ref_agg1 : val_main_v13 (F := Ideal) x0 x1 = agg1 (Cert.Gin.row 0 x1) (Cert.Gin.row 1 x1) x0 := by
  rw [← ref_row0 x1, ← ref_row1 x1]
  unfold val_main_v13 val_main_v12 val_main_v11 val_main_v10 val_main_v9 val_main_v8 val_main_v7 val_main_v6
    val_main_v5 val_main_v4 val_main_c val_main_c_0 val_main_cst agg1 srcIdx
  rfl
/-- The first layer's index functions, read at coordinates. Read at `(n, q)`, the layer's result stage is then
    `max (Σₖ max (Σⱼ (hₙⱼ + aₙⱼ)·W₁ⱼₖ + b₁ₖ) 0 · W₂ₖq + b₂q) 0`, which is `layer` at `(n, q)` by definition. -/
private theorem l20 (n : Fin 100000) (q k : Fin 64) : lidx_main_v20 (ix2 n q) k = ix2 n k :=
  funext fun a => Fin.ext (by match a with | ⟨0, _⟩ => rfl | ⟨1, _⟩ => rfl)
private theorem r20 (n : Fin 100000) (q k : Fin 64) : ridx_main_v20 (ix2 n q) k = ix2 k q :=
  funext fun a => Fin.ext (by match a with | ⟨0, _⟩ => rfl | ⟨1, _⟩ => rfl)
private theorem l15 (n : Fin 100000) (k : Fin 64) (j : Fin 1) : lidx_main_v15 (ix2 n k) j = ix2 n j :=
  funext fun a => Fin.ext (by match a with | ⟨0, _⟩ => rfl | ⟨1, _⟩ => rfl)
private theorem r15 (n : Fin 100000) (k : Fin 64) (j : Fin 1) : ridx_main_v15 (ix2 n k) j = ix2 j k :=
  funext fun a => Fin.ext (by match a with | ⟨0, _⟩ => rfl | ⟨1, _⟩ => rfl)
private theorem i17 (n : Fin 100000) (k : Fin 64) : idx_main_v16 (idx_main_v17 (ix2 n k)) = ix1 k :=
  funext fun a => Fin.ext (by match a with | ⟨0, _⟩ => rfl)
private theorem i22 (n : Fin 100000) (q : Fin 64) : idx_main_v21 (idx_main_v22 (ix2 n q)) = ix1 q :=
  funext fun a => Fin.ext (by match a with | ⟨0, _⟩ => rfl)

theorem ref_layer1 : val_main_v24 (F := Ideal) x0 x1 x4 x5 x6 x7 = Cert.Gin.layer x0 (val_main_v13 (F := Ideal) x0 x1) x4 x5 x6 x7 := by
  funext i
  obtain ⟨n, q, rfl⟩ : ∃ (n : Fin 100000) (q : Fin 64), i = ix2 n q := ⟨i 0, i 1, eq_ix2 i⟩
  rw [val_main_v24_apply, val_main_v23_apply, val_main_v20_apply, val_main_v22_apply, val_main_v21_apply,
    val_main_call1_v0_apply, val_main_call1_cst_apply]
  simp only [val_main_v19_apply, val_main_v18_apply, val_main_v15_apply, val_main_v14_apply, val_main_v17_apply,
    val_main_v16_apply, val_main_call0_v0_apply, val_main_call0_cst_apply]
  simp only [l20, r20, l15, r15, i17, i22, Ideal.maximumf_def, Ideal.addf_def, Ideal.ofBits_def, Ideal.ofBits_zero_f32]
  unfold Cert.Gin.layer Cert.Gin.mlpRow
  rfl

theorem ref_agg2 : val_main_v42 (F := Ideal) x0 x1 x4 x5 x6 x7 = agg64 (Cert.Gin.row 0 x1) (Cert.Gin.row 1 x1) (val_main_v24 (F := Ideal) x0 x1 x4 x5 x6 x7) := by
  rw [← ref_row0 x1, ← ref_row1 x1]
  unfold val_main_v42 val_main_v41 val_main_v40 val_main_v39 val_main_v38 val_main_v37 val_main_v36 val_main_v35
    val_main_v34 val_main_v33 val_main_c_1 val_main_c_2 val_main_cst_3 agg64 srcIdx
  rfl
/-- The second layer's weights: each is a reshape of slice 0 of a stack, so reading it at `(a, b)` (at `a`) reads the
    stack at `(0, a, b)` (at `(0, a)`): the row-major position `a·64 + b` splits back into `a` and `b`. -/
private theorem w26 : val_main_v26 (F := Ideal) x8 = Cert.Gin.mat 0 x8 := by
  funext i
  obtain ⟨a, b, rfl⟩ : ∃ (a b : Fin 64), i = ix2 a b := ⟨i 0, i 1, eq_ix2 i⟩
  rw [val_main_v26_apply, val_main_v25_apply]
  unfold Cert.Gin.mat
  congr 1
  funext d
  apply Fin.ext
  have ha := a.isLt
  have hb := b.isLt
  match d with
  | ⟨0, _⟩ => rfl
  | ⟨1, _⟩ => show (a.val * 64 + b.val) / 64 % 64 = a.val; omega
  | ⟨2, _⟩ => show (a.val * 64 + b.val) % 64 = b.val; omega
private theorem w28 : val_main_v28 (F := Ideal) x9 = Cert.Gin.vec 0 x9 := by
  funext i
  obtain ⟨a, rfl⟩ : ∃ (a : Fin 64), i = ix1 a := ⟨i 0, eq_ix1 i⟩
  rw [val_main_v28_apply, val_main_v27_apply]
  unfold Cert.Gin.vec
  congr 1
  funext d
  apply Fin.ext
  match d with
  | ⟨0, _⟩ => rfl
  | ⟨1, _⟩ => exact Nat.mod_eq_of_lt a.isLt
private theorem w30 : val_main_v30 (F := Ideal) x10 = Cert.Gin.mat 0 x10 := by
  funext i
  obtain ⟨a, b, rfl⟩ : ∃ (a b : Fin 64), i = ix2 a b := ⟨i 0, i 1, eq_ix2 i⟩
  rw [val_main_v30_apply, val_main_v29_apply]
  unfold Cert.Gin.mat
  congr 1
  funext d
  apply Fin.ext
  have ha := a.isLt
  have hb := b.isLt
  match d with
  | ⟨0, _⟩ => rfl
  | ⟨1, _⟩ => show (a.val * 64 + b.val) / 64 % 64 = a.val; omega
  | ⟨2, _⟩ => show (a.val * 64 + b.val) % 64 = b.val; omega
private theorem w32 : val_main_v32 (F := Ideal) x11 = Cert.Gin.vec 0 x11 := by
  funext i
  obtain ⟨a, rfl⟩ : ∃ (a : Fin 64), i = ix1 a := ⟨i 0, eq_ix1 i⟩
  rw [val_main_v32_apply, val_main_v31_apply]
  unfold Cert.Gin.vec
  congr 1
  funext d
  apply Fin.ext
  match d with
  | ⟨0, _⟩ => rfl
  | ⟨1, _⟩ => exact Nat.mod_eq_of_lt a.isLt

/-- The second layer's index functions, read at coordinates. -/
private theorem l49 (n : Fin 100000) (q k : Fin 64) : lidx_main_v49 (ix2 n q) k = ix2 n k :=
  funext fun a => Fin.ext (by match a with | ⟨0, _⟩ => rfl | ⟨1, _⟩ => rfl)
private theorem r49 (n : Fin 100000) (q k : Fin 64) : ridx_main_v49 (ix2 n q) k = ix2 k q :=
  funext fun a => Fin.ext (by match a with | ⟨0, _⟩ => rfl | ⟨1, _⟩ => rfl)
private theorem l44 (n : Fin 100000) (k j : Fin 64) : lidx_main_v44 (ix2 n k) j = ix2 n j :=
  funext fun a => Fin.ext (by match a with | ⟨0, _⟩ => rfl | ⟨1, _⟩ => rfl)
private theorem r44 (n : Fin 100000) (k j : Fin 64) : ridx_main_v44 (ix2 n k) j = ix2 j k :=
  funext fun a => Fin.ext (by match a with | ⟨0, _⟩ => rfl | ⟨1, _⟩ => rfl)
private theorem i46 (n : Fin 100000) (k : Fin 64) : idx_main_v45 (idx_main_v46 (ix2 n k)) = ix1 k :=
  funext fun a => Fin.ext (by match a with | ⟨0, _⟩ => rfl)
private theorem i51 (n : Fin 100000) (q : Fin 64) : idx_main_v50 (idx_main_v51 (ix2 n q)) = ix1 q :=
  funext fun a => Fin.ext (by match a with | ⟨0, _⟩ => rfl)

theorem ref_layer2 : val_main_v53 (F := Ideal) x0 x1 x4 x5 x6 x7 x8 x9 x10 x11
    = Cert.Gin.layer (val_main_v24 (F := Ideal) x0 x1 x4 x5 x6 x7) (val_main_v42 (F := Ideal) x0 x1 x4 x5 x6 x7)
        (Cert.Gin.mat 0 x8) (Cert.Gin.vec 0 x9) (Cert.Gin.mat 0 x10) (Cert.Gin.vec 0 x11) := by
  rw [← w26 x8, ← w28 x9, ← w30 x10, ← w32 x11]
  funext i
  obtain ⟨n, q, rfl⟩ : ∃ (n : Fin 100000) (q : Fin 64), i = ix2 n q := ⟨i 0, i 1, eq_ix2 i⟩
  rw [val_main_v53_apply, val_main_v52_apply, val_main_v49_apply, val_main_v51_apply, val_main_v50_apply,
    val_main_call3_v0_apply, val_main_call3_cst_apply]
  simp only [val_main_v48_apply, val_main_v47_apply, val_main_v44_apply, val_main_v43_apply, val_main_v46_apply,
    val_main_v45_apply, val_main_call2_v0_apply, val_main_call2_cst_apply]
  simp only [l49, r49, l44, r44, i46, i51, Ideal.maximumf_def, Ideal.addf_def, Ideal.ofBits_def, Ideal.ofBits_zero_f32]
  unfold Cert.Gin.layer Cert.Gin.mlpRow
  rfl

theorem ref_agg3 : val_main_v71 (F := Ideal) x0 x1 x4 x5 x6 x7 x8 x9 x10 x11 = agg64 (Cert.Gin.row 0 x1) (Cert.Gin.row 1 x1) (val_main_v53 (F := Ideal) x0 x1 x4 x5 x6 x7 x8 x9 x10 x11) := by
  rw [← ref_row0 x1, ← ref_row1 x1]
  unfold val_main_v71 val_main_v70 val_main_v69 val_main_v68 val_main_v67 val_main_v66 val_main_v65 val_main_v64
    val_main_v63 val_main_v62 val_main_c_4 val_main_c_5 val_main_cst_6 agg64 srcIdx
  rfl
/-- The third layer's weights: each is a reshape of slice 1 of a stack, so reading it at `(a, b)` (at `a`) reads the
    stack at `(1, a, b)` (at `(1, a)`). -/
private theorem w55 : val_main_v55 (F := Ideal) x8 = Cert.Gin.mat 1 x8 := by
  funext i
  obtain ⟨a, b, rfl⟩ : ∃ (a b : Fin 64), i = ix2 a b := ⟨i 0, i 1, eq_ix2 i⟩
  rw [val_main_v55_apply, val_main_v54_apply]
  unfold Cert.Gin.mat
  congr 1
  funext d
  apply Fin.ext
  have ha := a.isLt
  have hb := b.isLt
  match d with
  | ⟨0, _⟩ => rfl
  | ⟨1, _⟩ => show (a.val * 64 + b.val) / 64 % 64 = a.val; omega
  | ⟨2, _⟩ => show (a.val * 64 + b.val) % 64 = b.val; omega
private theorem w57 : val_main_v57 (F := Ideal) x9 = Cert.Gin.vec 1 x9 := by
  funext i
  obtain ⟨a, rfl⟩ : ∃ (a : Fin 64), i = ix1 a := ⟨i 0, eq_ix1 i⟩
  rw [val_main_v57_apply, val_main_v56_apply]
  unfold Cert.Gin.vec
  congr 1
  funext d
  apply Fin.ext
  match d with
  | ⟨0, _⟩ => rfl
  | ⟨1, _⟩ => exact Nat.mod_eq_of_lt a.isLt
private theorem w59 : val_main_v59 (F := Ideal) x10 = Cert.Gin.mat 1 x10 := by
  funext i
  obtain ⟨a, b, rfl⟩ : ∃ (a b : Fin 64), i = ix2 a b := ⟨i 0, i 1, eq_ix2 i⟩
  rw [val_main_v59_apply, val_main_v58_apply]
  unfold Cert.Gin.mat
  congr 1
  funext d
  apply Fin.ext
  have ha := a.isLt
  have hb := b.isLt
  match d with
  | ⟨0, _⟩ => rfl
  | ⟨1, _⟩ => show (a.val * 64 + b.val) / 64 % 64 = a.val; omega
  | ⟨2, _⟩ => show (a.val * 64 + b.val) % 64 = b.val; omega
private theorem w61 : val_main_v61 (F := Ideal) x11 = Cert.Gin.vec 1 x11 := by
  funext i
  obtain ⟨a, rfl⟩ : ∃ (a : Fin 64), i = ix1 a := ⟨i 0, eq_ix1 i⟩
  rw [val_main_v61_apply, val_main_v60_apply]
  unfold Cert.Gin.vec
  congr 1
  funext d
  apply Fin.ext
  match d with
  | ⟨0, _⟩ => rfl
  | ⟨1, _⟩ => exact Nat.mod_eq_of_lt a.isLt

/-- The third layer's index functions, read at coordinates. -/
private theorem l78 (n : Fin 100000) (q k : Fin 64) : lidx_main_v78 (ix2 n q) k = ix2 n k :=
  funext fun a => Fin.ext (by match a with | ⟨0, _⟩ => rfl | ⟨1, _⟩ => rfl)
private theorem r78 (n : Fin 100000) (q k : Fin 64) : ridx_main_v78 (ix2 n q) k = ix2 k q :=
  funext fun a => Fin.ext (by match a with | ⟨0, _⟩ => rfl | ⟨1, _⟩ => rfl)
private theorem l73 (n : Fin 100000) (k j : Fin 64) : lidx_main_v73 (ix2 n k) j = ix2 n j :=
  funext fun a => Fin.ext (by match a with | ⟨0, _⟩ => rfl | ⟨1, _⟩ => rfl)
private theorem r73 (n : Fin 100000) (k j : Fin 64) : ridx_main_v73 (ix2 n k) j = ix2 j k :=
  funext fun a => Fin.ext (by match a with | ⟨0, _⟩ => rfl | ⟨1, _⟩ => rfl)
private theorem i75 (n : Fin 100000) (k : Fin 64) : idx_main_v74 (idx_main_v75 (ix2 n k)) = ix1 k :=
  funext fun a => Fin.ext (by match a with | ⟨0, _⟩ => rfl)
private theorem i80 (n : Fin 100000) (q : Fin 64) : idx_main_v79 (idx_main_v80 (ix2 n q)) = ix1 q :=
  funext fun a => Fin.ext (by match a with | ⟨0, _⟩ => rfl)

theorem ref_layer3 : val_main_v82 (F := Ideal) x0 x1 x4 x5 x6 x7 x8 x9 x10 x11
    = Cert.Gin.layer (val_main_v53 (F := Ideal) x0 x1 x4 x5 x6 x7 x8 x9 x10 x11) (val_main_v71 (F := Ideal) x0 x1 x4 x5 x6 x7 x8 x9 x10 x11)
        (Cert.Gin.mat 1 x8) (Cert.Gin.vec 1 x9) (Cert.Gin.mat 1 x10) (Cert.Gin.vec 1 x11) := by
  rw [← w55 x8, ← w57 x9, ← w59 x10, ← w61 x11]
  funext i
  obtain ⟨n, q, rfl⟩ : ∃ (n : Fin 100000) (q : Fin 64), i = ix2 n q := ⟨i 0, i 1, eq_ix2 i⟩
  rw [val_main_v82_apply, val_main_v81_apply, val_main_v78_apply, val_main_v80_apply, val_main_v79_apply,
    val_main_call5_v0_apply, val_main_call5_cst_apply]
  simp only [val_main_v77_apply, val_main_v76_apply, val_main_v73_apply, val_main_v72_apply, val_main_v75_apply,
    val_main_v74_apply, val_main_call4_v0_apply, val_main_call4_cst_apply]
  simp only [l78, r78, l73, r73, i75, i80, Ideal.maximumf_def, Ideal.addf_def, Ideal.ofBits_def, Ideal.ofBits_zero_f32]
  unfold Cert.Gin.layer Cert.Gin.mlpRow
  rfl

theorem ref_agg4 : val_main_v100 (F := Ideal) x0 x1 x4 x5 x6 x7 x8 x9 x10 x11 = agg64 (Cert.Gin.row 0 x1) (Cert.Gin.row 1 x1) (val_main_v82 (F := Ideal) x0 x1 x4 x5 x6 x7 x8 x9 x10 x11) := by
  rw [← ref_row0 x1, ← ref_row1 x1]
  unfold val_main_v100 val_main_v99 val_main_v98 val_main_v97 val_main_v96 val_main_v95 val_main_v94 val_main_v93
    val_main_v92 val_main_v91 val_main_c_7 val_main_c_8 val_main_cst_9 agg64 srcIdx
  rfl
/-- The fourth layer's weights: each is a reshape of slice 2 of a stack, so reading it at `(a, b)` (at `a`) reads the
    stack at `(2, a, b)` (at `(2, a)`). -/
private theorem w84 : val_main_v84 (F := Ideal) x8 = Cert.Gin.mat 2 x8 := by
  funext i
  obtain ⟨a, b, rfl⟩ : ∃ (a b : Fin 64), i = ix2 a b := ⟨i 0, i 1, eq_ix2 i⟩
  rw [val_main_v84_apply, val_main_v83_apply]
  unfold Cert.Gin.mat
  congr 1
  funext d
  apply Fin.ext
  have ha := a.isLt
  have hb := b.isLt
  match d with
  | ⟨0, _⟩ => rfl
  | ⟨1, _⟩ => show (a.val * 64 + b.val) / 64 % 64 = a.val; omega
  | ⟨2, _⟩ => show (a.val * 64 + b.val) % 64 = b.val; omega
private theorem w86 : val_main_v86 (F := Ideal) x9 = Cert.Gin.vec 2 x9 := by
  funext i
  obtain ⟨a, rfl⟩ : ∃ (a : Fin 64), i = ix1 a := ⟨i 0, eq_ix1 i⟩
  rw [val_main_v86_apply, val_main_v85_apply]
  unfold Cert.Gin.vec
  congr 1
  funext d
  apply Fin.ext
  match d with
  | ⟨0, _⟩ => rfl
  | ⟨1, _⟩ => exact Nat.mod_eq_of_lt a.isLt
private theorem w88 : val_main_v88 (F := Ideal) x10 = Cert.Gin.mat 2 x10 := by
  funext i
  obtain ⟨a, b, rfl⟩ : ∃ (a b : Fin 64), i = ix2 a b := ⟨i 0, i 1, eq_ix2 i⟩
  rw [val_main_v88_apply, val_main_v87_apply]
  unfold Cert.Gin.mat
  congr 1
  funext d
  apply Fin.ext
  have ha := a.isLt
  have hb := b.isLt
  match d with
  | ⟨0, _⟩ => rfl
  | ⟨1, _⟩ => show (a.val * 64 + b.val) / 64 % 64 = a.val; omega
  | ⟨2, _⟩ => show (a.val * 64 + b.val) % 64 = b.val; omega
private theorem w90 : val_main_v90 (F := Ideal) x11 = Cert.Gin.vec 2 x11 := by
  funext i
  obtain ⟨a, rfl⟩ : ∃ (a : Fin 64), i = ix1 a := ⟨i 0, eq_ix1 i⟩
  rw [val_main_v90_apply, val_main_v89_apply]
  unfold Cert.Gin.vec
  congr 1
  funext d
  apply Fin.ext
  match d with
  | ⟨0, _⟩ => rfl
  | ⟨1, _⟩ => exact Nat.mod_eq_of_lt a.isLt

/-- The fourth layer's index functions, read at coordinates. -/
private theorem l107 (n : Fin 100000) (q k : Fin 64) : lidx_main_v107 (ix2 n q) k = ix2 n k :=
  funext fun a => Fin.ext (by match a with | ⟨0, _⟩ => rfl | ⟨1, _⟩ => rfl)
private theorem r107 (n : Fin 100000) (q k : Fin 64) : ridx_main_v107 (ix2 n q) k = ix2 k q :=
  funext fun a => Fin.ext (by match a with | ⟨0, _⟩ => rfl | ⟨1, _⟩ => rfl)
private theorem l102 (n : Fin 100000) (k j : Fin 64) : lidx_main_v102 (ix2 n k) j = ix2 n j :=
  funext fun a => Fin.ext (by match a with | ⟨0, _⟩ => rfl | ⟨1, _⟩ => rfl)
private theorem r102 (n : Fin 100000) (k j : Fin 64) : ridx_main_v102 (ix2 n k) j = ix2 j k :=
  funext fun a => Fin.ext (by match a with | ⟨0, _⟩ => rfl | ⟨1, _⟩ => rfl)
private theorem i104 (n : Fin 100000) (k : Fin 64) : idx_main_v103 (idx_main_v104 (ix2 n k)) = ix1 k :=
  funext fun a => Fin.ext (by match a with | ⟨0, _⟩ => rfl)
private theorem i109 (n : Fin 100000) (q : Fin 64) : idx_main_v108 (idx_main_v109 (ix2 n q)) = ix1 q :=
  funext fun a => Fin.ext (by match a with | ⟨0, _⟩ => rfl)

theorem ref_layer4 : val_main_v111 (F := Ideal) x0 x1 x4 x5 x6 x7 x8 x9 x10 x11
    = Cert.Gin.layer (val_main_v82 (F := Ideal) x0 x1 x4 x5 x6 x7 x8 x9 x10 x11) (val_main_v100 (F := Ideal) x0 x1 x4 x5 x6 x7 x8 x9 x10 x11)
        (Cert.Gin.mat 2 x8) (Cert.Gin.vec 2 x9) (Cert.Gin.mat 2 x10) (Cert.Gin.vec 2 x11) := by
  rw [← w84 x8, ← w86 x9, ← w88 x10, ← w90 x11]
  funext i
  obtain ⟨n, q, rfl⟩ : ∃ (n : Fin 100000) (q : Fin 64), i = ix2 n q := ⟨i 0, i 1, eq_ix2 i⟩
  rw [val_main_v111_apply, val_main_v110_apply, val_main_v107_apply, val_main_v109_apply, val_main_v108_apply,
    val_main_call7_v0_apply, val_main_call7_cst_apply]
  simp only [val_main_v106_apply, val_main_v105_apply, val_main_v102_apply, val_main_v101_apply, val_main_v104_apply,
    val_main_v103_apply, val_main_call6_v0_apply, val_main_call6_cst_apply]
  simp only [l107, r107, l102, r102, i104, i109, Ideal.maximumf_def, Ideal.addf_def, Ideal.ofBits_def, Ideal.ofBits_zero_f32]
  unfold Cert.Gin.layer Cert.Gin.mlpRow
  rfl

end Cert.ReferenceIdeal.Hand

end
-- ==== Proof.RScatter.lean ====
/-
  The reference's two poolings read entry by entry. The host's accumulating scatter of rows into a zero array, each
  row sent to the row its id names, holds at entry (s, q) zero plus the sum of the update entries (n, q) with id n = s:
  an update lands at row (id read as a signed integer) + 0 and column q, and is dropped when that row is outside the
  result. That is the segment sum.
-/
import proofs.«423676_j55946243998145_1_alg».proof.ReferenceIdeal
import proofs.«423676_j55946243998145_1_alg».proof.Proof.Gen.ReferenceIdeal
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.ReferenceIdeal.Hand

open Cert.ReferenceIdeal Cert.ReferenceIdeal.Gen

section Generic
variable {R M : Nat}

/-! The axis lists of a rank-two scatter that inserts axis 0 of the operand, takes axis 1 of the updates as its window
    and reads its one-component index vector along axis 1 of the indices, computed. -/

private theorem filt_not1 : (List.finRange 2).filter (fun a : Fin 2 => a ∉ [(1 : Fin 2)]) = [0] := by decide
private theorem filt_not0 : (List.finRange 2).filter (fun a : Fin 2 => a ∉ [(0 : Fin 2)]) = [1] := by decide
private theorem filt_ne1 : (List.finRange 2).filter (fun a : Fin 2 => a.val ≠ 1) = [0] := by decide

private theorem one_notin : (1 : Fin 2) ∉ [(0 : Fin 2)] := by decide
private theorem zero_notin : (0 : Fin 2) ∉ [(1 : Fin 2)] := by decide

private theorem pick_s : ∀ p, ((List.finRange 2).filter (fun a : Fin 2 => a ∉ [(1 : Fin 2)]))[List.idxOf (0 : Fin 2)
    ((List.finRange 2).filter (fun a : Fin 2 => a.val ≠ 1))]'p = 0 := by decide
private theorem pick_w : ∀ p, ([(1 : Fin 2)])[List.idxOf (1 : Fin 2)
    ((List.finRange 2).filter (fun a : Fin 2 => a ∉ [(0 : Fin 2)]))]'p = 1 := by decide

private theorem kept_u : (⟨2, ![M, 64]⟩ : Shape).kept [1] = [0] := filt_not1
private theorem kept_s : (⟨2, ![R, 64]⟩ : Shape).kept [0] = [1] := filt_not0
private theorem sik (wf) : (ScatterDims.mk (s := ⟨2, ![R, 64]⟩) (si := ⟨2, ![M, 1]⟩) (u := ⟨2, ![M, 64]⟩) [1] [0] [0] 1 wf).siKept = [0] := filt_ne1

/-- On axis 0 the window starts at the id in column 0 of the update's row, read as a signed integer. -/
private theorem start_0 (wf) (j : (⟨2, ![M, 64]⟩ : Shape).Idx) (idx : IVec (⟨2, ![M, 1]⟩ : Shape) 32) :
    (ScatterDims.mk (s := ⟨2, ![R, 64]⟩) (si := ⟨2, ![M, 1]⟩) (u := ⟨2, ![M, 64]⟩) [1] [0] [0] 1 wf).start j idx 0
      = (idx (ix2 (j 0) 0)).toInt := by
  unfold ScatterDims.start
  rw [dif_pos (List.mem_singleton.2 rfl)]
  refine congrArg (fun k => (idx k).toInt) (funext fun b => ?_)
  match b with
  | ⟨0, _⟩ =>
    apply Fin.ext
    simp only [ScatterDims.siIdx, ScatterDims.siCoord]
    rw [dif_neg (by decide)]
    exact congrArg (fun a => (j a).val) (pick_s _)
  | ⟨1, _⟩ =>
    apply Fin.ext
    simp [ScatterDims.siIdx]

/-- On axis 1, which the index vector does not name, the window starts at 0. -/
private theorem start_1 (wf) (j : (⟨2, ![M, 64]⟩ : Shape).Idx) (idx : IVec (⟨2, ![M, 1]⟩ : Shape) 32) :
    (ScatterDims.mk (s := ⟨2, ![R, 64]⟩) (si := ⟨2, ![M, 1]⟩) (u := ⟨2, ![M, 64]⟩) [1] [0] [0] 1 wf).start j idx 1 = 0 := by
  unfold ScatterDims.start
  rw [dif_neg one_notin]

/-- Axis 0 is inserted: its window coordinate is 0. -/
private theorem window_0 (wf) (j : (⟨2, ![M, 64]⟩ : Shape).Idx) :
    (ScatterDims.mk (s := ⟨2, ![R, 64]⟩) (si := ⟨2, ![M, 1]⟩) (u := ⟨2, ![M, 64]⟩) [1] [0] [0] 1 wf).window j 0 = 0 := by
  unfold ScatterDims.window
  rw [dif_neg (by rw [show (ScatterDims.mk (s := ⟨2, ![R, 64]⟩) (si := ⟨2, ![M, 1]⟩) (u := ⟨2, ![M, 64]⟩) [1] [0] [0] 1 wf).sKept = [1] from kept_s]; exact zero_notin)]

/-- Axis 1 carries the update's column. -/
private theorem window_1 (wf) (j : (⟨2, ![M, 64]⟩ : Shape).Idx) :
    (ScatterDims.mk (s := ⟨2, ![R, 64]⟩) (si := ⟨2, ![M, 1]⟩) (u := ⟨2, ![M, 64]⟩) [1] [0] [0] 1 wf).window j 1 = (j 1).val := by
  unfold ScatterDims.window
  rw [dif_pos (by rw [show (ScatterDims.mk (s := ⟨2, ![R, 64]⟩) (si := ⟨2, ![M, 1]⟩) (u := ⟨2, ![M, 64]⟩) [1] [0] [0] 1 wf).sKept = [1] from kept_s]; exact List.mem_singleton.2 rfl)]
  exact congrArg (fun a => (j a).val) (pick_w _)

/-- Update entry `(n, q')` lands at `(s, q)` exactly when the id of row `n` is `s` and `q' = q`; a row whose id is
    negative or not below the number of result rows lands nowhere. -/
private theorem resultIdx_iff (wf) (idx : IVec (⟨2, ![M, 1]⟩ : Shape) 32) (n : Fin M) (q' : Fin 64) (s : Fin R) (q : Fin 64) :
    (ScatterDims.mk (s := ⟨2, ![R, 64]⟩) (si := ⟨2, ![M, 1]⟩) (u := ⟨2, ![M, 64]⟩) [1] [0] [0] 1 wf).resultIdx? (ix2 n q') idx
        = some (ix2 s q)
      ↔ (idx (ix2 n 0)).toInt = (s.val : Int) ∧ q' = q := by
  have hs0 := start_0 (R := R) wf (ix2 n q') idx
  have hs1 := start_1 (R := R) wf (ix2 n q') idx
  have hw0 := window_0 (R := R) wf (ix2 n q')
  have hw1 := window_1 (R := R) wf (ix2 n q')
  change _ = (idx (ix2 n 0)).toInt at hs0
  change _ = q'.val at hw1
  have hR : (⟨2, ![R, 64]⟩ : Shape).size 0 = R := rfl
  have h64 : (⟨2, ![R, 64]⟩ : Shape).size 1 = 64 := rfl
  unfold ScatterDims.resultIdx?
  constructor
  · intro h
    split at h
    · rename_i hin
      have hf := Option.some.inj h
      have h0 : (_ : Int).toNat = s.val := congrArg (fun f => (f 0).val) hf
      have h1 := congrArg (fun f => (f 1).val) hf
      have e1 : ((ix2 s q : (⟨2, ![R, 64]⟩ : Shape).Idx) 1).val = q.val := rfl
      simp only [] at h1
      have hin0 := (hin 0).1
      rw [hs0, hw0] at h0 hin0
      rw [e1, hs1, hw1] at h1
      exact ⟨by omega, Fin.ext (by omega)⟩
    · exact absurd h (by simp)
  · rintro ⟨h0, rfl⟩
    rw [dif_pos (fun a => by
      match a with
      | ⟨0, hlt⟩ => rw [show (⟨0, hlt⟩ : Fin (Shape.rank ⟨2, ![R, 64]⟩)) = 0 from rfl, hs0, hw0, hR, h0]; have := s.isLt; omega
      | ⟨1, hlt⟩ => rw [show (⟨1, hlt⟩ : Fin (Shape.rank ⟨2, ![R, 64]⟩)) = 1 from rfl, hs1, hw1, h64]; have := q'.isLt; omega)]
    refine congrArg some (funext fun a => ?_)
    match a with
    | ⟨0, hlt⟩ => apply Fin.ext; show (_ : Int).toNat = s.val; rw [show (⟨0, hlt⟩ : Fin (Shape.rank ⟨2, ![R, 64]⟩)) = 0 from rfl, hs0, hw0, h0]; omega
    | ⟨1, hlt⟩ =>
      apply Fin.ext
      have e1 : ((ix2 s q' : (⟨2, ![R, 64]⟩ : Shape).Idx) ⟨1, hlt⟩).val = q'.val := rfl
      refine Eq.trans ?_ e1.symm
      refine Eq.trans (Fin.val_mk _) ?_
      rw [show (⟨1, hlt⟩ : Fin (Shape.rank ⟨2, ![R, 64]⟩)) = 1 from rfl, hs1, hw1]
      omega

/-- The accumulating scatter of the rows of `upd` into a zero array of `R` rows, row `n` sent to the row the id in
    column 0 of row `n` of `idx` names: entry `(s, q)` is the sum of `upd (n, q)` over the rows whose id is `s`. -/
private theorem scatter_rows (wf) (x : (⟨2, ![R, 64]⟩ : Shape).Idx → EReal) (hx : ∀ i, x i = 0)
    (idx : IVec (⟨2, ![M, 1]⟩ : Shape) 32) (upd : (⟨2, ![M, 64]⟩ : Shape).Idx → EReal) (i : (⟨2, ![R, 64]⟩ : Shape).Idx) :
    Ideal.hostScatterAdd
        (ScatterDims.mk (s := ⟨2, ![R, 64]⟩) (si := ⟨2, ![M, 1]⟩) (u := ⟨2, ![M, 64]⟩) [1] [0] [0] 1 wf) x idx upd i
      = ∑ n : Fin M, if (idx (ix2 n 0)).toInt = ((i 0).val : Int) then upd (ix2 n (i 1)) else 0 := by
  obtain ⟨s, q, rfl⟩ : ∃ (s : Fin R) (q : Fin 64), i = ix2 s q := ⟨i 0, i 1, eq_ix2 i⟩
  show _ = ∑ n : Fin M, if (idx (ix2 n 0)).toInt = (s.val : Int) then upd (ix2 n q) else 0
  unfold Ideal.hostScatterAdd
  rw [hx, zero_add, Finset.sum_filter, sum_idx2]
  refine Finset.sum_congr rfl fun n _ => ?_
  rw [Finset.sum_congr rfl (fun q' _ => if_congr (resultIdx_iff wf idx n q' s q) rfl rfl)]
  by_cases hA : (idx (ix2 n 0)).toInt = (s.val : Int)
  · simp [hA]
  · simp [hA]

/-- An id column made from a vector of ids holds id `n` in row `n`. -/
private theorem idCol_apply (hM : M ≠ 1) (hb : (⟨1, ![M]⟩ : Shape).BroadcastsInDim ⟨2, ![M, 1]⟩ ![0])
    (id : IVec (⟨1, ![M]⟩ : Shape) 32) (n : Fin M) :
    broadcastInDim (⟨2, ![M, 1]⟩ : Shape) ![0] hb id (ix2 n 0) = id (ix1 n) := by
  refine broadcastInDim_apply _ _ _ _ (ix1 n) fun a => ?_
  have ha : a = 0 := Subsingleton.elim _ _
  subst ha
  rw [if_neg (show (⟨1, ![M]⟩ : Shape).size 0 ≠ 1 from hM)]
  rfl

end Generic

/-- Nodes into subgraphs. -/
theorem pool_nodes (id : IVec S100000 32) (h : FVec Ideal S100000x64 .f32) :
    Host.scatterAdd scatter_S2000x64_S100000x1_S100000x64_1_0_0_1
        (broadcastInDim S2000x64 ![] bcast_S_S2000x64 (constant (F := Ideal) S_ .f32 0x00000000#32))
        (broadcastInDim S100000x1 ![0] bcast_S100000_S100000x1_0 id) h
      = Cert.Gin.segSum 2000 id h := by
  funext i
  refine (scatter_rows (R := 2000) (M := 100000) _ _ (fun _ => Ideal.ofBits_zero_f32) _ h i).trans ?_
  unfold Cert.Gin.segSum
  refine Finset.sum_congr rfl fun n _ => ?_
  rw [idCol_apply (by decide)]

/-- Subgraphs into graphs. -/
theorem pool_subgraphs (id : IVec S2000 32) (p : FVec Ideal S2000x64 .f32) :
    Host.scatterAdd scatter_S64x64_S2000x1_S2000x64_1_0_0_1
        (broadcastInDim S64x64 ![] bcast_S_S64x64 (constant (F := Ideal) S_ .f32 0x00000000#32))
        (broadcastInDim S2000x1 ![0] bcast_S2000_S2000x1_0 id) p
      = Cert.Gin.segSum 64 id p := by
  funext i
  refine (scatter_rows (R := 64) (M := 2000) _ _ (fun _ => Ideal.ofBits_zero_f32) _ p i).trans ?_
  unfold Cert.Gin.segSum
  refine Finset.sum_congr rfl fun n _ => ?_
  rw [idCol_apply (by decide)]

end Cert.ReferenceIdeal.Hand

end
-- ==== Proof.RefHead.lean ====
/-
  The reference's two poolings and its classifier with the log-softmax, stage by stage: the poolings are the segment
  sums of the stage before; the logits are a relu between two dot products with their biases; the log-softmax subtracts
  the row's maximum (a fold of max from minus infinity, whose further maximum with minus infinity changes nothing), and
  then the logarithm of the row's sum of exponentials.
-/
import proofs.«423676_j55946243998145_1_alg».proof.Proof.RefGen
import proofs.«423676_j55946243998145_1_alg».proof.Proof.RScatter
import proofs.«423676_j55946243998145_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.ReferenceIdeal.Hand

open Cert.ReferenceIdeal Cert.ReferenceIdeal.Gen Cert.ReferenceIdeal.Read

variable (x0 : FVec Ideal S100000x1 .f32) (x1 : IVec S2x1600000 32) (x2 : IVec S100000 32) (x3 : IVec S2000 32)
  (x4 : FVec Ideal S1x64 .f32) (x5 : FVec Ideal S64 .f32) (x6 : FVec Ideal S64x64 .f32) (x7 : FVec Ideal S64 .f32)
  (x8 : FVec Ideal S3x64x64 .f32) (x9 : FVec Ideal S3x64 .f32) (x10 : FVec Ideal S3x64x64 .f32) (x11 : FVec Ideal S3x64 .f32)
  (x12 : FVec Ideal S64x64 .f32) (x13 : FVec Ideal S64 .f32) (x14 : FVec Ideal S64x8 .f32) (x15 : FVec Ideal S8 .f32)

/-- The reduced index `g` with class `k` put back on the second axis is (g, k). -/
private theorem lift_col (h : (⟨2, ![64, 8]⟩ : Shape).Reduces [1] (⟨1, ![64]⟩ : Shape)) (g : Fin 64)
    (k : Fin ((⟨2, ![64, 8]⟩ : Shape).size 1)) : h.lift (ix1 g) k = ix2 g (⟨k.val, k.isLt⟩ : Fin 8) := by
  funext c; apply Fin.ext
  fin_cases c <;> rfl

/-- The logits: the second dot product with its bias, over the relu of the first with its bias. -/
private theorem logit_at (g : Fin 64) (o : Fin 8) :
    val_main_v126 (F := Ideal) x0 x1 x2 x3 x4 x5 x6 x7 x8 x9 x10 x11 x12 x13 x14 x15 (ix2 g o)
      = Cert.Gin.logit (fun j => val_main_v117 (F := Ideal) x0 x1 x2 x3 x4 x5 x6 x7 x8 x9 x10 x11 (ix2 g j)) (fun j k => x12 (ix2 j k))
          (fun k => x13 (ix1 k)) (fun k o => x14 (ix2 k o)) (fun o => x15 (ix1 o)) o := by
  rw [val_main_v126_apply, val_main_v123_apply, val_main_v125_apply, val_main_v124_apply]
  unfold Cert.Gin.logit
  rw [Ideal.addf_def]
  refine congrArg₂ (· + ·) (Finset.sum_congr rfl fun k _ => ?_) ?_
  · rw [val_main_v122_apply, val_main_v121_apply, val_main_v118_apply, val_main_v120_apply, val_main_v119_apply,
      val_main_call8_v0_apply, val_main_call8_cst_apply]
    rw [Ideal.maximumf_def, Ideal.addf_def, Ideal.ofBits_def, Ideal.ofBits_zero_f32]
    have e1 : ∀ j : Fin 64, lidx_main_v118 (lidx_main_v123 (ix2 g o) k) j = ix2 g j := fun j =>
      funext fun a => Fin.ext (by match a with | ⟨0, _⟩ => rfl | ⟨1, _⟩ => rfl)
    have e2 : ∀ j : Fin 64, ridx_main_v118 (lidx_main_v123 (ix2 g o) k) j = ix2 j k := fun j =>
      funext fun a => Fin.ext (by match a with | ⟨0, _⟩ => rfl | ⟨1, _⟩ => rfl)
    have e3 : idx_main_v119 (idx_main_v120 (lidx_main_v123 (ix2 g o) k)) = ix1 k :=
      funext fun a => Fin.ext (by match a with | ⟨0, _⟩ => rfl)
    have e4 : ridx_main_v123 (ix2 g o) k = ix2 k o :=
      funext fun a => Fin.ext (by match a with | ⟨0, _⟩ => rfl | ⟨1, _⟩ => rfl)
    simp only [e1, e2, e3, e4]
  · exact congrArg x15 (funext fun a => Fin.ext (by match a with | ⟨0, _⟩ => rfl))

/-- From minus infinity the host's reduce with a maximum body over the eight classes of row `g`, taken once more
    against minus infinity, is the row's maximum: the fold is at least its initial value, so the outer maximum is the fold. -/
private theorem hostReduce_max_row (x : FVec Ideal (⟨2, ![64, 8]⟩ : Shape) .f32)
    (h' : (⟨2, ![64, 8]⟩ : Shape).ReducesTo [1] (⟨1, ![64]⟩ : Shape)) (hu : 0 < (⟨0, ![]⟩ : Shape).numel) (g : Fin 64) :
    max (Ideal.ofBits .f32 0xFF800000#32)
        (Host.reduce FloatOps.maximumf x (constant (F := Ideal) (⟨0, ![]⟩ : Shape) .f32 0xFF800000#32) h' hu (ix1 g))
      = Cert.Gin.rowMax (fun o => x (ix2 g o)) := by
  have h : (⟨2, ![64, 8]⟩ : Shape).Reduces [1] (⟨1, ![64]⟩ : Shape) := by decide
  rw [Host.reduce_eq_fold_single FloatOps.maximumf x _ h' h hu]
  have hf : (x ∘ h.lift (ix1 g)) = fun o : Fin 8 => x (ix2 g o) := funext fun k => congrArg x (lift_col h g k)
  unfold Cert.Gin.rowMax
  refine Eq.trans (max_eq_right ((Finset.le_fold_max (β := EReal) _).2 (Or.inl le_rfl))) ?_
  exact congrArg (fun f => Finset.fold max (Ideal.ofBits .f32 0xFF800000#32) f (Finset.univ : Finset (Fin 8))) hf

/-- The row's maximum as the reference computes it. -/
private theorem rowmax_at (g : Fin 64) :
    val_main_call9_v2 (F := Ideal) x0 x1 x2 x3 x4 x5 x6 x7 x8 x9 x10 x11 x12 x13 x14 x15 (ix1 g)
      = Cert.Gin.rowMax (fun o => val_main_v126 (F := Ideal) x0 x1 x2 x3 x4 x5 x6 x7 x8 x9 x10 x11 x12 x13 x14 x15 (ix2 g o)) := by
  rw [val_main_call9_v2_apply, val_main_call9_v1_apply, val_main_call9_cst_0_apply, Ideal.maximumf_def, Ideal.ofBits_def]
  unfold val_main_call9_v0 val_main_call9_cst
  generalize val_main_v126 (F := Ideal) x0 x1 x2 x3 x4 x5 x6 x7 x8 x9 x10 x11 x12 x13 x14 x15 = y
  exact hostReduce_max_row y _ _ g

theorem ref_pool1 : val_main_v114 (F := Ideal) x0 x1 x2 x4 x5 x6 x7 x8 x9 x10 x11 = Cert.Gin.segSum 2000 x2 (val_main_v111 (F := Ideal) x0 x1 x4 x5 x6 x7 x8 x9 x10 x11) := by
  unfold val_main_v114 val_main_v113 val_main_v112 val_main_cst_10
  exact pool_nodes x2 _
theorem ref_pool2 : val_main_v117 (F := Ideal) x0 x1 x2 x3 x4 x5 x6 x7 x8 x9 x10 x11 = Cert.Gin.segSum 64 x3 (val_main_v114 (F := Ideal) x0 x1 x2 x4 x5 x6 x7 x8 x9 x10 x11) := by
  unfold val_main_v117 val_main_v116 val_main_v115 val_main_cst_11
  exact pool_subgraphs x3 _
theorem ref_head : val_main_v127 (F := Ideal) x0 x1 x2 x3 x4 x5 x6 x7 x8 x9 x10 x11 x12 x13 x14 x15 = Cert.Gin.head (val_main_v117 (F := Ideal) x0 x1 x2 x3 x4 x5 x6 x7 x8 x9 x10 x11) x12 x13 x14 x15 := by
  funext i
  obtain ⟨g, o, rfl⟩ : ∃ (g : Fin 64) (o : Fin 8), i = ix2 g o := ⟨i 0, i 1, eq_ix2 i⟩
  -- entry (g, o) is (logit − m) − log (0 + Σₖ exp-stage at (g, k)), with m the row's maximum stage at g
  rw [val_main_v127_apply, val_main_call9_v5_apply, val_main_call9_v4_apply, val_main_call9_v3_apply,
    val_main_call9_v10_apply, val_main_call9_v9_apply, val_main_call9_v8_apply, val_main_call9_v7_apply,
    val_main_call9_cst_1_apply]
  rw [Ideal.subf_def, Ideal.subf_def, Ideal.hostUnary_log_def, Ideal.ofBits_def, Ideal.ofBits_zero_f32, zero_add]
  have e1 : idx_main_call9_v3 (idx_main_call9_v4 (ix2 g o)) = ix1 g := funext fun a => Fin.ext (by match a with | ⟨0, _⟩ => rfl)
  have e2 : idx_main_call9_v8 (idx_main_call9_v10 (ix2 g o)) = ix1 g := funext fun a => Fin.ext (by match a with | ⟨0, _⟩ => rfl)
  rw [e1, e2]
  -- each summand is exp (logit at (g, k) − m)
  have hs : ∀ k : Fin 8, val_main_call9_v6 (F := Ideal) x0 x1 x2 x3 x4 x5 x6 x7 x8 x9 x10 x11 x12 x13 x14 x15 (idx_main_call9_v7 (ix1 g) k)
      = Ideal.exp (val_main_v126 (F := Ideal) x0 x1 x2 x3 x4 x5 x6 x7 x8 x9 x10 x11 x12 x13 x14 x15 (ix2 g k) - val_main_call9_v2 (F := Ideal) x0 x1 x2 x3 x4 x5 x6 x7 x8 x9 x10 x11 x12 x13 x14 x15 (ix1 g)) := fun k => by
    rw [val_main_call9_v6_apply, val_main_call9_v5_apply, val_main_call9_v4_apply, val_main_call9_v3_apply,
      Ideal.hostUnary_exp_def, Ideal.subf_def]
    have e3 : idx_main_call9_v7 (ix1 g) k = ix2 g k := funext fun a => Fin.ext (by match a with | ⟨0, _⟩ => rfl | ⟨1, _⟩ => rfl)
    have e4 : idx_main_call9_v3 (idx_main_call9_v4 (ix2 g k)) = ix1 g := funext fun a => Fin.ext (by match a with | ⟨0, _⟩ => rfl)
    rw [e3, e4]
  simp only [hs]
  -- m is the fold of max over the row's logits, and the row of logits is the classifier's
  rw [rowmax_at]
  have hl : (fun o' : Fin 8 => val_main_v126 (F := Ideal) x0 x1 x2 x3 x4 x5 x6 x7 x8 x9 x10 x11 x12 x13 x14 x15 (ix2 g o')) = Cert.Gin.logit (fun j => val_main_v117 (F := Ideal) x0 x1 x2 x3 x4 x5 x6 x7 x8 x9 x10 x11 (ix2 g j)) (fun j k => x12 (ix2 j k))
        (fun k => x13 (ix1 k)) (fun k o => x14 (ix2 k o)) (fun o => x15 (ix1 o)) :=
    funext fun o' => logit_at x0 x1 x2 x3 x4 x5 x6 x7 x8 x9 x10 x11 x12 x13 x14 x15 g o'
  show Cert.Gin.logSoftmax (fun o' : Fin 8 => val_main_v126 (F := Ideal) x0 x1 x2 x3 x4 x5 x6 x7 x8 x9 x10 x11 x12 x13 x14 x15 (ix2 g o')) o
    = Cert.Gin.logSoftmax (Cert.Gin.logit (fun j => val_main_v117 (F := Ideal) x0 x1 x2 x3 x4 x5 x6 x7 x8 x9 x10 x11 (ix2 g j)) (fun j k => x12 (ix2 j k))
        (fun k => x13 (ix1 k)) (fun k o => x14 (ix2 k o)) (fun o => x15 (ix1 o))) o
  rw [hl]

end Cert.ReferenceIdeal.Hand

end
-- ==== Proof.RNet.lean ====
/-
  The reference program's result as the network function of its arguments: its run ends with the result buffer at the
  composed term of its operations, which is the last stage; stage by stage, from the classifier back to the first
  layer, each stage is its function (classifier, segment sum, layer, neighbourhood sum) of the stages before.
-/
import proofs.«423676_j55946243998145_1_alg».proof.Proof.RefGen
import proofs.«423676_j55946243998145_1_alg».proof.Proof.RefLayers
import proofs.«423676_j55946243998145_1_alg».proof.Proof.RefHead
import proofs.«423676_j55946243998145_1_alg».proof.Proof.RHost
import proofs.«423676_j55946243998145_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.ReferenceIdeal.Hand

open Cert.ReferenceIdeal Cert.ReferenceIdeal.Gen Cert.ReferenceIdeal.Read

variable (m : (ℓ : Loc nD τ sig) → Buf (Elt Ideal) ℓ)

/-- The reference's result term is `net` of the sixteen arguments. -/
theorem ref_value (c : Dev nD) : (Cert.ReferenceIdeal.Value.res_main_v127 (F := Ideal) m c : S64x8.Idx → EReal)
    = Cert.Gin.net (agg1 (Cert.Gin.row 0 (m ((c.tc : Thread nD τ).loc main_arg1))) (Cert.Gin.row 1 (m ((c.tc : Thread nD τ).loc main_arg1)))) (agg64 (Cert.Gin.row 0 (m ((c.tc : Thread nD τ).loc main_arg1))) (Cert.Gin.row 1 (m ((c.tc : Thread nD τ).loc main_arg1)))) (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (val_main_v127_eq (F := Ideal) m c).trans ?_
  rw [ref_head, ref_pool2, ref_pool1, ref_layer4, ref_agg4, ref_layer3, ref_agg3, ref_layer2, ref_agg2, ref_layer1, ref_agg1]
  rfl

end Cert.ReferenceIdeal.Hand

end
-- ==== Proof.Bridge.lean ====
/-
  The two programs run the same host operations for the neighbourhood sums: the kernel's program's and the reference's
  functions are one function (the same gather and accumulating scatter over the same shapes and dimension numbers).
-/
import proofs.«423676_j55946243998145_1_alg».proof.Proof.KHost
import proofs.«423676_j55946243998145_1_alg».proof.Proof.RHost

noncomputable section

open Idealize.ShloMosaic

namespace Cert.Proof.Bridge

theorem agg1_eq (src dst : IVec Cert.KernelIdeal.S1600000 32) :
    Cert.KernelIdeal.Hand.agg1 src dst = Cert.ReferenceIdeal.Hand.agg1 src dst := rfl

theorem agg64_eq (src dst : IVec Cert.KernelIdeal.S1600000 32) :
    Cert.KernelIdeal.Hand.agg64 src dst = Cert.ReferenceIdeal.Hand.agg64 src dst := rfl

end Cert.Proof.Bridge

end
-- ==== Proof.lean ====
/-
  The certificate's proof. Both programs compute one network: four GIN layers (each `relu (relu ((h + a)·W₁ + b₁)·W₂ + b₂)`
  row by row, `a` the neighbourhood sums of `h`), an add-pooling of nodes into subgraphs and of subgraphs into graphs, a
  two-layer classifier and a log-softmax. The kernel's program runs the layers and poolings as six pallas_calls (the
  layers in row blocks, the poolings as products with 0/1 matrices, the first over 98 grid points on padded arrays);
  the reference runs host operations only. At the extended reals a change of float format is the identity, a matrix
  product is the plain sum of products, a product with 0 is 0 and with 1 the other factor, and a finite sum does not
  depend on its order or grouping: so each pallas_call's result is the same function of its operands as the reference's
  stages, and the neighbourhood sums are the same host operations on both sides. The law needs no finiteness: the
  precondition is never opened. The frames of the two kernel programs are the generated ones; the reference's is its
  generated run with the result dropped; the idealization rewrote nothing.
-/
import proofs.«423676_j55946243998145_1_alg».proof.Defs
import proofs.«423676_j55946243998145_1_alg».proof.Proof.Gen.Kernel
import proofs.«423676_j55946243998145_1_alg».proof.Proof.Gen.Kernel.Frame
import proofs.«423676_j55946243998145_1_alg».proof.Proof.Gen.KernelIdeal
import proofs.«423676_j55946243998145_1_alg».proof.Proof.Gen.KernelIdeal.Frame
import proofs.«423676_j55946243998145_1_alg».proof.Proof.Gen.ReferenceIdeal
import proofs.«423676_j55946243998145_1_alg».proof.Proof.Gen.Pre_finite_inputs
import proofs.«423676_j55946243998145_1_alg».proof.Proof.RefGen
import proofs.«423676_j55946243998145_1_alg».proof.Proof.KRun
import proofs.«423676_j55946243998145_1_alg».proof.Proof.KNet
import proofs.«423676_j55946243998145_1_alg».proof.Proof.RNet
import proofs.«423676_j55946243998145_1_alg».proof.Proof.Bridge
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the network function of the (agreeing) arguments in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Value.res_main_v127 (F := Ideal) m' c, ?_, Cert.ReferenceIdeal.Value.run (F := Ideal) m' ρ'⟩
  refine (θ_run Cert.KernelIdeal.defs _ _).mono (fun r h c => ⟨(h c).1.trans ?_, (h c).2⟩) (Cert.KernelIdeal.Hand.run_result (F := Ideal) m ρ)
  refine (Cert.KernelIdeal.Hand.kernel_value m ρ c).trans ?_
  refine Eq.trans ?_ (Cert.ReferenceIdeal.Hand.ref_value m' c).symm
  obtain ⟨e0, e1, e2, e3, e4, e5, e6, e7, e8, e9, e10, e11, e12, e13, e14, e15⟩ := hagree c
  rw [e0, e1, e2, e3, e4, e5, e6, e7, e8, e9, e10, e11, e12, e13, e14, e15]
  rw [Cert.Proof.Bridge.agg1_eq, Cert.Proof.Bridge.agg64_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
